-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v121)) (v1 : (c : Dev Cert.KernelIdeal.nD) → Buf (Elt Ideal) ((c.tc : Thread Cert.KernelIdeal.nD Cert.KernelIdeal.τ).loc Cert.KernelIdeal.main_v129)) (v2 : (c : Dev Cert.KernelIdeal.nD) → Buf (Elt Ideal) ((c.tc : Thread Cert.KernelIdeal.nD Cert.KernelIdeal.τ).loc Cert.KernelIdeal.main_arg7)) (v3 : (c : Dev Cert.KernelIdeal.nD) → Buf (Elt Ideal) ((c.tc : Thread Cert.KernelIdeal.nD Cert.KernelIdeal.τ).loc Cert.KernelIdeal.main_v135)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v121) = v0 c
          ∧ r.2.mem ((c.tc : Thread Cert.KernelIdeal.nD Cert.KernelIdeal.τ).loc Cert.KernelIdeal.main_v129) = v1 c
          ∧ r.2.mem ((c.tc : Thread Cert.KernelIdeal.nD Cert.KernelIdeal.τ).loc Cert.KernelIdeal.main_arg7) = v2 c
          ∧ r.2.mem ((c.tc : Thread Cert.KernelIdeal.nD Cert.KernelIdeal.τ).loc Cert.KernelIdeal.main_v135) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_v154) = v1 c
          ∧ r.2.mem ((c.tc : Thread Cert.ReferenceIdeal.nD Cert.ReferenceIdeal.τ).loc Cert.ReferenceIdeal.main_arg7) = v2 c
          ∧ r.2.mem ((c.tc : Thread Cert.ReferenceIdeal.nD Cert.ReferenceIdeal.τ).loc Cert.ReferenceIdeal.main_v160) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x2048x1025 : Shape := ⟨4, ![16, 1, 2048, 1025]⟩
abbrev S16x2x2048x1025 : Shape := ⟨4, ![16, 2, 2048, 1025]⟩
abbrev S16x2048x4 : Shape := ⟨3, ![16, 2048, 4]⟩
abbrev S16x1x2048x64 : Shape := ⟨4, ![16, 1, 2048, 64]⟩
abbrev S1025 : Shape := ⟨1, ![1025]⟩
abbrev S64 : Shape := ⟨1, ![64]⟩
abbrev S_ : Shape := ⟨0, ![]⟩

class Facts : Prop where
  bcast_S_S16x1x2048x1025 : S_.BroadcastsInDim S16x1x2048x1025 (![] : Fin 0 → Fin S16x1x2048x1025.rank)
  reducesTo_S16x1x2048x1025_S_d0_1_2_3 : S16x1x2048x1025.ReducesTo [0, 1, 2, 3] S_
  h_S_ : 0 < S_.numel
  bcast_S_S16x2x2048x1025 : S_.BroadcastsInDim S16x2x2048x1025 (![] : Fin 0 → Fin S16x2x2048x1025.rank)
  reducesTo_S16x2x2048x1025_S_d0_1_2_3 : S16x2x2048x1025.ReducesTo [0, 1, 2, 3] S_
  bcast_S_S16x2048x4 : S_.BroadcastsInDim S16x2048x4 (![] : Fin 0 → Fin S16x2048x4.rank)
  reducesTo_S16x2048x4_S_d0_1_2 : S16x2048x4.ReducesTo [0, 1, 2] S_
  bcast_S_S16x1x2048x64 : S_.BroadcastsInDim S16x1x2048x64 (![] : Fin 0 → Fin S16x1x2048x64.rank)
  reducesTo_S16x1x2048x64_S_d0_1_2_3 : S16x1x2048x64.ReducesTo [0, 1, 2, 3] S_
  bcast_S_S1025 : S_.BroadcastsInDim S1025 (![] : Fin 0 → Fin S1025.rank)
  reducesTo_S1025_S_d0 : S1025.ReducesTo [0] S_
  bcast_S_S64 : S_.BroadcastsInDim S64 (![] : Fin 0 → Fin S64.rank)
  reducesTo_S64_S_d0 : S64.ReducesTo [0] S_

variable [Facts]

def fn_part2 {F : FTy → Type} [FloatOps F] (main_arg7 : FVec F S64 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg4 : FVec F S16x2048x4 .f32) (main_arg5 : FVec F S16x1x2048x64 .f32) (main_arg6 : FVec F S1025 .f32) (main_arg7 : FVec F S64 .f32) (main_v13 : IVec S_ 1) (main_v16 : IVec S16x2048x4 1) : IVec S_ 1 :=
  let main_c_5 : IVec S_ 1 := constantI S_ 1 1#1
  let main_v17 : IVec S_ 1 := (fun x v => Host.reduce IntOp.andi x v reducesTo_S16x2048x4_S_d0_1_2 h_S_) main_v16 main_c_5
  let main_v18 : IVec S_ 1 := andi main_v13 main_v17
  let main_v19 : FVec F S16x2048x4 .f32 := Host.absf main_arg4
  let main_cst_6 : FVec F S_ .f32 := constant S_ .f32 0x7F800000#32
  let main_v20 : FVec F S16x2048x4 .f32 := broadcastInDim S16x2048x4 ![] bcast_S_S16x2048x4 main_cst_6
  let main_v21 : IVec S16x2048x4 1 := cmpf .olt main_v19 main_v20
  let main_c_7 : IVec S_ 1 := constantI S_ 1 1#1
  let main_v22 : IVec S_ 1 := (fun x v => Host.reduce IntOp.andi x v reducesTo_S16x2048x4_S_d0_1_2 h_S_) main_v21 main_c_7
  let main_v23 : IVec S_ 1 := andi main_v18 main_v22
  let main_v24 : FVec F S16x1x2048x64 .f32 := Host.absf main_arg5
  let main_cst_8 : FVec F S_ .f32 := constant S_ .f32 0x7F800000#32
  let main_v25 : FVec F S16x1x2048x64 .f32 := broadcastInDim S16x1x2048x64 ![] bcast_S_S16x1x2048x64 main_cst_8
  let main_v26 : IVec S16x1x2048x64 1 := cmpf .olt main_v24 main_v25
  let main_c_9 : IVec S_ 1 := constantI S_ 1 1#1
  let main_v27 : IVec S_ 1 := (fun x v => Host.reduce IntOp.andi x v reducesTo_S16x1x2048x64_S_d0_1_2_3 h_S_) main_v26 main_c_9
  let main_v28 : IVec S_ 1 := andi main_v23 main_v27
  let main_v29 : FVec F S1025 .f32 := Host.absf main_arg6
  let main_cst_10 : FVec F S_ .f32 := constant S_ .f32 0x7F800000#32
  let main_v30 : FVec F S1025 .f32 := broadcastInDim S1025 ![] bcast_S_S1025 main_cst_10
  let main_v31 : IVec S1025 1 := cmpf .olt main_v29 main_v30
  let main_c_11 : IVec S_ 1 := constantI S_ 1 1#1
  let main_v32 : IVec S_ 1 := (fun x v => Host.reduce IntOp.andi x v reducesTo_S1025_S_d0 h_S_) main_v31 main_c_11
  let main_v33 : IVec S_ 1 := andi main_v28 main_v32
  fn_part2 (F := F) main_arg7 main_v33

def fn {F : FTy → Type} [FloatOps F] (main_arg0 : FVec F S16x1x2048x1025 .f32) (main_arg1 : FVec F S16x2x2048x1025 .f32) (main_arg2 : FVec F S16x2048x4 .f32) (main_arg3 : FVec F S16x2048x4 .f32) (main_arg4 : FVec F S16x2048x4 .f32) (main_arg5 : FVec F S16x1x2048x64 .f32) (main_arg6 : FVec F S1025 .f32) (main_arg7 : FVec F S64 .f32) : IVec S_ 1 :=
  let main_v0 : FVec F S16x1x2048x1025 .f32 := Host.absf main_arg0
  let main_cst : FVec F S_ .f32 := constant S_ .f32 0x7F800000#32
  let main_v1 : FVec F S16x1x2048x1025 .f32 := broadcastInDim S16x1x2048x1025 ![] bcast_S_S16x1x2048x1025 main_cst
  let main_v2 : IVec S16x1x2048x1025 1 := cmpf .olt main_v0 main_v1
  let main_c : IVec S_ 1 := constantI S_ 1 1#1
  let main_v3 : IVec S_ 1 := (fun x v => Host.reduce IntOp.andi x v reducesTo_S16x1x2048x1025_S_d0_1_2_3 h_S_) main_v2 main_c
  let main_v4 : FVec F S16x2x2048x1025 .f32 := Host.absf main_arg1
  let main_cst_0 : FVec F S_ .f32 := constant S_ .f32 0x7F800000#32
  let main_v5 : FVec F S16x2x2048x1025 .f32 := broadcastInDim S16x2x2048x1025 ![] bcast_S_S16x2x2048x1025 main_cst_0
  let main_v6 : IVec S16x2x2048x1025 1 := cmpf .olt main_v4 main_v5
  let main_c_1 : IVec S_ 1 := constantI S_ 1 1#1
  let main_v7 : IVec S_ 1 := (fun x v => Host.reduce IntOp.andi x v reducesTo_S16x2x2048x1025_S_d0_1_2_3 h_S_) main_v6 main_c_1
  let main_v8 : IVec S_ 1 := andi main_v3 main_v7
  let main_v9 : FVec F S16x2048x4 .f32 := Host.absf main_arg2
  let main_cst_2 : FVec F S_ .f32 := constant S_ .f32 0x7F800000#32
  let main_v10 : FVec F S16x2048x4 .f32 := broadcastInDim S16x2048x4 ![] bcast_S_S16x2048x4 main_cst_2
  let main_v11 : IVec S16x2048x4 1 := cmpf .olt main_v9 main_v10
  let main_c_3 : IVec S_ 1 := constantI S_ 1 1#1
  let main_v12 : IVec S_ 1 := (fun x v => Host.reduce IntOp.andi x v reducesTo_S16x2048x4_S_d0_1_2 h_S_) main_v11 main_c_3
  let main_v13 : IVec S_ 1 := andi main_v8 main_v12
  let main_v14 : FVec F S16x2048x4 .f32 := Host.absf main_arg3
  let main_cst_4 : FVec F S_ .f32 := constant S_ .f32 0x7F800000#32
  let main_v15 : FVec F S16x2048x4 .f32 := broadcastInDim S16x2048x4 ![] bcast_S_S16x2048x4 main_cst_4
  let main_v16 : IVec S16x2048x4 1 := cmpf .olt main_v14 main_v15
  fn_part1 (F := F) main_arg4 main_arg5 main_arg6 main_arg7 main_v13 main_v16
-- ==== Kernel.lean ====
abbrev S16x1x2048x1025 : Shape := ⟨4, ![16, 1, 2048, 1025]⟩
abbrev S16x2x2048x1025 : Shape := ⟨4, ![16, 2, 2048, 1025]⟩
abbrev S16x2048x4 : Shape := ⟨3, ![16, 2048, 4]⟩
abbrev S16x1x2048x64 : Shape := ⟨4, ![16, 1, 2048, 64]⟩
abbrev S1025 : Shape := ⟨1, ![1025]⟩
abbrev S64 : Shape := ⟨1, ![64]⟩
abbrev S1x1025 : Shape := ⟨2, ![1, 1025]⟩
abbrev S64x1 : Shape := ⟨2, ![64, 1]⟩
abbrev S_ : Shape := ⟨0, ![]⟩
abbrev S64x1025 : Shape := ⟨2, ![64, 1025]⟩
abbrev S4x1025 : Shape := ⟨2, ![4, 1025]⟩
abbrev S4 : Shape := ⟨1, ![4]⟩
abbrev S1x64x1025 : Shape := ⟨3, ![1, 64, 1025]⟩
abbrev S4x1x1025 : Shape := ⟨3, ![4, 1, 1025]⟩
abbrev S4x64x1025 : Shape := ⟨3, ![4, 64, 1025]⟩
abbrev S4x1x1 : Shape := ⟨3, ![4, 1, 1]⟩
abbrev S5x64x1025 : Shape := ⟨3, ![5, 64, 1025]⟩
abbrev S320x1025 : Shape := ⟨2, ![320, 1025]⟩
abbrev S1025x320 : Shape := ⟨2, ![1025, 320]⟩
abbrev S16x2048x320 : Shape := ⟨3, ![16, 2048, 320]⟩
abbrev S1x1x512x1025 : Shape := ⟨4, ![1, 1, 512, 1025]⟩
abbrev S1x2x512x1025 : Shape := ⟨4, ![1, 2, 512, 1025]⟩
abbrev S1x512x320 : Shape := ⟨3, ![1, 512, 320]⟩
abbrev S512x1025 : Shape := ⟨2, ![512, 1025]⟩
abbrev S512 : Shape := ⟨1, ![512]⟩
abbrev S512x1 : Shape := ⟨2, ![512, 1]⟩
abbrev S512x320 : Shape := ⟨2, ![512, 320]⟩
abbrev S16x2048x5x64 : Shape := ⟨4, ![16, 2048, 5, 64]⟩
abbrev S16x2048x1x64 : Shape := ⟨4, ![16, 2048, 1, 64]⟩
abbrev S16x2048x64 : Shape := ⟨3, ![16, 2048, 64]⟩
abbrev S16x2048 : Shape := ⟨2, ![16, 2048]⟩
abbrev S16x2048x1 : Shape := ⟨3, ![16, 2048, 1]⟩
abbrev S16x2048x64x1 : Shape := ⟨4, ![16, 2048, 64, 1]⟩
abbrev S16x2048x64x10 : Shape := ⟨4, ![16, 2048, 64, 10]⟩

abbrev nBuf : Space → Nat
  | .hbm => 193
  | .vmem => 7
  | .smem => 0
  | _ => 0

abbrev hbmTy0_0 (i : Nat) : BufTy := match i % 128 with
  | 0 => ⟨S16x1x2048x1025, .f32⟩
  | 1 => ⟨S16x2x2048x1025, .f32⟩
  | 2 => ⟨S16x2048x4, .f32⟩
  | 3 => ⟨S16x2048x4, .f32⟩
  | 4 => ⟨S16x2048x4, .f32⟩
  | 5 => ⟨S16x1x2048x64, .f32⟩
  | 6 => ⟨S1025, .f32⟩
  | 7 => ⟨S64, .f32⟩
  | 8 => ⟨S1x1025, .f32⟩
  | 9 => ⟨S64x1, .f32⟩
  | 10 => ⟨S_, .f32⟩
  | 11 => ⟨S64x1, .f32⟩
  | 12 => ⟨S64x1, .f32⟩
  | 13 => ⟨S64x1025, .f32⟩
  | 14 => ⟨S64x1025, .f32⟩
  | 15 => ⟨S64x1025, .f32⟩
  | 16 => ⟨S_, .f32⟩
  | 17 => ⟨S64x1025, .f32⟩
  | 18 => ⟨S64x1025, .f32⟩
  | 19 => ⟨S64x1025, .f32⟩
  | 20 => ⟨S_, .f32⟩
  | 21 => ⟨S64x1025, .f32⟩
  | 22 => ⟨S64x1025, .f32⟩
  | 23 => ⟨S_, .f32⟩
  | 24 => ⟨S64x1025, .f32⟩
  | 25 => ⟨S64x1025, .f32⟩
  | 26 => ⟨S_, .f32⟩
  | 27 => ⟨S64, .f32⟩
  | 28 => ⟨S64x1, .f32⟩
  | 29 => ⟨S_, .f32⟩
  | 30 => ⟨S64x1, .f32⟩
  | 31 => ⟨S64x1, .f32⟩
  | 32 => ⟨S_, .f32⟩
  | 33 => ⟨S64x1, .f32⟩
  | 34 => ⟨S64x1, .f32⟩
  | 35 => ⟨S64x1025, .f32⟩
  | 36 => ⟨S64x1025, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S1025, .f32⟩
  | 44 => ⟨S1025, .i1⟩
  | 45 => ⟨S_, .f32⟩
  | 46 => ⟨S1025, .f32⟩
  | 47 => ⟨S1025, .i1⟩
  | 48 => ⟨S1025, .i1⟩
  | 49 => ⟨S1025, .f32⟩
  | 50 => ⟨S_, .f32⟩
  | 51 => ⟨S1025, .f32⟩
  | 52 => ⟨S1025, .i1⟩
  | 53 => ⟨S_, .f32⟩
  | 54 => ⟨S1025, .f32⟩
  | 55 => ⟨S1025, .i1⟩
  | 56 => ⟨S1025, .i1⟩
  | 57 => ⟨S1025, .f32⟩
  | 58 => ⟨S_, .f32⟩
  | 59 => ⟨S1025, .f32⟩
  | 60 => ⟨S1025, .i1⟩
  | 61 => ⟨S_, .f32⟩
  | 62 => ⟨S1025, .f32⟩
  | 63 => ⟨S1025, .i1⟩
  | 64 => ⟨S1025, .i1⟩
  | 65 => ⟨S1025, .f32⟩
  | 66 => ⟨S_, .f32⟩
  | 67 => ⟨S1025, .f32⟩
  | 68 => ⟨S1025, .i1⟩
  | 69 => ⟨S1025, .f32⟩
  | 70 => ⟨S1025, .i1⟩
  | 71 => ⟨S1025, .i1⟩
  | 72 => ⟨S1025, .f32⟩
  | 73 => ⟨S1x1025, .f32⟩
  | 74 => ⟨S1x1025, .f32⟩
  | 75 => ⟨S1x1025, .f32⟩
  | 76 => ⟨S1x1025, .f32⟩
  | 77 => ⟨S4x1025, .f32⟩
  | 78 => ⟨S_, .f32⟩
  | 79 => ⟨S4, .f32⟩
  | 80 => ⟨S_, .f32⟩
  | 81 => ⟨S4, .f32⟩
  | 82 => ⟨S4, .f32⟩
  | 83 => ⟨S1x64x1025, .f32⟩
  | 84 => ⟨S4x1x1025, .f32⟩
  | 85 => ⟨S4x64x1025, .f32⟩
  | 86 => ⟨S4x64x1025, .f32⟩
  | 87 => ⟨S4x64x1025, .f32⟩
  | 88 => ⟨S_, .f32⟩
  | 89 => ⟨S64x1025, .f32⟩
  | 90 => ⟨S64x1025, .f32⟩
  | 91 => ⟨S1x64x1025, .f32⟩
  | 92 => ⟨S4x1x1, .f32⟩
  | 93 => ⟨S4x64x1025, .f32⟩
  | 94 => ⟨S4x64x1025, .f32⟩
  | 95 => ⟨S5x64x1025, .f32⟩
  | 96 => ⟨S320x1025, .f32⟩
  | 97 => ⟨S1025x320, .f32⟩
  | 98 => ⟨S1025x320, .bf16⟩
  | 99 => ⟨S16x2048x320, .f32⟩
  | 100 => ⟨S16x2048x5x64, .f32⟩
  | 101 => ⟨S16x2048x1x64, .f32⟩
  | 102 => ⟨S16x2048x64, .f32⟩
  | 103 => ⟨S16x2048x1x64, .f32⟩
  | 104 => ⟨S16x2048x64, .f32⟩
  | 105 => ⟨S16x2048x1x64, .f32⟩
  | 106 => ⟨S16x2048x64, .f32⟩
  | 107 => ⟨S16x2048x1x64, .f32⟩
  | 108 => ⟨S16x2048x64, .f32⟩
  | 109 => ⟨S16x2048x1x64, .f32⟩
  | 110 => ⟨S16x2048x64, .f32⟩
  | 111 => ⟨S16x2048x64, .f32⟩
  | 112 => ⟨S_, .f32⟩
  | 113 => ⟨S16x2048x64, .f32⟩
  | 114 => ⟨S16x2048x64, .f32⟩
  | 115 => ⟨S_, .f32⟩
  | 116 => ⟨S16x2048, .f32⟩
  | 117 => ⟨S16x2048x1, .f32⟩
  | 118 => ⟨S_, .f32⟩
  | 119 => ⟨S16x2048x1, .f32⟩
  | 120 => ⟨S16x2048x1, .f32⟩
  | 121 => ⟨S_, .f32⟩
  | 122 => ⟨S16x2048x1, .f32⟩
  | 123 => ⟨S16x2048x1, .f32⟩
  | 124 => ⟨S16x2048x64, .f32⟩
  | 125 => ⟨S16x2048x64, .f32⟩
  | 126 => ⟨S_, .f32⟩
  | 127 => ⟨S16x2048, .f32⟩
  | _ => ⟨S16x1x2048x1025, .f32⟩

abbrev hbmTy0_1 (i : Nat) : BufTy := match i % 128 with
  | 0 => ⟨S16x2048x1, .f32⟩
  | 1 => ⟨S_, .f32⟩
  | 2 => ⟨S16x2048x1, .f32⟩
  | 3 => ⟨S16x2048x1, .f32⟩
  | 4 => ⟨S16x2048x64, .f32⟩
  | 5 => ⟨S_, .f32⟩
  | 6 => ⟨S16x2048, .f32⟩
  | 7 => ⟨S16x2048x1, .f32⟩
  | 8 => ⟨S_, .f32⟩
  | 9 => ⟨S16x2048x1, .f32⟩
  | 10 => ⟨S16x2048x1, .f32⟩
  | 11 => ⟨S16x2048x64, .f32⟩
  | 12 => ⟨S16x2048x1, .f32⟩
  | 13 => ⟨S_, .f32⟩
  | 14 => ⟨S_, .f32⟩
  | 15 => ⟨S_, .f32⟩
  | 16 => ⟨S16x2048x1, .f32⟩
  | 17 => ⟨S16x2048x1, .f32⟩
  | 18 => ⟨S_, .f32⟩
  | 19 => ⟨S16x2048x1, .f32⟩
  | 20 => ⟨S16x2048x1, .f32⟩
  | 21 => ⟨S16x2048x64, .f32⟩
  | 22 => ⟨S16x2048x1, .f32⟩
  | 23 => ⟨S_, .f32⟩
  | 24 => ⟨S_, .f32⟩
  | 25 => ⟨S_, .f32⟩
  | 26 => ⟨S16x2048x1, .f32⟩
  | 27 => ⟨S16x2048x1, .f32⟩
  | 28 => ⟨S_, .f32⟩
  | 29 => ⟨S16x2048x1, .f32⟩
  | 30 => ⟨S16x2048x1, .f32⟩
  | 31 => ⟨S16x2048x1, .f32⟩
  | 32 => ⟨S16x2048x64, .f32⟩
  | 33 => ⟨S16x2048x64x1, .f32⟩
  | 34 => ⟨S16x2048x64x1, .f32⟩
  | 35 => ⟨S16x2048x64x1, .f32⟩
  | 36 => ⟨S16x2048x64x1, .f32⟩
  | 37 => ⟨S16x2048x64x1, .f32⟩
  | 38 => ⟨S16x2048x64x1, .f32⟩
  | 39 => ⟨S16x2048x64x1, .f32⟩
  | 40 => ⟨S16x2048x64x1, .f32⟩
  | 41 => ⟨S16x2048x64x1, .f32⟩
  | 42 => ⟨S16x2048x64x1, .f32⟩
  | 43 => ⟨S16x2048x64x10, .f32⟩
  | 44 => ⟨S_, .f32⟩
  | 45 => ⟨S16x2048x64, .f32⟩
  | 46 => ⟨S_, .f32⟩
  | 47 => ⟨S16x2048x64, .f32⟩
  | 48 => ⟨S16x2048x64, .f32⟩
  | 49 => ⟨S_, .f32⟩
  | 50 => ⟨S16x2048x64, .f32⟩
  | 51 => ⟨S16x2048x64, .f32⟩
  | 52 => ⟨S_, .f32⟩
  | 53 => ⟨S16x2048x64, .f32⟩
  | 54 => ⟨S16x2048x64, .f32⟩
  | 55 => ⟨S16x2048x64, .f32⟩
  | 56 => ⟨S_, .f32⟩
  | 57 => ⟨S64, .f32⟩
  | 58 => ⟨S64, .f32⟩
  | 59 => ⟨S_, .f32⟩
  | 60 => ⟨S64, .f32⟩
  | 61 => ⟨S64, .f32⟩
  | 62 => ⟨S_, .f32⟩
  | 63 => ⟨S64, .f32⟩
  | 64 => ⟨S64, .f32⟩
  | _ => ⟨S16x1x2048x1025, .f32⟩

abbrev hbmTy (i : Nat) : BufTy := match i / 128 with
  | 0 => hbmTy0_0 i
  | 1 => hbmTy0_1 i
  | _ => ⟨S16x1x2048x1025, .f32⟩

abbrev bufTy : (tb : Table) → Fin (tcTables nBuf tb) → BufTy
  | .hbm, ⟨i, _⟩ => hbmTy i
  | .local _ .vmem, ⟨0, _⟩ => ⟨S1x1x512x1025, .f32⟩
  | .local _ .vmem, ⟨1, _⟩ => ⟨S1x1x512x1025, .f32⟩
  | .local _ .vmem, ⟨2, _⟩ => ⟨S1x2x512x1025, .f32⟩
  | .local _ .vmem, ⟨3, _⟩ => ⟨S1x2x512x1025, .f32⟩
  | .local _ .vmem, ⟨4, _⟩ => ⟨S1025x320, .bf16⟩
  | .local _ .vmem, ⟨5, _⟩ => ⟨S1x512x320, .f32⟩
  | .local _ .vmem, ⟨6, _⟩ => ⟨S1x512x320, .f32⟩
  | _, _ => ⟨S16x1x2048x1025, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_cst : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_cst_0 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_1 : Ref sig .tc := ⟨.hbm, 20, rfl⟩
abbrev main_v10 : Ref sig .tc := ⟨.hbm, 21, rfl⟩
abbrev main_v11 : Ref sig .tc := ⟨.hbm, 22, rfl⟩
abbrev main_cst_2 : Ref sig .tc := ⟨.hbm, 23, rfl⟩
abbrev main_v12 : Ref sig .tc := ⟨.hbm, 24, rfl⟩
abbrev main_v13 : Ref sig .tc := ⟨.hbm, 25, rfl⟩
abbrev main_cst_3 : Ref sig .tc := ⟨.hbm, 26, rfl⟩
abbrev main_v14 : Ref sig .tc := ⟨.hbm, 27, rfl⟩
abbrev main_v15 : Ref sig .tc := ⟨.hbm, 28, rfl⟩
abbrev main_cst_4 : Ref sig .tc := ⟨.hbm, 29, rfl⟩
abbrev main_v16 : Ref sig .tc := ⟨.hbm, 30, rfl⟩
abbrev main_v17 : Ref sig .tc := ⟨.hbm, 31, rfl⟩
abbrev main_cst_5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_6 : Ref sig .tc := ⟨.hbm, 37, rfl⟩
abbrev main_v22 : Ref sig .tc := ⟨.hbm, 38, rfl⟩
abbrev main_cst_7 : Ref sig .tc := ⟨.hbm, 39, rfl⟩
abbrev main_v23 : Ref sig .tc := ⟨.hbm, 40, rfl⟩
abbrev main_cst_8 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_9 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_10 : Ref sig .tc := ⟨.hbm, 50, rfl⟩
abbrev main_v31 : Ref sig .tc := ⟨.hbm, 51, rfl⟩
abbrev main_v32 : Ref sig .tc := ⟨.hbm, 52, rfl⟩
abbrev main_cst_11 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_12 : Ref sig .tc := ⟨.hbm, 58, rfl⟩
abbrev main_v37 : Ref sig .tc := ⟨.hbm, 59, rfl⟩
abbrev main_v38 : Ref sig .tc := ⟨.hbm, 60, rfl⟩
abbrev main_cst_13 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_cst_14 : Ref sig .tc := ⟨.hbm, 66, rfl⟩
abbrev main_v43 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_15 : Ref sig .tc := ⟨.hbm, 78, rfl⟩
abbrev main_v54 : Ref sig .tc := ⟨.hbm, 79, rfl⟩
abbrev main_cst_16 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_cst_17 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_call0_cst : Ref sig .tc := ⟨.hbm, 112, rfl⟩
abbrev main_call0_v0 : Ref sig .tc := ⟨.hbm, 113, rfl⟩
abbrev main_v85 : Ref sig .tc := ⟨.hbm, 114, rfl⟩
abbrev main_cst_18 : Ref sig .tc := ⟨.hbm, 115, rfl⟩
abbrev main_v86 : Ref sig .tc := ⟨.hbm, 116, rfl⟩
abbrev main_v87 : Ref sig .tc := ⟨.hbm, 117, rfl⟩
abbrev main_cst_19 : Ref sig .tc := ⟨.hbm, 118, rfl⟩
abbrev main_v88 : Ref sig .tc := ⟨.hbm, 119, rfl⟩
abbrev main_v89 : Ref sig .tc := ⟨.hbm, 120, rfl⟩
abbrev main_cst_20 : Ref sig .tc := ⟨.hbm, 121, rfl⟩
abbrev main_v90 : Ref sig .tc := ⟨.hbm, 122, rfl⟩
abbrev main_v91 : Ref sig .tc := ⟨.hbm, 123, rfl⟩
abbrev main_v92 : Ref sig .tc := ⟨.hbm, 124, rfl⟩
abbrev main_v93 : Ref sig .tc := ⟨.hbm, 125, rfl⟩
abbrev main_cst_21 : Ref sig .tc := ⟨.hbm, 126, rfl⟩
abbrev main_v94 : Ref sig .tc := ⟨.hbm, 127, rfl⟩
abbrev main_v95 : Ref sig .tc := ⟨.hbm, 128, rfl⟩
abbrev main_cst_22 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_cst_23 : Ref sig .tc := ⟨.hbm, 133, rfl⟩
abbrev main_v99 : Ref sig .tc := ⟨.hbm, 134, rfl⟩
abbrev main_v100 : Ref sig .tc := ⟨.hbm, 135, rfl⟩
abbrev main_cst_24 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_cst_25 : Ref sig .tc := ⟨.hbm, 141, rfl⟩
abbrev main_cst_26 : Ref sig .tc := ⟨.hbm, 142, rfl⟩
abbrev main_call1_v0 : Ref sig .tc := ⟨.hbm, 143, rfl⟩
abbrev main_call1_v1 : Ref sig .tc := ⟨.hbm, 144, rfl⟩
abbrev main_call1_v2 : Ref sig .tc := ⟨.hbm, 145, rfl⟩
abbrev main_call1_v3 : Ref sig .tc := ⟨.hbm, 146, rfl⟩
abbrev main_call1_v4 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_cst_27 : Ref sig .tc := ⟨.hbm, 151, rfl⟩
abbrev main_cst_28 : Ref sig .tc := ⟨.hbm, 152, rfl⟩
abbrev main_call2_v0 : Ref sig .tc := ⟨.hbm, 153, rfl⟩
abbrev main_call2_v1 : Ref sig .tc := ⟨.hbm, 154, rfl⟩
abbrev main_call2_v2 : Ref sig .tc := ⟨.hbm, 155, rfl⟩
abbrev main_call2_v3 : Ref sig .tc := ⟨.hbm, 156, rfl⟩
abbrev main_call2_v4 : Ref sig .tc := ⟨.hbm, 157, rfl⟩
abbrev main_v108 : Ref sig .tc := ⟨.hbm, 158, rfl⟩
abbrev main_v109 : Ref sig .tc := ⟨.hbm, 159, rfl⟩
abbrev main_v110 : Ref sig .tc := ⟨.hbm, 160, rfl⟩
abbrev main_v111 : Ref sig .tc := ⟨.hbm, 161, rfl⟩
abbrev main_v112 : Ref sig .tc := ⟨.hbm, 162, rfl⟩
abbrev main_v113 : Ref sig .tc := ⟨.hbm, 163, rfl⟩
abbrev main_v114 : Ref sig .tc := ⟨.hbm, 164, rfl⟩
abbrev main_v115 : Ref sig .tc := ⟨.hbm, 165, rfl⟩
abbrev main_v116 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_cst_29 : Ref sig .tc := ⟨.hbm, 172, rfl⟩
abbrev main_v122 : Ref sig .tc := ⟨.hbm, 173, rfl⟩
abbrev main_cst_30 : Ref sig .tc := ⟨.hbm, 174, rfl⟩
abbrev main_v123 : Ref sig .tc := ⟨.hbm, 175, rfl⟩
abbrev main_v124 : Ref sig .tc := ⟨.hbm, 176, rfl⟩
abbrev main_cst_31 : Ref sig .tc := ⟨.hbm, 177, rfl⟩
abbrev main_v125 : Ref sig .tc := ⟨.hbm, 178, rfl⟩
abbrev main_v126 : Ref sig .tc := ⟨.hbm, 179, rfl⟩
abbrev main_cst_32 : Ref sig .tc := ⟨.hbm, 180, rfl⟩
abbrev main_v127 : Ref sig .tc := ⟨.hbm, 181, rfl⟩
abbrev main_v128 : Ref sig .tc := ⟨.hbm, 182, rfl⟩
abbrev main_v129 : Ref sig .tc := ⟨.hbm, 183, rfl⟩
abbrev main_cst_33 : Ref sig .tc := ⟨.hbm, 184, rfl⟩
abbrev main_v130 : Ref sig .tc := ⟨.hbm, 185, rfl⟩
abbrev main_v131 : Ref sig .tc := ⟨.hbm, 186, rfl⟩
abbrev main_cst_34 : Ref sig .tc := ⟨.hbm, 187, rfl⟩
abbrev main_v132 : Ref sig .tc := ⟨.hbm, 188, rfl⟩
abbrev main_v133 : Ref sig .tc := ⟨.hbm, 189, rfl⟩
abbrev main_cst_35 : Ref sig .tc := ⟨.hbm, 190, rfl⟩
abbrev main_v134 : Ref sig .tc := ⟨.hbm, 191, rfl⟩
abbrev main_v135 : Ref sig .tc := ⟨.hbm, 192, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![16, 4], ![false, false]⟩

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1025 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x512x1025 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1025x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x512x320 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

class Facts₀ : Prop where
  bcast_S1025_S1x1025_1 : S1025.BroadcastsInDim S1x1025 (![1] : Fin 1 → Fin S1x1025.rank)
  bcast_S64_S64x1_0 : S64.BroadcastsInDim S64x1 (![0] : Fin 1 → Fin S64x1.rank)
  bcast_S_S64x1 : S_.BroadcastsInDim S64x1 (![] : Fin 0 → Fin S64x1.rank)
  bcast_S1x1025_S64x1025_0_1 : S1x1025.BroadcastsInDim S64x1025 (![0, 1] : Fin 2 → Fin S64x1025.rank)
  bcast_S64x1_S64x1025_0_1 : S64x1.BroadcastsInDim S64x1025 (![0, 1] : Fin 2 → Fin S64x1025.rank)
  bcast_S_S64x1025 : S_.BroadcastsInDim S64x1025 (![] : Fin 0 → Fin S64x1025.rank)
  reducesTo_S64x1025_S64_d1 : S64x1025.ReducesTo [1] S64
  h_S_ : 0 < S_.numel
  reducesTo_S1025_S_d0 : S1025.ReducesTo [0] S_
  bcast_S_S1025 : S_.BroadcastsInDim S1025 (![] : Fin 0 → Fin S1025.rank)
  concatenates_S1x1025_S1x1025_S1x1025_S1x1025_S4x1025_d0 : Shape.Concatenates [S1x1025, S1x1025, S1x1025, S1x1025] S4x1025 0
  reducesTo_S4x1025_S4_d1 : S4x1025.ReducesTo [1] S4
  bcast_S_S4 : S_.BroadcastsInDim S4 (![] : Fin 0 → Fin S4.rank)
  bcast_S64x1025_S1x64x1025_1_2 : S64x1025.BroadcastsInDim S1x64x1025 (![1, 2] : Fin 2 → Fin S1x64x1025.rank)
  bcast_S4x1025_S4x1x1025_0_2 : S4x1025.BroadcastsInDim S4x1x1025 (![0, 2] : Fin 2 → Fin S4x1x1025.rank)
  bcast_S1x64x1025_S4x64x1025_0_1_2 : S1x64x1025.BroadcastsInDim S4x64x1025 (![0, 1, 2] : Fin 3 → Fin S4x64x1025.rank)
  bcast_S4x1x1025_S4x64x1025_0_1_2 : S4x1x1025.BroadcastsInDim S4x64x1025 (![0, 1, 2] : Fin 3 → Fin S4x64x1025.rank)
  bcast_S4_S4x1x1_0 : S4.BroadcastsInDim S4x1x1 (![0] : Fin 1 → Fin S4x1x1.rank)
  bcast_S4x1x1_S4x64x1025_0_1_2 : S4x1x1.BroadcastsInDim S4x64x1025 (![0, 1, 2] : Fin 3 → Fin S4x64x1025.rank)
  concatenates_S1x64x1025_S4x64x1025_S5x64x1025_d0 : Shape.Concatenates [S1x64x1025, S4x64x1025] S5x64x1025 0
  shapeCasts_S5x64x1025_S320x1025 : S5x64x1025.ShapeCasts S320x1025
  transposes_S320x1025_S1025x320_1_0 : S320x1025.Transposes [1, 0] S1025x320
  bitsLt_bf16_f32 : FTy.bits .bf16 < FTy.bits .f32
  inb_S1x1x512x1025_S1x1x512x1025_0_0_0_0 : ∀ a, (![0, 0, 0, 0] : Fin 4 → Nat) a + S1x1x512x1025.size a ≤ S1x1x512x1025.size a
  h_S1x1x512x1025 : 0 < S1x1x512x1025.numel
  shapeCasts_S1x1x512x1025_S512x1025 : S1x1x512x1025.ShapeCasts S512x1025
  reduces_S512x1025_S512 : S512x1025.Reduces [1] S512
  shapeCasts_S512_S512x1 : S512.ShapeCasts S512x1
  broadcasts_S512x1_S512x1025 : S512x1.Broadcasts S512x1025
  inb_S1x2x512x1025_S1x1x512x1025_0_0_0_0 : ∀ a, (![0, 0, 0, 0] : Fin 4 → Nat) a + S1x1x512x1025.size a ≤ S1x2x512x1025.size a
  inb_S1x2x512x1025_S1x1x512x1025_0_1_0_0 : ∀ a, (![0, 1, 0, 0] : Fin 4 → Nat) a + S1x1x512x1025.size a ≤ S1x2x512x1025.size a
  inb_S1025x320_S1025x320_0_0 : ∀ a, (![0, 0] : Fin 2 → Nat) a + S1025x320.size a ≤ S1025x320.size a
  h_S1025x320 : 0 < S1025x320.numel
  shapeCasts_S1025x320_S1025x320 : S1025x320.ShapeCasts S1025x320
  inb_S1x512x320_S1x512x320_0_0_0 : ∀ a, (![0, 0, 0] : Fin 3 → Nat) a + S1x512x320.size a ≤ S1x512x320.size a
  h_S1x512x320 : 0 < S1x512x320.numel
  shapeCasts_S1x512x320_S512x320 : S1x512x320.ShapeCasts S512x320
  shapeCasts_S512x320_S1x512x320 : S512x320.ShapeCasts S1x512x320
  shapeCasts_S16x2048x320_S16x2048x5x64 : S16x2048x320.ShapeCasts S16x2048x5x64
  slices_S16x2048x5x64_S16x2048x1x64_0_0_0_0 : S16x2048x5x64.Slices ![0, 0, 0, 0] S16x2048x1x64
  shapeCasts_S16x2048x1x64_S16x2048x64 : S16x2048x1x64.ShapeCasts S16x2048x64
  slices_S16x2048x5x64_S16x2048x1x64_0_0_1_0 : S16x2048x5x64.Slices ![0, 0, 1, 0] S16x2048x1x64
  slices_S16x2048x5x64_S16x2048x1x64_0_0_2_0 : S16x2048x5x64.Slices ![0, 0, 2, 0] S16x2048x1x64
  slices_S16x2048x5x64_S16x2048x1x64_0_0_3_0 : S16x2048x5x64.Slices ![0, 0, 3, 0] S16x2048x1x64
  slices_S16x2048x5x64_S16x2048x1x64_0_0_4_0 : S16x2048x5x64.Slices ![0, 0, 4, 0] S16x2048x1x64
  shapeCasts_S16x1x2048x64_S16x2048x64 : S16x1x2048x64.ShapeCasts S16x2048x64
  bcast_S_S16x2048x64 : S_.BroadcastsInDim S16x2048x64 (![] : Fin 0 → Fin S16x2048x64.rank)
  reducesTo_S16x2048x64_S16x2048_d2 : S16x2048x64.ReducesTo [2] S16x2048
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x64_0_1_2 : S16x2048x1.BroadcastsInDim S16x2048x64 (![0, 1, 2] : Fin 3 → Fin S16x2048x64.rank)
  reducesTo_S16x2048x4_S16x2048_d2 : S16x2048x4.ReducesTo [2] S16x2048
  slices_S16x2048x4_S16x2048x1_0_0_0 : S16x2048x4.Slices ![0, 0, 0] S16x2048x1
  slices_S16x2048x4_S16x2048x1_0_0_1 : S16x2048x4.Slices ![0, 0, 1] S16x2048x1
  bcast_S16x2048x64_S16x2048x64x1_0_1_2 : S16x2048x64.BroadcastsInDim S16x2048x64x1 (![0, 1, 2] : Fin 3 → Fin S16x2048x64x1.rank)
  concatenates_S16x2048x64x1_S16x2048x64x1_S16x2048x64x1_S16x2048x64x1_S16x2048x64x1_S16x2048x64x1_S16x2048x64x1_S16x2048x64x1_S16x2048x64x1_S16x2048x64x1_S16x2048x64x10_d3 : Shape.Concatenates [S16x2048x64x1, S16x2048x64x1, S16x2048x64x1, S16x2048x64x1, S16x2048x64x1, S16x2048x64x1, S16x2048x64x1, S16x2048x64x1, S16x2048x64x1, S16x2048x64x1] S16x2048x64x10 3
  reducesTo_S16x2048x64x10_S16x2048x64_d3 : S16x2048x64x10.ReducesTo [3] S16x2048x64
  bcast_S_S64 : S_.BroadcastsInDim S64 (![] : Fin 0 → Fin S64.rank)
  dot_S512x1025_S1025x320_S512x320_1_0_0_1_n_n_wf : DotDims.WF S512x1025 S1025x320 S512x320 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512x1025.size a ≤ S16x1x2048x1025.size a
  hwx0_0 : ∀ i : grid0.Coords, EltTy.bits .f32 = 32 ∨ (Rect.block (s := S16x1x2048x1025) S1x1x512x1025.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x2x512x1025.size a ≤ S16x2x2048x1025.size a
  hwx0_1 : ∀ i : grid0.Coords, EltTy.bits .f32 = 32 ∨ (Rect.block (s := S16x2x2048x1025) S1x2x512x1025.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1025x320.size a ≤ S1025x320.size a
  hwx0_2 : ∀ i : grid0.Coords, EltTy.bits .bf16 = 32 ∨ (Rect.block (s := S1025x320) S1025x320.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x320.size a ≤ S16x2048x320.size a
  hwx0_3 : ∀ i : grid0.Coords, EltTy.bits .f32 = 32 ∨ (Rect.block (s := S16x2048x320) S1x512x320.size (cc0_transform_3 i) (hinb0_3 i)).WholeWords (EltTy.packing .f32)

variable [Facts₀]

def dot_S512x1025_S1025x320_S512x320_1_0_0_1_n_n : DotDims S512x1025 S1025x320 S512x320 where
  lhsContracting := [1]
  rhsContracting := [0]
  lhsNonContracting := [0]
  rhsNonContracting := [1]
  lhsBatch := []
  rhsBatch := []
  wf := dot_S512x1025_S1025x320_S512x320_1_0_0_1_n_n_wf

abbrev win0_0 : Pipeline.Window sig grid0 :=
  Pipeline.Window.ofSpec (Memref.whole main_arg0) S1x1x512x1025.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2x512x1025.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v71) S1025x320.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v72) S1x512x320.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S16x1x2048x1025 : Shape := ⟨4, ![16, 1, 2048, 1025]⟩
abbrev S16x2x2048x1025 : Shape := ⟨4, ![16, 2, 2048, 1025]⟩
abbrev S16x2048x4 : Shape := ⟨3, ![16, 2048, 4]⟩
abbrev S16x1x2048x64 : Shape := ⟨4, ![16, 1, 2048, 64]⟩
abbrev S1025 : Shape := ⟨1, ![1025]⟩
abbrev S64 : Shape := ⟨1, ![64]⟩
abbrev S16x2048x1025 : Shape := ⟨3, ![16, 2048, 1025]⟩
abbrev S_ : Shape := ⟨0, ![]⟩
abbrev S16x2048 : Shape := ⟨2, ![16, 2048]⟩
abbrev S16x2048x1 : Shape := ⟨3, ![16, 2048, 1]⟩
abbrev S1x1025 : Shape := ⟨2, ![1, 1025]⟩
abbrev S64x1 : Shape := ⟨2, ![64, 1]⟩
abbrev S64x1025 : Shape := ⟨2, ![64, 1025]⟩
abbrev S16x2048x64 : Shape := ⟨3, ![16, 2048, 64]⟩
abbrev S4x1025 : Shape := ⟨2, ![4, 1025]⟩
abbrev S4 : Shape := ⟨1, ![4]⟩
abbrev S1x64x1025 : Shape := ⟨3, ![1, 64, 1025]⟩
abbrev S4x1x1025 : Shape := ⟨3, ![4, 1, 1025]⟩
abbrev S4x64x1025 : Shape := ⟨3, ![4, 64, 1025]⟩
abbrev S4x64x16x2048 : Shape := ⟨4, ![4, 64, 16, 2048]⟩
abbrev S16x4x2048x64 : Shape := ⟨4, ![16, 4, 2048, 64]⟩
abbrev S1x4x1x1 : Shape := ⟨4, ![1, 4, 1, 1]⟩
abbrev S16x2048x64x1 : Shape := ⟨4, ![16, 2048, 64, 1]⟩
abbrev S16x2048x64x10 : Shape := ⟨4, ![16, 2048, 64, 10]⟩

abbrev nBuf : Space → Nat
  | .hbm => 231
  | .vmem => 0
  | .smem => 0
  | _ => 0

abbrev hbmTy0_0 (i : Nat) : BufTy := match i % 128 with
  | 0 => ⟨S16x1x2048x1025, .f32⟩
  | 1 => ⟨S16x2x2048x1025, .f32⟩
  | 2 => ⟨S16x2048x4, .f32⟩
  | 3 => ⟨S16x2048x4, .f32⟩
  | 4 => ⟨S16x2048x4, .f32⟩
  | 5 => ⟨S16x1x2048x64, .f32⟩
  | 6 => ⟨S1025, .f32⟩
  | 7 => ⟨S64, .f32⟩
  | 8 => ⟨S16x2048x1025, .f32⟩
  | 9 => ⟨S16x1x2048x1025, .f32⟩
  | 10 => ⟨S16x2048x1025, .f32⟩
  | 11 => ⟨S16x1x2048x1025, .f32⟩
  | 12 => ⟨S16x2048x1025, .f32⟩
  | 13 => ⟨S16x2048x1025, .f32⟩
  | 14 => ⟨S_, .f32⟩
  | 15 => ⟨S16x2048, .f32⟩
  | 16 => ⟨S16x2048x1, .f32⟩
  | 17 => ⟨S_, .f32⟩
  | 18 => ⟨S16x2048x1, .f32⟩
  | 19 => ⟨S16x2048x1, .f32⟩
  | 20 => ⟨S16x2048x1025, .f32⟩
  | 21 => ⟨S16x2048x1025, .f32⟩
  | 22 => ⟨S16x2048x1025, .f32⟩
  | 23 => ⟨S_, .f32⟩
  | 24 => ⟨S16x2048x1025, .f32⟩
  | 25 => ⟨S16x2048x1025, .f32⟩
  | 26 => ⟨S_, .f32⟩
  | 27 => ⟨S16x2048x1025, .f32⟩
  | 28 => ⟨S16x2048x1025, .f32⟩
  | 29 => ⟨S16x2048x1025, .f32⟩
  | 30 => ⟨S_, .f32⟩
  | 31 => ⟨S16x2048x1025, .f32⟩
  | 32 => ⟨S16x2048x1025, .f32⟩
  | 33 => ⟨S_, .f32⟩
  | 34 => ⟨S16x2048x1025, .f32⟩
  | 35 => ⟨S16x2048x1025, .f32⟩
  | 36 => ⟨S16x2048x1025, .f32⟩
  | 37 => ⟨S_, .f32⟩
  | 38 => ⟨S16x2048x1025, .f32⟩
  | 39 => ⟨S16x2048x1025, .f32⟩
  | 40 => ⟨S16x2048x1025, .f32⟩
  | 41 => ⟨S_, .f32⟩
  | 42 => ⟨S16x2048, .f32⟩
  | 43 => ⟨S16x2048x1, .f32⟩
  | 44 => ⟨S_, .f32⟩
  | 45 => ⟨S16x2048x1, .f32⟩
  | 46 => ⟨S16x2048x1, .f32⟩
  | 47 => ⟨S_, .f32⟩
  | 48 => ⟨S16x2048x1, .f32⟩
  | 49 => ⟨S16x2048x1, .f32⟩
  | 50 => ⟨S16x2048x1025, .f32⟩
  | 51 => ⟨S16x2048x1025, .f32⟩
  | 52 => ⟨S1x1025, .f32⟩
  | 53 => ⟨S64x1, .f32⟩
  | 54 => ⟨S_, .f32⟩
  | 55 => ⟨S64x1, .f32⟩
  | 56 => ⟨S64x1, .f32⟩
  | 57 => ⟨S64x1025, .f32⟩
  | 58 => ⟨S64x1025, .f32⟩
  | 59 => ⟨S64x1025, .f32⟩
  | 60 => ⟨S_, .f32⟩
  | 61 => ⟨S64x1025, .f32⟩
  | 62 => ⟨S64x1025, .f32⟩
  | 63 => ⟨S64x1025, .f32⟩
  | 64 => ⟨S_, .f32⟩
  | 65 => ⟨S64x1025, .f32⟩
  | 66 => ⟨S64x1025, .f32⟩
  | 67 => ⟨S_, .f32⟩
  | 68 => ⟨S64x1025, .f32⟩
  | 69 => ⟨S64x1025, .f32⟩
  | 70 => ⟨S_, .f32⟩
  | 71 => ⟨S64, .f32⟩
  | 72 => ⟨S64x1, .f32⟩
  | 73 => ⟨S_, .f32⟩
  | 74 => ⟨S64x1, .f32⟩
  | 75 => ⟨S64x1, .f32⟩
  | 76 => ⟨S_, .f32⟩
  | 77 => ⟨S64x1, .f32⟩
  | 78 => ⟨S64x1, .f32⟩
  | 79 => ⟨S64x1025, .f32⟩
  | 80 => ⟨S64x1025, .f32⟩
  | 81 => ⟨S16x2048x64, .f32⟩
  | 82 => ⟨S_, .f32⟩
  | 83 => ⟨S16x2048x64, .f32⟩
  | 84 => ⟨S16x2048x64, .f32⟩
  | 85 => ⟨S_, .f32⟩
  | 86 => ⟨S_, .f32⟩
  | 87 => ⟨S_, .f32⟩
  | 88 => ⟨S_, .f32⟩
  | 89 => ⟨S_, .f32⟩
  | 90 => ⟨S_, .f32⟩
  | 91 => ⟨S1025, .f32⟩
  | 92 => ⟨S1025, .i1⟩
  | 93 => ⟨S_, .f32⟩
  | 94 => ⟨S1025, .f32⟩
  | 95 => ⟨S1025, .i1⟩
  | 96 => ⟨S1025, .i1⟩
  | 97 => ⟨S1025, .f32⟩
  | 98 => ⟨S_, .f32⟩
  | 99 => ⟨S1025, .f32⟩
  | 100 => ⟨S1025, .i1⟩
  | 101 => ⟨S_, .f32⟩
  | 102 => ⟨S1025, .f32⟩
  | 103 => ⟨S1025, .i1⟩
  | 104 => ⟨S1025, .i1⟩
  | 105 => ⟨S1025, .f32⟩
  | 106 => ⟨S_, .f32⟩
  | 107 => ⟨S1025, .f32⟩
  | 108 => ⟨S1025, .i1⟩
  | 109 => ⟨S_, .f32⟩
  | 110 => ⟨S1025, .f32⟩
  | 111 => ⟨S1025, .i1⟩
  | 112 => ⟨S1025, .i1⟩
  | 113 => ⟨S1025, .f32⟩
  | 114 => ⟨S_, .f32⟩
  | 115 => ⟨S1025, .f32⟩
  | 116 => ⟨S1025, .i1⟩
  | 117 => ⟨S1025, .f32⟩
  | 118 => ⟨S1025, .i1⟩
  | 119 => ⟨S1025, .i1⟩
  | 120 => ⟨S1025, .f32⟩
  | 121 => ⟨S1x1025, .f32⟩
  | 122 => ⟨S1x1025, .f32⟩
  | 123 => ⟨S1x1025, .f32⟩
  | 124 => ⟨S1x1025, .f32⟩
  | 125 => ⟨S4x1025, .f32⟩
  | 126 => ⟨S_, .f32⟩
  | 127 => ⟨S4, .f32⟩
  | _ => ⟨S16x1x2048x1025, .f32⟩

abbrev hbmTy0_1 (i : Nat) : BufTy := match i % 128 with
  | 0 => ⟨S_, .f32⟩
  | 1 => ⟨S4, .f32⟩
  | 2 => ⟨S4, .f32⟩
  | 3 => ⟨S1x64x1025, .f32⟩
  | 4 => ⟨S4x1x1025, .f32⟩
  | 5 => ⟨S4x64x1025, .f32⟩
  | 6 => ⟨S4x64x1025, .f32⟩
  | 7 => ⟨S4x64x1025, .f32⟩
  | 8 => ⟨S4x64x16x2048, .f32⟩
  | 9 => ⟨S16x4x2048x64, .f32⟩
  | 10 => ⟨S1x4x1x1, .f32⟩
  | 11 => ⟨S16x4x2048x64, .f32⟩
  | 12 => ⟨S16x4x2048x64, .f32⟩
  | 13 => ⟨S16x1x2048x64, .f32⟩
  | 14 => ⟨S16x2048x64, .f32⟩
  | 15 => ⟨S16x1x2048x64, .f32⟩
  | 16 => ⟨S16x2048x64, .f32⟩
  | 17 => ⟨S16x1x2048x64, .f32⟩
  | 18 => ⟨S16x2048x64, .f32⟩
  | 19 => ⟨S16x1x2048x64, .f32⟩
  | 20 => ⟨S16x2048x64, .f32⟩
  | 21 => ⟨S16x2048x64, .f32⟩
  | 22 => ⟨S_, .f32⟩
  | 23 => ⟨S16x2048x64, .f32⟩
  | 24 => ⟨S16x2048x64, .f32⟩
  | 25 => ⟨S_, .f32⟩
  | 26 => ⟨S16x2048, .f32⟩
  | 27 => ⟨S16x2048x1, .f32⟩
  | 28 => ⟨S_, .f32⟩
  | 29 => ⟨S16x2048x1, .f32⟩
  | 30 => ⟨S16x2048x1, .f32⟩
  | 31 => ⟨S_, .f32⟩
  | 32 => ⟨S16x2048x1, .f32⟩
  | 33 => ⟨S16x2048x1, .f32⟩
  | 34 => ⟨S16x2048x64, .f32⟩
  | 35 => ⟨S16x2048x64, .f32⟩
  | 36 => ⟨S_, .f32⟩
  | 37 => ⟨S16x2048, .f32⟩
  | 38 => ⟨S16x2048x1, .f32⟩
  | 39 => ⟨S_, .f32⟩
  | 40 => ⟨S16x2048x1, .f32⟩
  | 41 => ⟨S16x2048x1, .f32⟩
  | 42 => ⟨S16x2048x64, .f32⟩
  | 43 => ⟨S_, .f32⟩
  | 44 => ⟨S16x2048, .f32⟩
  | 45 => ⟨S16x2048x1, .f32⟩
  | 46 => ⟨S_, .f32⟩
  | 47 => ⟨S16x2048x1, .f32⟩
  | 48 => ⟨S16x2048x1, .f32⟩
  | 49 => ⟨S16x2048x64, .f32⟩
  | 50 => ⟨S16x2048x1, .f32⟩
  | 51 => ⟨S_, .f32⟩
  | 52 => ⟨S_, .f32⟩
  | 53 => ⟨S_, .f32⟩
  | 54 => ⟨S16x2048x1, .f32⟩
  | 55 => ⟨S16x2048x1, .f32⟩
  | 56 => ⟨S_, .f32⟩
  | 57 => ⟨S16x2048x1, .f32⟩
  | 58 => ⟨S16x2048x1, .f32⟩
  | 59 => ⟨S16x2048x64, .f32⟩
  | 60 => ⟨S16x2048x1, .f32⟩
  | 61 => ⟨S_, .f32⟩
  | 62 => ⟨S_, .f32⟩
  | 63 => ⟨S_, .f32⟩
  | 64 => ⟨S16x2048x1, .f32⟩
  | 65 => ⟨S16x2048x1, .f32⟩
  | 66 => ⟨S_, .f32⟩
  | 67 => ⟨S16x2048x1, .f32⟩
  | 68 => ⟨S16x2048x1, .f32⟩
  | 69 => ⟨S16x2048x1, .f32⟩
  | 70 => ⟨S16x2048x64, .f32⟩
  | 71 => ⟨S16x2048x64x1, .f32⟩
  | 72 => ⟨S16x2048x64x1, .f32⟩
  | 73 => ⟨S16x2048x64x1, .f32⟩
  | 74 => ⟨S16x2048x64x1, .f32⟩
  | 75 => ⟨S16x2048x64x1, .f32⟩
  | 76 => ⟨S16x2048x64x1, .f32⟩
  | 77 => ⟨S16x2048x64x1, .f32⟩
  | 78 => ⟨S16x2048x64x1, .f32⟩
  | 79 => ⟨S16x2048x64x1, .f32⟩
  | 80 => ⟨S16x2048x64x1, .f32⟩
  | 81 => ⟨S16x2048x64x10, .f32⟩
  | 82 => ⟨S_, .f32⟩
  | 83 => ⟨S16x2048x64, .f32⟩
  | 84 => ⟨S_, .f32⟩
  | 85 => ⟨S16x2048x64, .f32⟩
  | 86 => ⟨S16x2048x64, .f32⟩
  | 87 => ⟨S_, .f32⟩
  | 88 => ⟨S16x2048x64, .f32⟩
  | 89 => ⟨S16x2048x64, .f32⟩
  | 90 => ⟨S_, .f32⟩
  | 91 => ⟨S16x2048x64, .f32⟩
  | 92 => ⟨S16x2048x64, .f32⟩
  | 93 => ⟨S16x2048x64, .f32⟩
  | 94 => ⟨S_, .f32⟩
  | 95 => ⟨S64, .f32⟩
  | 96 => ⟨S64, .f32⟩
  | 97 => ⟨S_, .f32⟩
  | 98 => ⟨S64, .f32⟩
  | 99 => ⟨S64, .f32⟩
  | 100 => ⟨S_, .f32⟩
  | 101 => ⟨S64, .f32⟩
  | 102 => ⟨S64, .f32⟩
  | _ => ⟨S16x1x2048x1025, .f32⟩

abbrev hbmTy (i : Nat) : BufTy := match i / 128 with
  | 0 => hbmTy0_0 i
  | 1 => hbmTy0_1 i
  | _ => ⟨S16x1x2048x1025, .f32⟩

abbrev bufTy : (tb : Table) → Fin (tcTables nBuf tb) → BufTy
  | .hbm, ⟨i, _⟩ => hbmTy i
  | _, _ => ⟨S16x1x2048x1025, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_cst : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_call0_cst : Ref sig .tc := ⟨.hbm, 23, rfl⟩
abbrev main_call0_v0 : Ref sig .tc := ⟨.hbm, 24, rfl⟩
abbrev main_v13 : Ref sig .tc := ⟨.hbm, 25, rfl⟩
abbrev main_call1_cst : Ref sig .tc := ⟨.hbm, 26, rfl⟩
abbrev main_call1_v0 : Ref sig .tc := ⟨.hbm, 27, rfl⟩
abbrev main_v14 : Ref sig .tc := ⟨.hbm, 28, rfl⟩
abbrev main_v15 : Ref sig .tc := ⟨.hbm, 29, rfl⟩
abbrev main_call2_cst : Ref sig .tc := ⟨.hbm, 30, rfl⟩
abbrev main_call2_v0 : Ref sig .tc := ⟨.hbm, 31, rfl⟩
abbrev main_v16 : Ref sig .tc := ⟨.hbm, 32, rfl⟩
abbrev main_cst_1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_2 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_cst_4 : Ref sig .tc := ⟨.hbm, 44, rfl⟩
abbrev main_v25 : Ref sig .tc := ⟨.hbm, 45, rfl⟩
abbrev main_v26 : Ref sig .tc := ⟨.hbm, 46, rfl⟩
abbrev main_cst_5 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_cst_6 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_cst_7 : Ref sig .tc := ⟨.hbm, 60, rfl⟩
abbrev main_v38 : Ref sig .tc := ⟨.hbm, 61, rfl⟩
abbrev main_v39 : Ref sig .tc := ⟨.hbm, 62, rfl⟩
abbrev main_v40 : Ref sig .tc := ⟨.hbm, 63, rfl⟩
abbrev main_cst_8 : Ref sig .tc := ⟨.hbm, 64, rfl⟩
abbrev main_v41 : Ref sig .tc := ⟨.hbm, 65, rfl⟩
abbrev main_v42 : Ref sig .tc := ⟨.hbm, 66, rfl⟩
abbrev main_cst_9 : Ref sig .tc := ⟨.hbm, 67, rfl⟩
abbrev main_v43 : Ref sig .tc := ⟨.hbm, 68, rfl⟩
abbrev main_v44 : Ref sig .tc := ⟨.hbm, 69, rfl⟩
abbrev main_cst_10 : Ref sig .tc := ⟨.hbm, 70, rfl⟩
abbrev main_v45 : Ref sig .tc := ⟨.hbm, 71, rfl⟩
abbrev main_v46 : Ref sig .tc := ⟨.hbm, 72, rfl⟩
abbrev main_cst_11 : Ref sig .tc := ⟨.hbm, 73, rfl⟩
abbrev main_v47 : Ref sig .tc := ⟨.hbm, 74, rfl⟩
abbrev main_v48 : Ref sig .tc := ⟨.hbm, 75, rfl⟩
abbrev main_cst_12 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_cst_13 : Ref sig .tc := ⟨.hbm, 82, rfl⟩
abbrev main_v54 : Ref sig .tc := ⟨.hbm, 83, rfl⟩
abbrev main_v55 : Ref sig .tc := ⟨.hbm, 84, rfl⟩
abbrev main_cst_14 : Ref sig .tc := ⟨.hbm, 85, rfl⟩
abbrev main_v56 : Ref sig .tc := ⟨.hbm, 86, rfl⟩
abbrev main_cst_15 : Ref sig .tc := ⟨.hbm, 87, rfl⟩
abbrev main_v57 : Ref sig .tc := ⟨.hbm, 88, rfl⟩
abbrev main_cst_16 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_cst_17 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_cst_18 : Ref sig .tc := ⟨.hbm, 98, rfl⟩
abbrev main_v65 : Ref sig .tc := ⟨.hbm, 99, rfl⟩
abbrev main_v66 : Ref sig .tc := ⟨.hbm, 100, rfl⟩
abbrev main_cst_19 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_cst_20 : Ref sig .tc := ⟨.hbm, 106, rfl⟩
abbrev main_v71 : Ref sig .tc := ⟨.hbm, 107, rfl⟩
abbrev main_v72 : Ref sig .tc := ⟨.hbm, 108, rfl⟩
abbrev main_cst_21 : Ref sig .tc := ⟨.hbm, 109, rfl⟩
abbrev main_v73 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_cst_22 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_cst_23 : Ref sig .tc := ⟨.hbm, 126, rfl⟩
abbrev main_v88 : Ref sig .tc := ⟨.hbm, 127, rfl⟩
abbrev main_cst_24 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_call3_cst : Ref sig .tc := ⟨.hbm, 150, rfl⟩
abbrev main_call3_v0 : Ref sig .tc := ⟨.hbm, 151, rfl⟩
abbrev main_v110 : Ref sig .tc := ⟨.hbm, 152, rfl⟩
abbrev main_cst_25 : Ref sig .tc := ⟨.hbm, 153, rfl⟩
abbrev main_v111 : Ref sig .tc := ⟨.hbm, 154, rfl⟩
abbrev main_v112 : Ref sig .tc := ⟨.hbm, 155, rfl⟩
abbrev main_cst_26 : Ref sig .tc := ⟨.hbm, 156, rfl⟩
abbrev main_v113 : Ref sig .tc := ⟨.hbm, 157, rfl⟩
abbrev main_v114 : Ref sig .tc := ⟨.hbm, 158, rfl⟩
abbrev main_cst_27 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_cst_28 : Ref sig .tc := ⟨.hbm, 164, rfl⟩
abbrev main_v119 : Ref sig .tc := ⟨.hbm, 165, rfl⟩
abbrev main_v120 : Ref sig .tc := ⟨.hbm, 166, rfl⟩
abbrev main_cst_29 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_cst_30 : Ref sig .tc := ⟨.hbm, 171, rfl⟩
abbrev main_v124 : Ref sig .tc := ⟨.hbm, 172, rfl⟩
abbrev main_v125 : Ref sig .tc := ⟨.hbm, 173, rfl⟩
abbrev main_cst_31 : Ref sig .tc := ⟨.hbm, 174, rfl⟩
abbrev main_v126 : Ref sig .tc := ⟨.hbm, 175, rfl⟩
abbrev main_v127 : Ref sig .tc := ⟨.hbm, 176, rfl⟩
abbrev main_v128 : Ref sig .tc := ⟨.hbm, 177, rfl⟩
abbrev main_v129 : Ref sig .tc := ⟨.hbm, 178, rfl⟩
abbrev main_cst_32 : Ref sig .tc := ⟨.hbm, 179, rfl⟩
abbrev main_cst_33 : Ref sig .tc := ⟨.hbm, 180, rfl⟩
abbrev main_call4_v0 : Ref sig .tc := ⟨.hbm, 181, rfl⟩
abbrev main_call4_v1 : Ref sig .tc := ⟨.hbm, 182, rfl⟩
abbrev main_call4_v2 : Ref sig .tc := ⟨.hbm, 183, rfl⟩
abbrev main_call4_v3 : Ref sig .tc := ⟨.hbm, 184, rfl⟩
abbrev main_call4_v4 : Ref sig .tc := ⟨.hbm, 185, rfl⟩
abbrev main_v130 : Ref sig .tc := ⟨.hbm, 186, rfl⟩
abbrev main_v131 : Ref sig .tc := ⟨.hbm, 187, rfl⟩
abbrev main_v132 : Ref sig .tc := ⟨.hbm, 188, rfl⟩
abbrev main_cst_34 : Ref sig .tc := ⟨.hbm, 189, rfl⟩
abbrev main_cst_35 : Ref sig .tc := ⟨.hbm, 190, rfl⟩
abbrev main_call5_v0 : Ref sig .tc := ⟨.hbm, 191, rfl⟩
abbrev main_call5_v1 : Ref sig .tc := ⟨.hbm, 192, rfl⟩
abbrev main_call5_v2 : Ref sig .tc := ⟨.hbm, 193, rfl⟩
abbrev main_call5_v3 : Ref sig .tc := ⟨.hbm, 194, rfl⟩
abbrev main_call5_v4 : Ref sig .tc := ⟨.hbm, 195, rfl⟩
abbrev main_v133 : Ref sig .tc := ⟨.hbm, 196, rfl⟩
abbrev main_v134 : Ref sig .tc := ⟨.hbm, 197, rfl⟩
abbrev main_v135 : Ref sig .tc := ⟨.hbm, 198, rfl⟩
abbrev main_v136 : Ref sig .tc := ⟨.hbm, 199, rfl⟩
abbrev main_v137 : Ref sig .tc := ⟨.hbm, 200, rfl⟩
abbrev main_v138 : Ref sig .tc := ⟨.hbm, 201, rfl⟩
abbrev main_v139 : Ref sig .tc := ⟨.hbm, 202, rfl⟩
abbrev main_v140 : Ref sig .tc := ⟨.hbm, 203, rfl⟩
abbrev main_v141 : Ref sig .tc := ⟨.hbm, 204, rfl⟩
abbrev main_v142 : Ref sig .tc := ⟨.hbm, 205, rfl⟩
abbrev main_v143 : Ref sig .tc := ⟨.hbm, 206, rfl⟩
abbrev main_v144 : Ref sig .tc := ⟨.hbm, 207, rfl⟩
abbrev main_v145 : Ref sig .tc := ⟨.hbm, 208, rfl⟩
abbrev main_v146 : Ref sig .tc := ⟨.hbm, 209, rfl⟩
abbrev main_cst_36 : Ref sig .tc := ⟨.hbm, 210, rfl⟩
abbrev main_v147 : Ref sig .tc := ⟨.hbm, 211, rfl⟩
abbrev main_cst_37 : Ref sig .tc := ⟨.hbm, 212, rfl⟩
abbrev main_v148 : Ref sig .tc := ⟨.hbm, 213, rfl⟩
abbrev main_v149 : Ref sig .tc := ⟨.hbm, 214, rfl⟩
abbrev main_cst_38 : Ref sig .tc := ⟨.hbm, 215, rfl⟩
abbrev main_v150 : Ref sig .tc := ⟨.hbm, 216, rfl⟩
abbrev main_v151 : Ref sig .tc := ⟨.hbm, 217, rfl⟩
abbrev main_cst_39 : Ref sig .tc := ⟨.hbm, 218, rfl⟩
abbrev main_v152 : Ref sig .tc := ⟨.hbm, 219, rfl⟩
abbrev main_v153 : Ref sig .tc := ⟨.hbm, 220, rfl⟩
abbrev main_v154 : Ref sig .tc := ⟨.hbm, 221, rfl⟩
abbrev main_cst_40 : Ref sig .tc := ⟨.hbm, 222, rfl⟩
abbrev main_v155 : Ref sig .tc := ⟨.hbm, 223, rfl⟩
abbrev main_v156 : Ref sig .tc := ⟨.hbm, 224, rfl⟩
abbrev main_cst_41 : Ref sig .tc := ⟨.hbm, 225, rfl⟩
abbrev main_v157 : Ref sig .tc := ⟨.hbm, 226, rfl⟩
abbrev main_v158 : Ref sig .tc := ⟨.hbm, 227, rfl⟩
abbrev main_cst_42 : Ref sig .tc := ⟨.hbm, 228, rfl⟩
abbrev main_v159 : Ref sig .tc := ⟨.hbm, 229, rfl⟩
abbrev main_v160 : Ref sig .tc := ⟨.hbm, 230, rfl⟩

abbrev nD : Nat := 1
abbrev τ : Topo := Topo.v7x

variable {F : FTy → Type} [FloatOps F]

class Facts₀ : Prop where
  shapeCasts_S16x1x2048x1025_S16x2048x1025 : S16x1x2048x1025.ShapeCasts S16x2048x1025
  slices_S16x2x2048x1025_S16x1x2048x1025_0_0_0_0 : S16x2x2048x1025.Slices ![0, 0, 0, 0] S16x1x2048x1025
  slices_S16x2x2048x1025_S16x1x2048x1025_0_1_0_0 : S16x2x2048x1025.Slices ![0, 1, 0, 0] S16x1x2048x1025
  reducesTo_S16x2048x1025_S16x2048_d2 : S16x2048x1025.ReducesTo [2] S16x2048
  h_S_ : 0 < S_.numel
  bcast_S16x2048_S16x2048x1_0_1 : S16x2048.BroadcastsInDim S16x2048x1 (![0, 1] : Fin 2 → Fin S16x2048x1.rank)
  bcast_S_S16x2048x1 : S_.BroadcastsInDim S16x2048x1 (![] : Fin 0 → Fin S16x2048x1.rank)
  bcast_S16x2048x1_S16x2048x1025_0_1_2 : S16x2048x1.BroadcastsInDim S16x2048x1025 (![0, 1, 2] : Fin 3 → Fin S16x2048x1025.rank)
  bcast_S_S16x2048x1025 : S_.BroadcastsInDim S16x2048x1025 (![] : Fin 0 → Fin S16x2048x1025.rank)
  bcast_S1025_S1x1025_1 : S1025.BroadcastsInDim S1x1025 (![1] : Fin 1 → Fin S1x1025.rank)
  bcast_S64_S64x1_0 : S64.BroadcastsInDim S64x1 (![0] : Fin 1 → Fin S64x1.rank)
  bcast_S_S64x1 : S_.BroadcastsInDim S64x1 (![] : Fin 0 → Fin S64x1.rank)
  bcast_S1x1025_S64x1025_0_1 : S1x1025.BroadcastsInDim S64x1025 (![0, 1] : Fin 2 → Fin S64x1025.rank)
  bcast_S64x1_S64x1025_0_1 : S64x1.BroadcastsInDim S64x1025 (![0, 1] : Fin 2 → Fin S64x1025.rank)
  bcast_S_S64x1025 : S_.BroadcastsInDim S64x1025 (![] : Fin 0 → Fin S64x1025.rank)
  reducesTo_S64x1025_S64_d1 : S64x1025.ReducesTo [1] S64
  bcast_S_S16x2048x64 : S_.BroadcastsInDim S16x2048x64 (![] : Fin 0 → Fin S16x2048x64.rank)
  reducesTo_S1025_S_d0 : S1025.ReducesTo [0] S_
  bcast_S_S1025 : S_.BroadcastsInDim S1025 (![] : Fin 0 → Fin S1025.rank)
  concatenates_S1x1025_S1x1025_S1x1025_S1x1025_S4x1025_d0 : Shape.Concatenates [S1x1025, S1x1025, S1x1025, S1x1025] S4x1025 0
  reducesTo_S4x1025_S4_d1 : S4x1025.ReducesTo [1] S4
  bcast_S_S4 : S_.BroadcastsInDim S4 (![] : Fin 0 → Fin S4.rank)
  bcast_S64x1025_S1x64x1025_1_2 : S64x1025.BroadcastsInDim S1x64x1025 (![1, 2] : Fin 2 → Fin S1x64x1025.rank)
  bcast_S4x1025_S4x1x1025_0_2 : S4x1025.BroadcastsInDim S4x1x1025 (![0, 2] : Fin 2 → Fin S4x1x1025.rank)
  bcast_S1x64x1025_S4x64x1025_0_1_2 : S1x64x1025.BroadcastsInDim S4x64x1025 (![0, 1, 2] : Fin 3 → Fin S4x64x1025.rank)
  bcast_S4x1x1025_S4x64x1025_0_1_2 : S4x1x1025.BroadcastsInDim S4x64x1025 (![0, 1, 2] : Fin 3 → Fin S4x64x1025.rank)
  transposes_S4x64x16x2048_S16x4x2048x64_2_0_3_1 : S4x64x16x2048.Transposes [2, 0, 3, 1] S16x4x2048x64
  bcast_S4_S1x4x1x1_1 : S4.BroadcastsInDim S1x4x1x1 (![1] : Fin 1 → Fin S1x4x1x1.rank)
  bcast_S1x4x1x1_S16x4x2048x64_0_1_2_3 : S1x4x1x1.BroadcastsInDim S16x4x2048x64 (![0, 1, 2, 3] : Fin 4 → Fin S16x4x2048x64.rank)
  slices_S16x4x2048x64_S16x1x2048x64_0_0_0_0 : S16x4x2048x64.Slices ![0, 0, 0, 0] S16x1x2048x64
  shapeCasts_S16x1x2048x64_S16x2048x64 : S16x1x2048x64.ShapeCasts S16x2048x64
  slices_S16x4x2048x64_S16x1x2048x64_0_1_0_0 : S16x4x2048x64.Slices ![0, 1, 0, 0] S16x1x2048x64
  slices_S16x4x2048x64_S16x1x2048x64_0_2_0_0 : S16x4x2048x64.Slices ![0, 2, 0, 0] S16x1x2048x64
  slices_S16x4x2048x64_S16x1x2048x64_0_3_0_0 : S16x4x2048x64.Slices ![0, 3, 0, 0] S16x1x2048x64
  reducesTo_S16x2048x64_S16x2048_d2 : S16x2048x64.ReducesTo [2] S16x2048
  bcast_S16x2048x1_S16x2048x64_0_1_2 : S16x2048x1.BroadcastsInDim S16x2048x64 (![0, 1, 2] : Fin 3 → Fin S16x2048x64.rank)
  reducesTo_S16x2048x4_S16x2048_d2 : S16x2048x4.ReducesTo [2] S16x2048
  slices_S16x2048x4_S16x2048x1_0_0_0 : S16x2048x4.Slices ![0, 0, 0] S16x2048x1
  slices_S16x2048x4_S16x2048x1_0_0_1 : S16x2048x4.Slices ![0, 0, 1] S16x2048x1
  bcast_S16x2048x64_S16x2048x64x1_0_1_2 : S16x2048x64.BroadcastsInDim S16x2048x64x1 (![0, 1, 2] : Fin 3 → Fin S16x2048x64x1.rank)
  concatenates_S16x2048x64x1_S16x2048x64x1_S16x2048x64x1_S16x2048x64x1_S16x2048x64x1_S16x2048x64x1_S16x2048x64x1_S16x2048x64x1_S16x2048x64x1_S16x2048x64x1_S16x2048x64x10_d3 : Shape.Concatenates [S16x2048x64x1, S16x2048x64x1, S16x2048x64x1, S16x2048x64x1, S16x2048x64x1, S16x2048x64x1, S16x2048x64x1, S16x2048x64x1, S16x2048x64x1, S16x2048x64x1] S16x2048x64x10 3
  reducesTo_S16x2048x64x10_S16x2048x64_d3 : S16x2048x64x10.ReducesTo [3] S16x2048x64
  bcast_S_S64 : S_.BroadcastsInDim S64 (![] : Fin 0 → Fin S64.rank)
  dot_S16x2048x1025_S64x1025_S16x2048x64_2_1_01_0_n_n_wf : DotDims.WF S16x2048x1025 S64x1025 S16x2048x64 [2] [1] [0, 1] [0] [] []
  dot_S4x64x1025_S16x2048x1025_S4x64x16x2048_2_2_01_01_n_n_wf : DotDims.WF S4x64x1025 S16x2048x1025 S4x64x16x2048 [2] [2] [0, 1] [0, 1] [] []

variable [Facts₀]

def dot_S16x2048x1025_S64x1025_S16x2048x64_2_1_01_0_n_n : DotDims S16x2048x1025 S64x1025 S16x2048x64 where
  lhsContracting := [2]
  rhsContracting := [1]
  lhsNonContracting := [0, 1]
  rhsNonContracting := [0]
  lhsBatch := []
  rhsBatch := []
  wf := dot_S16x2048x1025_S64x1025_S16x2048x64_2_1_01_0_n_n_wf
def dot_S4x64x1025_S16x2048x1025_S4x64x16x2048_2_2_01_01_n_n : DotDims S4x64x1025 S16x2048x1025 S4x64x16x2048 where
  lhsContracting := [2]
  rhsContracting := [2]
  lhsNonContracting := [0, 1]
  rhsNonContracting := [0, 1]
  lhsBatch := []
  rhsBatch := []
  wf := dot_S4x64x1025_S16x2048x1025_S4x64x16x2048_2_2_01_01_n_n_wf

class Facts : Prop extends Facts₀ where

variable [Facts]
-- ==== Proof.KHost.lean ====
/-
  The host side of `Kernel`'s one region. @main is 91 host operations (the periodicity basis, the four band masks and
  their counts, the folded [1025, 320] matrix), the region, and 93 more (the five score groups sliced out of the region's
  result, the relu-normalised projection, the two mask means, the two clipped scalars, the stack of ten channels, its mean
  and the distance grid). Here: what core `c`'s buffers hold when the region is entered, @main reduced to the region
  continued by the later lines, the three facts the launch asks of those lines (they touch unscoped buffers only,
  allocate nothing, write none of the region's four arrays) and that no line before or after the region writes an
  argument array.
-/
import proofs.«120933_j27814208209311_1_alg».proof.Proof.Gen.Kernel.Launch
import Idealize.ShloMosaic.Lib.Pipeline.FrameSuffix

set_option maxRecDepth 16384

noncomputable section

namespace Cert.Kernel.Hs

open Cert.Kernel Cert.Kernel.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: after the 91 operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it: it reduces to the region continued by the
    later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Each later line touches unscoped TensorCore buffers only; with nothing prefetched these are the region's arrays and
    the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

set_option maxHeartbeats 4000000 in
/-- No operation of this stretch writes one of the region's four arrays: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)

/-- The later lines write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg0`. -/
theorem tail_keeps_arg0 : ∀ op ∈ (tailOps (F := F)).flatten, Proc.devRef .tc main_arg0 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg1`. -/
theorem tail_keeps_arg1 : ∀ op ∈ (tailOps (F := F)).flatten, Proc.devRef .tc main_arg1 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg2`. -/
theorem tail_keeps_arg2 : ∀ op ∈ (tailOps (F := F)).flatten, Proc.devRef .tc main_arg2 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg3`. -/
theorem tail_keeps_arg3 : ∀ op ∈ (tailOps (F := F)).flatten, Proc.devRef .tc main_arg3 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg4`. -/
theorem tail_keeps_arg4 : ∀ op ∈ (tailOps (F := F)).flatten, Proc.devRef .tc main_arg4 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg5`. -/
theorem tail_keeps_arg5 : ∀ op ∈ (tailOps (F := F)).flatten, Proc.devRef .tc main_arg5 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg6`. -/
theorem tail_keeps_arg6 : ∀ op ∈ (tailOps (F := F)).flatten, Proc.devRef .tc main_arg6 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg7`. -/
theorem tail_keeps_arg7 : ∀ op ∈ (tailOps (F := F)).flatten, Proc.devRef .tc main_arg7 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.Kernel.Hs

end
-- ==== Proof.KBody.lean ====
/-
  The body of `Kernel`'s kernel at one grid point, as a triple. The body loads the point's [512, 1025] block of
  `phase`, the two [512, 1025] halves of the point's block of `comb`, the whole [1025, 320] matrix, and (without using
  it) the output block; it stores ONE value over the whole [1, 512, 320] output block: the matrix product of the
  normalised trough rows with the matrix. So the output's staging buffer ends at that value, a function of the three
  input buffers' contents alone, and the input buffers are left as they were.
-/
import proofs.«120933_j27814208209311_1_alg».proof.Proof.Gen.Kernel.Launch
import proofs.«120933_j27814208209311_1_alg».proof.Proof.Gen.Kernel.Skeleton
import Idealize.ShloMosaic.Lib.Pipeline.FrameBody
import Idealize.ShloMosaic.Lib.Ring
import Idealize.ShloMosaic.Lib.Tactic

set_option maxRecDepth 16384

noncomputable section

namespace Cert.Kernel.Bd

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole block of `phase`. -/
abbrev rPh : Rect S1x1x512x1025 := Rect.unit (s := S1x1x512x1025) ![0, 0, 0, 0] S1x1x512x1025.size inb_S1x1x512x1025_S1x1x512x1025_0_0_0_0
/-- The first half of the block of `comb` (channel 0). -/
abbrev rC0 : Rect S1x2x512x1025 := Rect.unit (s := S1x2x512x1025) ![0, 0, 0, 0] S1x1x512x1025.size inb_S1x2x512x1025_S1x1x512x1025_0_0_0_0
/-- The second half of the block of `comb` (channel 1). -/
abbrev rC1 : Rect S1x2x512x1025 := Rect.unit (s := S1x2x512x1025) ![0, 1, 0, 0] S1x1x512x1025.size inb_S1x2x512x1025_S1x1x512x1025_0_1_0_0
/-- The whole matrix. -/
abbrev rBs : Rect S1025x320 := Rect.unit (s := S1025x320) ![0, 0] S1025x320.size inb_S1025x320_S1025x320_0_0
/-- The whole output block. -/
abbrev rOut : Rect S1x512x320 := Rect.unit (s := S1x512x320) ![0, 0, 0] S1x512x320.size inb_S1x512x320_S1x512x320_0_0_0

/-! ## What the body leaves in the output window's buffer -/

/-- The value the body stores, from the three input buffers' contents: the un-normalised trough and its row
    normaliser from the `phase` block and the two `comb` halves, their quotient multiplied into the matrix. -/
def stored (x0 : Vec F S1x1x512x1025 .f32) (x1 : Vec F S1x2x512x1025 .f32) (x2 : Vec F S1025x320 .bf16) : Vec F S1x512x320 .f32 :=
  k0_pay1 (k0_pay2 (View.ld x0 rPh) (View.ld x1 rC0) (View.ld x1 rC1)) (k0_pay3 (View.ld x0 rPh) (View.ld x1 rC0) (View.ld x1 rC1)) (View.ld x2 rBs)

/-- The output buffer after the body: its one store, over the whole block. -/
def outBlk (x0 : Vec F S1x1x512x1025 .f32) (x1 : Vec F S1x2x512x1025 .f32) (x2 : Vec F S1025x320 .bf16) : Vec F S1x512x320 .f32 :=
  View.canon [⟨rOut, stored x0 x1 x2⟩]

/-- The one store covers the block. -/
theorem coverOut (p0 : Vec F S1x512x320 .f32) (y : S1x512x320.Idx) :
    ∃ pc ∈ ([⟨rOut, p0⟩] : List (View.Piece (Elt F) S1x512x320 .f32)), y ∈ pc.1.set :=
  View.cover_of_tiled [⟨rOut, p0⟩] S1x512x320.size (by rfl) y

/-! ## The body's triple -/

set_option maxHeartbeats 4000000 in
/-- On whole staging memrefs, the three inputs' at contents `x0 x1 x2` and the output's at anything, the body runs to
    its continuation holding the inputs' as they were and the output's at `outBlk x0 x1 x2`. -/
theorem sound_kernel (c : Dev nD) (E : Set ℕ) (i : grid0.Coords)
    (arg2 : Memref sig .tc .vmem S1x1x512x1025 .f32) (harg2 : arg2.IsWhole)
    (arg3 : Memref sig .tc .vmem S1x2x512x1025 .f32) (harg3 : arg3.IsWhole)
    (arg4 : Memref sig .tc .vmem S1025x320 .bf16) (harg4 : arg4.IsWhole)
    (arg5 : Memref sig .tc .vmem S1x512x320 .f32) (harg5 : arg5.IsWhole)
    (x0 : Vec F S1x1x512x1025 .f32) (x1 : Vec F S1x2x512x1025 .f32) (x2 : Vec F S1025x320 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__trough_matmul_kernel i arg2 harg2 arg3 harg3 arg4 harg4 arg5 harg5) K := by
  simp only [cc0__trough_matmul_kernel_eq_skeleton]; unfold cc0__trough_matmul_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.Kernel.Bd

end
-- ==== Proof.KFrame.lean ====
/-
  The frame run of `Kernel`: the proof data of its one region (the arrays as the region finds them; after the body at
  a point each input buffer at its block and the output buffer at the value the body stores there), the body obligation
  at every point, the launch around the region with the 93 later host lines, and the frame claim read off the run: every
  argument array ends as launched.
-/
import proofs.«120933_j27814208209311_1_alg».proof.Proof.KHost
import proofs.«120933_j27814208209311_1_alg».proof.Proof.KBody
import proofs.«120933_j27814208209311_1_alg».proof.Proof.Gen.Kernel.Points

set_option maxRecDepth 16384

noncomputable section

namespace Cert.Kernel.Fr

open Cert.Kernel Cert.Kernel.Gen Cert.Kernel.Hs Cert.Kernel.Bd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`: the arrays as the region finds them; after the body at point `t` each
    input's buffer at its block and the output's at the stored value of the three input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument array that no window stages ends as launched: no line after the region writes it and none before. -/
theorem kept_rest (c : Dev nD) (b : Ref sig .tc) (hb : ∀ w, Pipeline.arrRef spec0 w ≠ b)
    (hk : ∀ op ∈ (tailOps (F := F)).flatten, Proc.devRef .tc b ∉ op.writes) (hV : V m c b = m ((c : Thread nD τ).loc b)) :
    Pipeline.afterTail₀ cfgs (dats m) 0 (V0 m) tailOps c b = m ((c : Thread nD τ).loc b) := by
  unfold Pipeline.afterTail₀
  rw [StableHlo.after_of_forall_not_mem (b := Proc.devRef .tc b) _ _ hk, Pipeline.withArrays_of_ne _ c (V0 m c) _ b hb]
  exact hV

/-- From the frame run's post: every argument array ends as launched (a staged input by the library's reading of an input
    window's array, the others because no host line writes them). -/
theorem kept_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans
     (kept_rest m c main_arg2 (by decide) tail_keeps_arg2 (V_main_arg2 m c)),
   ((h c).2 main_arg3 (Pipeline.mem_restRefs_of main_arg3 (by decide) (by decide))).trans
     (kept_rest m c main_arg3 (by decide) tail_keeps_arg3 (V_main_arg3 m c)),
   ((h c).2 main_arg4 (Pipeline.mem_restRefs_of main_arg4 (by decide) (by decide))).trans
     (kept_rest m c main_arg4 (by decide) tail_keeps_arg4 (V_main_arg4 m c)),
   ((h c).2 main_arg5 (Pipeline.mem_restRefs_of main_arg5 (by decide) (by decide))).trans
     (kept_rest m c main_arg5 (by decide) tail_keeps_arg5 (V_main_arg5 m c)),
   ((h c).2 main_arg6 (Pipeline.mem_restRefs_of main_arg6 (by decide) (by decide))).trans
     (kept_rest m c main_arg6 (by decide) tail_keeps_arg6 (V_main_arg6 m c)),
   ((h c).2 main_arg7 (Pipeline.mem_restRefs_of main_arg7 (by decide) (by decide))).trans
     (kept_rest m c main_arg7 (by decide) tail_keeps_arg7 (V_main_arg7 m c))⟩

/-- THE FRAME: at any `F`, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_args m r h c) (run_main m ρ)

end Cert.Kernel.Fr

end
-- ==== Proof.KIHost.lean ====
/-
  The host side of `KernelIdeal`'s one region. @main is 91 host operations (the periodicity basis, the four band masks and
  their counts, the folded [1025, 320] matrix), the region, and 93 more (the five score groups sliced out of the region's
  result, the relu-normalised projection, the two mask means, the two clipped scalars, the stack of ten channels, its mean
  and the distance grid). Here: what core `c`'s buffers hold when the region is entered, @main reduced to the region
  continued by the later lines, the three facts the launch asks of those lines (they touch unscoped buffers only,
  allocate nothing, write none of the region's four arrays) and that no line before or after the region writes an
  argument array.
-/
import proofs.«120933_j27814208209311_1_alg».proof.Proof.Gen.KernelIdeal.Launch
import Idealize.ShloMosaic.Lib.Pipeline.FrameSuffix

set_option maxRecDepth 16384

noncomputable section

namespace Cert.KernelIdeal.Hs

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The seven stretches of host operations after the region, in order. -/
abbrev tailOps : List (List (HloOp τ sig (Elt F))) :=
  [hostOps1, hostOps1_1, hostOps1_2, hostOps1_3, hostOps1_4, hostOps1_5, hostOps1_6]

/-- Core `c`'s buffer contents when the region is entered: after the 91 operations before it. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

set_option maxHeartbeats 4000000 in
theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps1_1_fresh : (hostOps1_1 : List (HloOp τ sig (Elt F))).Forall fun op => op.fresh = ∅ := by
  simp only [List.Forall]; repeat' constructor
theorem hostOps1_2_fresh : (hostOps1_2 : List (HloOp τ sig (Elt F))).Forall fun op => op.fresh = ∅ := by
  simp only [List.Forall]; repeat' constructor
theorem hostOps1_3_fresh : (hostOps1_3 : List (HloOp τ sig (Elt F))).Forall fun op => op.fresh = ∅ := by
  simp only [List.Forall]; repeat' constructor
theorem hostOps1_4_fresh : (hostOps1_4 : List (HloOp τ sig (Elt F))).Forall fun op => op.fresh = ∅ := by
  simp only [List.Forall]; repeat' constructor
theorem hostOps1_5_fresh : (hostOps1_5 : List (HloOp τ sig (Elt F))).Forall fun op => op.fresh = ∅ := by
  simp only [List.Forall]; repeat' constructor
theorem hostOps1_6_fresh : (hostOps1_6 : List (HloOp τ sig (Elt F))).Forall fun op => op.fresh = ∅ := by
  simp only [List.Forall]; repeat' constructor

/-- @main is the lines before the region, the region, the lines after it: it reduces to the region continued by the
    later lines, entered at `V`. -/
theorem hmain (𝒱₀ : Variants) : Pipeline.HMainK (Ix := Unit) (Name := ℕ) (U := UR sig nD τ) (Lvl := ℕ) cfgs 0 defs₀ 𝒱₀ m (main (F := F)) (V m)
      (fun _ => Pipeline.chain ((tailOps (F := F)).map StableHlo.seq)) :=
  Pipeline.hmain_around cfgs 0 defs₀ 𝒱₀ m main [hostOps0] tailOps (by simp only [List.Forall]; exact hostOps0_sub)
    (by simp only [List.Forall]; exact hostOps0_fresh) main_chain

/-- Each later line touches unscoped TensorCore buffers only; with nothing prefetched these are the region's arrays and
    the buffers that bypass it. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [List.mem_cons, List.mem_nil_iff, or_false] at hops
  rcases hops with rfl | rfl | rfl | rfl | rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
  · exact Pipeline.sub_ucRefs op ((List.forall_iff_forall_mem.mp hostOps1_3_sub) op hop)
  · exact Pipeline.sub_ucRefs op ((List.forall_iff_forall_mem.mp hostOps1_4_sub) op hop)
  · exact Pipeline.sub_ucRefs op ((List.forall_iff_forall_mem.mp hostOps1_5_sub) op hop)
  · exact Pipeline.sub_ucRefs op ((List.forall_iff_forall_mem.mp hostOps1_6_sub) op hop)

/-- They allocate nothing. -/
theorem sfx_fresh : ∀ ops ∈ (tailOps : List (List (HloOp τ sig (Elt F)))), ∀ op ∈ ops, op.fresh = ∅ := by
  intro ops hops op hop
  simp only [List.mem_cons, List.mem_nil_iff, or_false] at hops
  rcases hops with rfl | rfl | rfl | rfl | rfl | rfl | rfl
  · exact (List.forall_iff_forall_mem.mp hostOps1_fresh) op hop
  · exact (List.forall_iff_forall_mem.mp hostOps1_1_fresh) op hop
  · exact (List.forall_iff_forall_mem.mp hostOps1_2_fresh) op hop
  · exact (List.forall_iff_forall_mem.mp hostOps1_3_fresh) op hop
  · exact (List.forall_iff_forall_mem.mp hostOps1_4_fresh) op hop
  · exact (List.forall_iff_forall_mem.mp hostOps1_5_fresh) op hop
  · exact (List.forall_iff_forall_mem.mp hostOps1_6_fresh) op hop

set_option maxHeartbeats 4000000 in
/-- No operation of this stretch writes one of the region's four arrays: each writes its own result buffer only. -/
theorem hostOps1_keeps : (hostOps1 : List (HloOp τ sig (Elt F))).Forall fun op =>
    ∀ w, Proc.devRef .tc (Pipeline.arrRef spec0 w) ∉ op.writes := by
  simp only [hostOps1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_1_keeps : (hostOps1_1 : List (HloOp τ sig (Elt F))).Forall fun op =>
    ∀ w, Proc.devRef .tc (Pipeline.arrRef spec0 w) ∉ op.writes := by
  simp only [hostOps1_1, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_2_keeps : (hostOps1_2 : List (HloOp τ sig (Elt F))).Forall fun op =>
    ∀ w, Proc.devRef .tc (Pipeline.arrRef spec0 w) ∉ op.writes := by
  simp only [hostOps1_2, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_3_keeps : (hostOps1_3 : List (HloOp τ sig (Elt F))).Forall fun op =>
    ∀ w, Proc.devRef .tc (Pipeline.arrRef spec0 w) ∉ op.writes := by
  simp only [hostOps1_3, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_4_keeps : (hostOps1_4 : List (HloOp τ sig (Elt F))).Forall fun op =>
    ∀ w, Proc.devRef .tc (Pipeline.arrRef spec0 w) ∉ op.writes := by
  simp only [hostOps1_4, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_5_keeps : (hostOps1_5 : List (HloOp τ sig (Elt F))).Forall fun op =>
    ∀ w, Proc.devRef .tc (Pipeline.arrRef spec0 w) ∉ op.writes := by
  simp only [hostOps1_5, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)
set_option maxHeartbeats 4000000 in
/-- No operation of this stretch writes one of the region's four arrays: each writes its own result buffer only. -/
theorem hostOps1_6_keeps : (hostOps1_6 : List (HloOp τ sig (Elt F))).Forall fun op =>
    ∀ w, Proc.devRef .tc (Pipeline.arrRef spec0 w) ∉ op.writes := by
  simp only [hostOps1_6, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
  repeat' apply And.intro
  all_goals intro w; fin_cases w <;> exact StableHlo.devRef_ne_of_ne (by decide)

/-- The later lines write none of the region's arrays. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl | rfl | rfl | rfl | rfl | rfl | rfl
  · exact (List.forall_iff_forall_mem.mp hostOps1_keeps) op hop
  · exact (List.forall_iff_forall_mem.mp hostOps1_1_keeps) op hop
  · exact (List.forall_iff_forall_mem.mp hostOps1_2_keeps) op hop
  · exact (List.forall_iff_forall_mem.mp hostOps1_3_keeps) op hop
  · exact (List.forall_iff_forall_mem.mp hostOps1_4_keeps) op hop
  · exact (List.forall_iff_forall_mem.mp hostOps1_5_keeps) op hop
  · exact (List.forall_iff_forall_mem.mp hostOps1_6_keeps) op hop

set_option maxHeartbeats 4000000 in
/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

set_option maxHeartbeats 4000000 in
/-- No host operation after the region writes `main_arg0`. -/
theorem tail_keeps_arg0 : ∀ op ∈ (tailOps (F := F)).flatten, Proc.devRef .tc main_arg0 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg1`. -/
theorem tail_keeps_arg1 : ∀ op ∈ (tailOps (F := F)).flatten, Proc.devRef .tc main_arg1 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg2`. -/
theorem tail_keeps_arg2 : ∀ op ∈ (tailOps (F := F)).flatten, Proc.devRef .tc main_arg2 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg3`. -/
theorem tail_keeps_arg3 : ∀ op ∈ (tailOps (F := F)).flatten, Proc.devRef .tc main_arg3 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg4`. -/
theorem tail_keeps_arg4 : ∀ op ∈ (tailOps (F := F)).flatten, Proc.devRef .tc main_arg4 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg5`. -/
theorem tail_keeps_arg5 : ∀ op ∈ (tailOps (F := F)).flatten, Proc.devRef .tc main_arg5 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg6`. -/
theorem tail_keeps_arg6 : ∀ op ∈ (tailOps (F := F)).flatten, Proc.devRef .tc main_arg6 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

set_option maxHeartbeats 4000000 in
/-- No host operation after the region writes `main_arg7`. -/
theorem tail_keeps_arg7 : ∀ op ∈ (tailOps (F := F)).flatten, Proc.devRef .tc main_arg7 ∉ op.writes :=
  List.forall_iff_forall_mem.mp (by
    simp only [hostOps1, hostOps1_1, hostOps1_2, hostOps1_3, hostOps1_4, hostOps1_5, hostOps1_6, List.flatten_cons, List.flatten_nil, List.append_nil, List.cons_append,
      List.nil_append, List.Forall, StableHlo.TRef.nullary, StableHlo.TRef.unary, StableHlo.TRef.binary, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide))

end Cert.KernelIdeal.Hs

end
-- ==== Proof.KIBody.lean ====
/-
  The body of `KernelIdeal`'s kernel at one grid point, as a triple. The body loads the point's [512, 1025] block of
  `phase`, the two [512, 1025] halves of the point's block of `comb`, the whole [1025, 320] matrix, and (without using
  it) the output block; it stores ONE value over the whole [1, 512, 320] output block: the matrix product of the
  normalised trough rows with the matrix. So the output's staging buffer ends at that value, a function of the three
  input buffers' contents alone, and the input buffers are left as they were.
-/
import proofs.«120933_j27814208209311_1_alg».proof.Proof.Gen.KernelIdeal.Launch
import proofs.«120933_j27814208209311_1_alg».proof.Proof.Gen.KernelIdeal.Skeleton
import Idealize.ShloMosaic.Lib.Pipeline.FrameBody
import Idealize.ShloMosaic.Lib.Ring
import Idealize.ShloMosaic.Lib.Tactic

set_option maxRecDepth 16384

noncomputable section

namespace Cert.KernelIdeal.Bd

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body's accesses -/

/-- The whole block of `phase`. -/
abbrev rPh : Rect S1x1x512x1025 := Rect.unit (s := S1x1x512x1025) ![0, 0, 0, 0] S1x1x512x1025.size inb_S1x1x512x1025_S1x1x512x1025_0_0_0_0
/-- The first half of the block of `comb` (channel 0). -/
abbrev rC0 : Rect S1x2x512x1025 := Rect.unit (s := S1x2x512x1025) ![0, 0, 0, 0] S1x1x512x1025.size inb_S1x2x512x1025_S1x1x512x1025_0_0_0_0
/-- The second half of the block of `comb` (channel 1). -/
abbrev rC1 : Rect S1x2x512x1025 := Rect.unit (s := S1x2x512x1025) ![0, 1, 0, 0] S1x1x512x1025.size inb_S1x2x512x1025_S1x1x512x1025_0_1_0_0
/-- The whole matrix. -/
abbrev rBs : Rect S1025x320 := Rect.unit (s := S1025x320) ![0, 0] S1025x320.size inb_S1025x320_S1025x320_0_0
/-- The whole output block. -/
abbrev rOut : Rect S1x512x320 := Rect.unit (s := S1x512x320) ![0, 0, 0] S1x512x320.size inb_S1x512x320_S1x512x320_0_0_0

/-! ## What the body leaves in the output window's buffer -/

/-- The value the body stores, from the three input buffers' contents: the un-normalised trough and its row
    normaliser from the `phase` block and the two `comb` halves, their quotient multiplied into the matrix. -/
def stored (x0 : Vec F S1x1x512x1025 .f32) (x1 : Vec F S1x2x512x1025 .f32) (x2 : Vec F S1025x320 .bf16) : Vec F S1x512x320 .f32 :=
  k0_pay1 (k0_pay2 (View.ld x0 rPh) (View.ld x1 rC0) (View.ld x1 rC1)) (k0_pay3 (View.ld x0 rPh) (View.ld x1 rC0) (View.ld x1 rC1)) (View.ld x2 rBs)

/-- The output buffer after the body: its one store, over the whole block. -/
def outBlk (x0 : Vec F S1x1x512x1025 .f32) (x1 : Vec F S1x2x512x1025 .f32) (x2 : Vec F S1025x320 .bf16) : Vec F S1x512x320 .f32 :=
  View.canon [⟨rOut, stored x0 x1 x2⟩]

/-- The one store covers the block. -/
theorem coverOut (p0 : Vec F S1x512x320 .f32) (y : S1x512x320.Idx) :
    ∃ pc ∈ ([⟨rOut, p0⟩] : List (View.Piece (Elt F) S1x512x320 .f32)), y ∈ pc.1.set :=
  View.cover_of_tiled [⟨rOut, p0⟩] S1x512x320.size (by rfl) y

/-! ## The body's triple -/

set_option maxHeartbeats 4000000 in
/-- On whole staging memrefs, the three inputs' at contents `x0 x1 x2` and the output's at anything, the body runs to
    its continuation holding the inputs' as they were and the output's at `outBlk x0 x1 x2`. -/
theorem sound_kernel (c : Dev nD) (E : Set ℕ) (i : grid0.Coords)
    (arg2 : Memref sig .tc .vmem S1x1x512x1025 .f32) (harg2 : arg2.IsWhole)
    (arg3 : Memref sig .tc .vmem S1x2x512x1025 .f32) (harg3 : arg3.IsWhole)
    (arg4 : Memref sig .tc .vmem S1025x320 .bf16) (harg4 : arg4.IsWhole)
    (arg5 : Memref sig .tc .vmem S1x512x320 .f32) (harg5 : arg5.IsWhole)
    (x0 : Vec F S1x1x512x1025 .f32) (x1 : Vec F S1x2x512x1025 .f32) (x2 : Vec F S1025x320 .bf16) (K : PUnit → sProp 𝕄) :
    iprop(owns (c : Thread nD τ) arg2 fullShare x0 ∗ owns (c : Thread nD τ) arg3 fullShare x1 ∗ owns (c : Thread nD τ) arg4 fullShare x2
        ∗ (∃ d, owns (c : Thread nD τ) arg5 fullShare d)
        ∗ (iprop(owns (c : Thread nD τ) arg2 fullShare x0 ∗ owns (c : Thread nD τ) arg3 fullShare x1 ∗ owns (c : Thread nD τ) arg4 fullShare x2
            ∗ owns (c : Thread nD τ) arg5 fullShare (outBlk x0 x1 x2)) -∗ K ⟨⟩))
      ⊢ wp frame (wpE (defs₀ (F := F)) Variants.none c none) E (cc0__trough_matmul_kernel i arg2 harg2 arg3 harg3 arg4 harg4 arg5 harg5) K := by
  simp only [cc0__trough_matmul_kernel_eq_skeleton]; unfold cc0__trough_matmul_kernel_skel
  simp only [k0_part1_eq_skeleton]
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (coverOut _)

end Cert.KernelIdeal.Bd

end
-- ==== Proof.KIFrame.lean ====
/-
  The frame run of `KernelIdeal`: the proof data of its one region (the arrays as the region finds them; after the body at
  a point each input buffer at its block and the output buffer at the value the body stores there), the body obligation
  at every point, the launch around the region with the 93 later host lines, and the frame claim read off the run: every
  argument array ends as launched.
-/
import proofs.«120933_j27814208209311_1_alg».proof.Proof.KIHost
import proofs.«120933_j27814208209311_1_alg».proof.Proof.KIBody
import proofs.«120933_j27814208209311_1_alg».proof.Proof.Gen.KernelIdeal.Points

set_option maxRecDepth 16384

noncomputable section

namespace Cert.KernelIdeal.Fr

open Cert.KernelIdeal Cert.KernelIdeal.Gen Cert.KernelIdeal.Hs Cert.KernelIdeal.Bd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

/-- Input window 1's current staging buffer holds its block at every point, fetched there or not. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-- Input window 2's current staging buffer holds its block at every point, fetched there or not. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-! ## The proof data -/

/-- The proof data of the region on core `c`: the arrays as the region finds them; after the body at point `t` each
    input's buffer at its block and the output's at the stored value of the three input blocks; the class's invariant;
    nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outBlk (iblk m c 0 t) (iblk m c 1 t) (iblk m c 2 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) :
    (dats m 0 c).after 3 t = outBlk (iblk m c 0 t) (iblk m c 1 t) (iblk m c 2 t) := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t))

/-- The body at any point: the inputs' memrefs hold their blocks, so the body's triple applies; the invariant and the
    core's `owes` pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel c Set.univ (grid0.coords t) _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates, and every final state has each array of the region at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- An argument array that no window stages ends as launched: no line after the region writes it and none before. -/
theorem kept_rest (c : Dev nD) (b : Ref sig .tc) (hb : ∀ w, Pipeline.arrRef spec0 w ≠ b)
    (hk : ∀ op ∈ (tailOps (F := F)).flatten, Proc.devRef .tc b ∉ op.writes) (hV : V m c b = m ((c : Thread nD τ).loc b)) :
    Pipeline.afterTail₀ cfgs (dats m) 0 (V0 m) tailOps c b = m ((c : Thread nD τ).loc b) := by
  unfold Pipeline.afterTail₀
  rw [StableHlo.after_of_forall_not_mem (b := Proc.devRef .tc b) _ _ hk, Pipeline.withArrays_of_ne _ c (V0 m c) _ b hb]
  exact hV

/-- From the frame run's post: every argument array ends as launched (a staged input by the library's reading of an input
    window's array, the others because no host line writes them). -/
theorem kept_args (r : PUnit × MemSt nD τ sig (Elt F))
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  ⟨((h c).1 0).trans (((dats m 0 c).arrAt_in 0 rfl _).trans ((A_eq m c 0).trans (V_main_arg0 m c))),
   ((h c).1 1).trans (((dats m 0 c).arrAt_in 1 rfl _).trans ((A_eq m c 1).trans (V_main_arg1 m c))),
   ((h c).2 main_arg2 (Pipeline.mem_restRefs_of main_arg2 (by decide) (by decide))).trans
     (kept_rest m c main_arg2 (by decide) tail_keeps_arg2 (V_main_arg2 m c)),
   ((h c).2 main_arg3 (Pipeline.mem_restRefs_of main_arg3 (by decide) (by decide))).trans
     (kept_rest m c main_arg3 (by decide) tail_keeps_arg3 (V_main_arg3 m c)),
   ((h c).2 main_arg4 (Pipeline.mem_restRefs_of main_arg4 (by decide) (by decide))).trans
     (kept_rest m c main_arg4 (by decide) tail_keeps_arg4 (V_main_arg4 m c)),
   ((h c).2 main_arg5 (Pipeline.mem_restRefs_of main_arg5 (by decide) (by decide))).trans
     (kept_rest m c main_arg5 (by decide) tail_keeps_arg5 (V_main_arg5 m c)),
   ((h c).2 main_arg6 (Pipeline.mem_restRefs_of main_arg6 (by decide) (by decide))).trans
     (kept_rest m c main_arg6 (by decide) tail_keeps_arg6 (V_main_arg6 m c)),
   ((h c).2 main_arg7 (Pipeline.mem_restRefs_of main_arg7 (by decide) (by decide))).trans
     (kept_rest m c main_arg7 (by decide) tail_keeps_arg7 (V_main_arg7 m c))⟩

/-- THE FRAME: at any `F`, every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun r h c => kept_args m r h c) (run_main m ρ)

end Cert.KernelIdeal.Fr

end
-- ==== Proof.LibSumDiv.lean ====
/-
  A sum of products, each second factor divided by one positive extended real, is the sum of the products divided by
  it. On the extended reals multiplication does not distribute over addition in general; it does when the common factor
  is a non-negative number other than +∞, and the inverse of a positive extended real is such a number (the inverse of
  +∞ is 0). No finiteness of the summands is needed.

  `Ideal.div` is the ideal instance's quotient: for a divisor other than 0 it is the product with the inverse.
-/
import Idealize.ShloMosaic.PureOps.Ideal
import Mathlib.Data.EReal.Inv

noncomputable section

namespace Cert.SumDiv

open Idealize.ShloMosaic

/-- A common non-negative factor other than +∞ comes out of a finite sum of extended reals. -/
theorem sum_mul_const {ι : Type} (s : Finset ι) (a : ι → EReal) {k : EReal} (hk : 0 ≤ k) (hk' : k ≠ ⊤) :
    ∑ f ∈ s, a f * k = (∑ f ∈ s, a f) * k := by
  classical
  induction s using Finset.induction_on with
  | empty => simp
  | insert i s hi ih =>
    rw [Finset.sum_insert hi, Finset.sum_insert hi, ih, EReal.right_distrib_of_nonneg_of_ne_top hk hk']

/-- The ideal quotient by a positive extended real is the product with its inverse. -/
theorem div_of_pos {D : EReal} (hD : 0 < D) (x : EReal) : Ideal.div x D = x * D⁻¹ := by
  unfold Ideal.div; rw [if_neg hD.ne']

/-- Dividing each second factor, or the whole sum, by a positive extended real is the same. -/
theorem sum_mul_div {ι : Type} [Fintype ι] (x y : ι → EReal) {D : EReal} (hD : 0 < D) :
    ∑ f, x f * Ideal.div (y f) D = Ideal.div (∑ f, x f * y f) D := by
  rw [div_of_pos hD]
  simp only [div_of_pos hD, ← mul_assoc]
  exact sum_mul_const _ _ (EReal.inv_nonneg_of_nonneg hD.le) (EReal.inv_lt_top D).ne

/-- The same with the divided factor first and the products of the undivided sum commuted. -/
theorem sum_div_mul {ι : Type} [Fintype ι] (x y : ι → EReal) {D : EReal} (hD : 0 < D) :
    ∑ f, x f * Ideal.div (y f) D = Ideal.div (∑ f, y f * x f) D := by
  rw [sum_mul_div x y hD]
  simp only [mul_comm]

/-- The larger of anything and a positive extended real is positive. -/
theorem max_pos_right (a : EReal) {e : EReal} (he : 0 < e) : 0 < max a e := lt_max_of_lt_right he

end Cert.SumDiv

end
-- ==== Proof.Consts.lean ====
/-
  The float literals the two programs divide by, as the extended reals their words denote: 1025.0 (the number of
  frequency bins, the divisor of both row means and of the periodic score) and 1.0 (the floor of a band's bin count).
  Both are positive, which is all the distributive law asks of a divisor.
-/
import Idealize.ShloMosaic.PureOps.Ideal

noncomputable section

namespace Cert.Consts

open Idealize.ShloMosaic

/-- The word of `1025.0` denotes the real 1025. -/
theorem ofBits_1025 : Ideal.ofBits .f32 0x44802000#32 = ((1025 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

theorem pos_1025 : (0 : EReal) < Ideal.ofBits .f32 0x44802000#32 := by
  rw [ofBits_1025]; exact_mod_cast (by norm_num : (0 : ℝ) < 1025)

theorem pos_one : (0 : EReal) < Ideal.ofBits .f32 0x3F800000#32 := by
  rw [ofBits_one]; exact zero_lt_one

end Cert.Consts

end
-- ==== Proof.Spec.lean ====
/-
  What both programs compute, as mathematics on the extended reals.

  For one time frame (one row of 1025 frequency bins): centre the log-magnitude row `x` on its mean, keep the part
  below the mean (the trough), weight it by one plus the first-difference strength (the absolute second comb channel
  plus a quarter of the absolute first), and normalise by the row's mean trough, floored at 1e-6. Every score is a sum
  over the bins of that normalised trough against a column of a basis.

  The kernel sums against a basis column that was already divided (by 1025 for the periodic score, by the band's bin
  count for a band score); the reference divides the sum. `score_div` is the equality, for any positive divisor.
-/
import Idealize.ShloMosaic.PureOps.Ideal
import Idealize.ShloMosaic.PureOps.Ideal.Laws
import proofs.«120933_j27814208209311_1_alg».proof.Proof.LibSumDiv
import proofs.«120933_j27814208209311_1_alg».proof.Proof.Consts

noncomputable section

namespace Cert.Spec

open Idealize.ShloMosaic

/-- The absolute value of an extended real, as the ideal instance spells it. -/
abbrev aabs (y : EReal) : EReal := max y (-y)

/-- The un-normalised trough of a row: `relu(-(x - mean x)) · (1 + (relu|c1| + 0.25 · relu|c0|))`. -/
def troughU (x c0 c1 : Fin 1025 → EReal) (f : Fin 1025) : EReal :=
  max (-(x f - Ideal.div (∑ k : Fin 1025, x k) (Ideal.ofBits .f32 0x44802000#32))) 0
    * (Ideal.ofBits .f32 0x3F800000#32
        + (max (aabs (c1 f)) 0 + Ideal.ofBits .f32 0x3E800000#32 * max (aabs (c0 f)) 0))

/-- The row's normaliser: its mean un-normalised trough, floored at the word of 1e-6. -/
def troughN (x c0 c1 : Fin 1025 → EReal) : EReal :=
  max (Ideal.div (∑ k : Fin 1025, troughU x c0 c1 k) (Ideal.ofBits .f32 0x44802000#32)) (Ideal.ofBits .f32 0x358637BD#32)

/-- The normalised trough of a row. -/
def trough (x c0 c1 : Fin 1025 → EReal) (f : Fin 1025) : EReal :=
  Ideal.div (troughU x c0 c1 f) (troughN x c0 c1)

/-- A score against a column divided beforehand is the score against the column, divided. -/
theorem score_div (T B : Fin 1025 → EReal) {D : EReal} (hD : 0 < D) :
    ∑ f : Fin 1025, T f * Ideal.div (B f) D = Ideal.div (∑ f : Fin 1025, T f * B f) D :=
  Cert.SumDiv.sum_mul_div T B hD

/-- The same with the reference's band product, which multiplies the column first. -/
theorem score_div_comm (T B : Fin 1025 → EReal) {D : EReal} (hD : 0 < D) :
    ∑ f : Fin 1025, T f * Ideal.div (B f) D = Ideal.div (∑ f : Fin 1025, B f * T f) D :=
  Cert.SumDiv.sum_div_mul T B hD

end Cert.Spec

end
-- ==== Proof.KIStored.lean ====
/-
  The value the idealized kernel's body stores, read at one entry: row `r` of the point's block, score column `n`.
  It is the sum over the 1025 frequency bins of the row's normalised trough against column `n` of the matrix the body
  loaded; the trough of row `r` depends on row `r` of the `phase` block and of the two `comb` halves only.

  The reading goes operation by operation. The layout operations (a block viewed as its rows, a row sum kept as a
  column, a column broadcast along the rows) each read one entry of their operand; a row sum is the sum over the
  bins; the matrix product into the zero accumulator is the sum over the bins of the products. The un-normalised
  trough and its row normaliser are read over arbitrary blocks first, then at the blocks the body loads.
-/
import proofs.«120933_j27814208209311_1_alg».proof.Proof.KIBody
import proofs.«120933_j27814208209311_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.St

open Cert.KernelIdeal Cert.KernelIdeal.Gen Cert.KernelIdeal.Bd
open Idealize.ShloMosaic Idealize.ShloMosaic.ValueIdx

/-! ## The layout operations at an entry -/

/-- A [1,1,512,1025] block viewed [512,1025] reads (0,0,r,f) at (r,f). -/
theorem rowcast {α : Type} (v : S1x1x512x1025.Idx → α) (r : Fin 512) (f : Fin 1025) :
    shapeCast S512x1025 v shapeCasts_S1x1x512x1025_S512x1025 (ix2 r f) = v (ix4 (0 : Fin 1) (0 : Fin 1) r f) := by
  refine shapeCast_apply v _ (ix2 r f) (ix4 (0 : Fin 1) (0 : Fin 1) r f) ?_
  rw [Shape.rowMajor_val_four, Shape.rowMajor_val_two]
  show ((0 * 1 + 0) * 512 + r.val) * 1025 + f.val = r.val * 1025 + f.val
  omega

/-- The sum of a [512,1025] vector along its rows, at row r. -/
theorem rowsum (w : FVec Ideal S512x1025 .f32) (r : Fin 512) :
    multiReduction (F := Ideal) .add [1] S512 w 0x00000000#32 reduces_S512x1025_S512 (.inl rfl) rfl (ix1 r)
      = ∑ k : Fin 1025, w (ix2 r k) := by
  refine (Ideal.multiReduction_add_single w 0x00000000#32 reduces_S512x1025_S512 (.inl rfl) rfl (ix1 r)).trans ?_
  refine Finset.sum_congr rfl fun k _ => congrArg w ?_
  funext a
  match a with
  | ⟨0, _⟩ => rfl
  | ⟨1, _⟩ => rfl

/-- A [512] vector viewed [512,1] reads r at (r,0). -/
theorem keepcast {α : Type} (u : S512.Idx → α) (r : Fin 512) :
    shapeCast S512x1 u shapeCasts_S512_S512x1 (ix2 r (0 : Fin 1)) = u (ix1 r) := by
  refine shapeCast_apply u _ (ix2 r (0 : Fin 1)) (ix1 r) ?_
  rw [Shape.rowMajor_val_two, Shape.rowMajor_val_one]
  show r.val = r.val * 1 + 0
  omega

/-- A [512,1] vector broadcast along the rows reads (r,0) at (r,f). -/
theorem rowbcast {α : Type} (u : S512x1.Idx → α) (r : Fin 512) (f : Fin 1025) :
    broadcastTo S512x1025 u broadcasts_S512x1_S512x1025 (ix2 r f) = u (ix2 r (0 : Fin 1)) := by
  refine broadcastTo_apply u _ (ix2 r f) (ix2 r (0 : Fin 1)) fun a => ?_
  match a with
  | ⟨0, _⟩ => rfl
  | ⟨1, _⟩ => rfl

/-! ## The trough and its normaliser -/

/-- The mean of each row, divided by a broadcast word and broadcast back along the row. -/
theorem rowmean (w : FVec Ideal S512x1025 .f32) (c : Ideal .f32) (r : Fin 512) (f : Fin 1025) :
    broadcastTo S512x1025 (divf (shapeCast S512x1 (multiReduction (F := Ideal) .add [1] S512 w 0x00000000#32 reduces_S512x1025_S512 (.inl rfl) rfl) shapeCasts_S512_S512x1) (broadcast S512x1 c)) broadcasts_S512x1_S512x1025 (ix2 r f)
      = Ideal.div (∑ k : Fin 1025, w (ix2 r k)) c := by
  rw [rowbcast]
  show Ideal.div (shapeCast S512x1 _ shapeCasts_S512_S512x1 (ix2 r (0 : Fin 1))) c = _
  rw [keepcast, rowsum]

/-- The un-normalised trough the body computes, at (row r, bin f). -/
theorem pay2_apply (v0 v12 v14 : Vec Ideal S1x1x512x1025 .f32) (r : Fin 512) (f : Fin 1025) :
    k0_pay2 (F := Ideal) v0 v12 v14 (ix2 r f)
      = Cert.Spec.troughU (fun k => v0 (ix4 (0 : Fin 1) (0 : Fin 1) r k)) (fun k => v12 (ix4 (0 : Fin 1) (0 : Fin 1) r k))
          (fun k => v14 (ix4 (0 : Fin 1) (0 : Fin 1) r k)) f := by
  unfold k0_pay2 Cert.Spec.troughU
  show max (Ideal.ofBits .f32 0x00000000#32 - (shapeCast S512x1025 v0 shapeCasts_S1x1x512x1025_S512x1025 (ix2 r f)
          - broadcastTo S512x1025 (divf (shapeCast S512x1 (multiReduction (F := Ideal) .add [1] S512 (shapeCast S512x1025 v0 shapeCasts_S1x1x512x1025_S512x1025) 0x00000000#32 reduces_S512x1025_S512 (.inl rfl) rfl) shapeCasts_S512_S512x1) (broadcast S512x1 (Ideal.ofBits .f32 0x44802000#32))) broadcasts_S512x1_S512x1025 (ix2 r f)))
        (Ideal.ofBits .f32 0x00000000#32)
      * (Ideal.ofBits .f32 0x3F800000#32
          + (max (max (shapeCast S512x1025 v14 shapeCasts_S1x1x512x1025_S512x1025 (ix2 r f)) (-(shapeCast S512x1025 v14 shapeCasts_S1x1x512x1025_S512x1025 (ix2 r f)))) (Ideal.ofBits .f32 0x00000000#32)
            + Ideal.ofBits .f32 0x3E800000#32
              * max (max (shapeCast S512x1025 v12 shapeCasts_S1x1x512x1025_S512x1025 (ix2 r f)) (-(shapeCast S512x1025 v12 shapeCasts_S1x1x512x1025_S512x1025 (ix2 r f)))) (Ideal.ofBits .f32 0x00000000#32))) = _
  rw [rowmean, rowcast v0, rowcast v12, rowcast v14]
  simp only [rowcast]
  rw [Ideal.ofBits_zero_f32, zero_sub]

/-- The row normaliser the body computes, at (row r, any bin). -/
theorem pay3_apply (v0 v12 v14 : Vec Ideal S1x1x512x1025 .f32) (r : Fin 512) (f : Fin 1025) :
    k0_pay3 (F := Ideal) v0 v12 v14 (ix2 r f)
      = Cert.Spec.troughN (fun k => v0 (ix4 (0 : Fin 1) (0 : Fin 1) r k)) (fun k => v12 (ix4 (0 : Fin 1) (0 : Fin 1) r k))
          (fun k => v14 (ix4 (0 : Fin 1) (0 : Fin 1) r k)) := by
  unfold k0_pay3 Cert.Spec.troughN
  show broadcastTo S512x1025 (maximumf (divf (shapeCast S512x1 (multiReduction (F := Ideal) .add [1] S512 (k0_pay2 (F := Ideal) v0 v12 v14) 0x00000000#32 reduces_S512x1025_S512 (.inl rfl) rfl) shapeCasts_S512_S512x1) (broadcast S512x1 (Ideal.ofBits .f32 0x44802000#32))) (broadcast S512x1 (Ideal.ofBits .f32 0x358637BD#32))) broadcasts_S512x1_S512x1025 (ix2 r f) = _
  rw [rowbcast]
  show max (Ideal.div (shapeCast S512x1 _ shapeCasts_S512_S512x1 (ix2 r (0 : Fin 1))) (Ideal.ofBits .f32 0x44802000#32)) (Ideal.ofBits .f32 0x358637BD#32) = _
  rw [keepcast, rowsum]
  simp only [pay2_apply]

/-! ## The product with the matrix -/

/-- The left operand's index at output (i, ·) and contraction position q: row i … -/
theorem mm_lhs_0 (i : S512x320.Idx) (q : dot_S512x1025_S1025x320_S512x320_1_0_0_1_n_n.contr.Idx) :
    (dot_S512x1025_S1025x320_S512x320_1_0_0_1_n_n.lhsIdx i q 0).val = (i 0).val := by
  unfold DotDims.lhsIdx
  rw [dif_neg (show ¬(0 : Fin S512x1025.rank) ∈ dot_S512x1025_S1025x320_S512x320_1_0_0_1_n_n.lhsBatch by decide),
    dif_pos (show (0 : Fin S512x1025.rank) ∈ dot_S512x1025_S1025x320_S512x320_1_0_0_1_n_n.lhsNonContracting by decide)]
  rfl
/-- … column q. -/
theorem mm_lhs_1 (i : S512x320.Idx) (q : dot_S512x1025_S1025x320_S512x320_1_0_0_1_n_n.contr.Idx) :
    (dot_S512x1025_S1025x320_S512x320_1_0_0_1_n_n.lhsIdx i q 1).val = (q ⟨0, by decide⟩).val :=
  dot_S512x1025_S1025x320_S512x320_1_0_0_1_n_n.lhsIdx_val_of_single rfl i q
/-- The right operand's index: row q … -/
theorem mm_rhs_0 (i : S512x320.Idx) (q : dot_S512x1025_S1025x320_S512x320_1_0_0_1_n_n.contr.Idx) :
    (dot_S512x1025_S1025x320_S512x320_1_0_0_1_n_n.rhsIdx i q 0).val = (q ⟨0, by decide⟩).val :=
  dot_S512x1025_S1025x320_S512x320_1_0_0_1_n_n.rhsIdx_val_of_single rfl i q
/-- … column (·, i). -/
theorem mm_rhs_1 (i : S512x320.Idx) (q : dot_S512x1025_S1025x320_S512x320_1_0_0_1_n_n.contr.Idx) :
    (dot_S512x1025_S1025x320_S512x320_1_0_0_1_n_n.rhsIdx i q 1).val = (i 1).val := by
  unfold DotDims.rhsIdx
  rw [dif_neg (show ¬(1 : Fin S1025x320.rank) ∈ dot_S512x1025_S1025x320_S512x320_1_0_0_1_n_n.rhsBatch by decide),
    dif_pos (show (1 : Fin S1025x320.rank) ∈ dot_S512x1025_S1025x320_S512x320_1_0_0_1_n_n.rhsNonContracting by decide)]
  rfl

/-- A [512,1025] vector times a [1025,320] matrix into the zero accumulator, at (r, n): the sum over the bins. -/
theorem mm_apply (A : FVec Ideal S512x1025 .bf16) (B : FVec Ideal S1025x320 .bf16) (r : Fin 512) (n : Fin 320) :
    matmul (F := Ideal) dot_S512x1025_S1025x320_S512x320_1_0_0_1_n_n none A B (constant (F := Ideal) S512x320 .f32 0x00000000#32) (ix2 r n)
      = ∑ f : Fin 1025, A (ix2 r f) * B (ix2 f n) := by
  simp only [matmul]
  rw [Ideal.matmul_constant_zero_apply, ← Equiv.sum_comp (contrEquiv1 dot_S512x1025_S1025x320_S512x320_1_0_0_1_n_n 1025 rfl rfl).symm]
  refine Finset.sum_congr rfl fun k _ => ?_
  have hk := contrEquiv1_symm_val dot_S512x1025_S1025x320_S512x320_1_0_0_1_n_n 1025 rfl rfl k
  have el : dot_S512x1025_S1025x320_S512x320_1_0_0_1_n_n.lhsIdx (ix2 r n) ((contrEquiv1 dot_S512x1025_S1025x320_S512x320_1_0_0_1_n_n 1025 rfl rfl).symm k) = ix2 r k :=
    funext fun a => Fin.ext (by
      match a with
      | ⟨0, _⟩ => exact mm_lhs_0 _ _
      | ⟨1, _⟩ => exact (mm_lhs_1 _ _).trans hk)
  have er : dot_S512x1025_S1025x320_S512x320_1_0_0_1_n_n.rhsIdx (ix2 r n) ((contrEquiv1 dot_S512x1025_S1025x320_S512x320_1_0_0_1_n_n 1025 rfl rfl).symm k) = ix2 k n :=
    funext fun a => Fin.ext (by
      match a with
      | ⟨0, _⟩ => exact (mm_rhs_0 _ _).trans hk
      | ⟨1, _⟩ => exact mm_rhs_1 _ _)
  rw [el, er]

/-- A [512,320] vector viewed [1,512,320] reads (r,n) at (0,r,n). -/
theorem outcast {α : Type} (v : S512x320.Idx → α) (r : Fin 512) (n : Fin 320) :
    shapeCast S1x512x320 v shapeCasts_S512x320_S1x512x320 (ix3 (0 : Fin 1) r n) = v (ix2 r n) := by
  refine shapeCast_apply v _ (ix3 (0 : Fin 1) r n) (ix2 r n) ?_
  rw [Shape.rowMajor_val_three, Shape.rowMajor_val_two]
  show r.val * 320 + n.val = (0 * 512 + r.val) * 320 + n.val
  omega

/-- The stored value from the un-normalised trough T, the broadcast normaliser N and the matrix M, at (0, r, n). -/
theorem pay1_apply (T N : FVec Ideal S512x1025 .f32) (M : Vec Ideal S1025x320 .bf16) (r : Fin 512) (n : Fin 320) :
    k0_pay1 (F := Ideal) T N M (ix3 (0 : Fin 1) r n)
      = ∑ f : Fin 1025, Ideal.div (T (ix2 r f)) (N (ix2 r f)) * M (ix2 f n) := by
  unfold k0_pay1
  show shapeCast S1x512x320 (matmul (F := Ideal) dot_S512x1025_S1025x320_S512x320_1_0_0_1_n_n none (truncf .bf16 (divf T N) bitsLt_bf16_f32)
      (shapeCast S1025x320 M shapeCasts_S1025x320_S1025x320) (constant (F := Ideal) S512x320 .f32 0x00000000#32))
      shapeCasts_S512x320_S1x512x320 (ix3 (0 : Fin 1) r n) = _
  rw [outcast, mm_apply, shapeCast_self]
  rfl

/-! ## The loads -/

/-- The first half of the two-channel block at (0,0,r,k) is the block at (0,0,r,k). -/
theorem ldC0 (x1 : Vec Ideal S1x2x512x1025 .f32) (r : Fin 512) (k : Fin 1025) :
    View.ld x1 rC0 (ix4 (0 : Fin 1) (0 : Fin 1) r k) = x1 (ix4 (0 : Fin 1) (0 : Fin 2) r k) := by
  show x1 (rC0.idx (ix4 (0 : Fin 1) (0 : Fin 1) r k)) = _
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

/-- The second half at (0,0,r,k) is the block at (0,1,r,k). -/
theorem ldC1 (x1 : Vec Ideal S1x2x512x1025 .f32) (r : Fin 512) (k : Fin 1025) :
    View.ld x1 rC1 (ix4 (0 : Fin 1) (0 : Fin 1) r k) = x1 (ix4 (0 : Fin 1) (1 : Fin 2) r k) := by
  show x1 (rC1.idx (ix4 (0 : Fin 1) (0 : Fin 1) r k)) = _
  refine congrArg x1 (funext fun a => Fin.ext ?_)
  match a with
  | ⟨0, _⟩ => rfl
  | ⟨1, _⟩ => rfl
  | ⟨2, _⟩ => show 0 + 1 * r.val = r.val; omega
  | ⟨3, _⟩ => show 0 + 1 * k.val = k.val; omega

/-- The stored value at (row `r`, column `n`) of the block. -/
theorem stored_apply (x0 : Vec Ideal S1x1x512x1025 .f32) (x1 : Vec Ideal S1x2x512x1025 .f32) (x2 : Vec Ideal S1025x320 .bf16)
    (r : Fin 512) (n : Fin 320) :
    stored (F := Ideal) x0 x1 x2 (ix3 (0 : Fin 1) r n)
      = ∑ f : Fin 1025, Cert.Spec.trough (fun k => x0 (ix4 (0 : Fin 1) (0 : Fin 1) r k)) (fun k => x1 (ix4 (0 : Fin 1) (0 : Fin 2) r k))
          (fun k => x1 (ix4 (0 : Fin 1) (1 : Fin 2) r k)) f * x2 (ix2 f n) := by
  have hz4 : (![0, 0, 0, 0] : Fin 4 → Nat) = fun _ => 0 := by
    funext a; match a with | ⟨0, _⟩ => rfl | ⟨1, _⟩ => rfl | ⟨2, _⟩ => rfl | ⟨3, _⟩ => rfl
  have hz2 : (![0, 0] : Fin 2 → Nat) = fun _ => 0 := by
    funext a; match a with | ⟨0, _⟩ => rfl | ⟨1, _⟩ => rfl
  have e0 : View.ld x0 rPh = x0 := View.ld_unit_zero hz4 _ x0
  have e2 : View.ld x2 rBs = x2 := View.ld_unit_zero hz2 _ x2
  unfold stored
  rw [e0, e2, pay1_apply]
  refine Finset.sum_congr rfl fun f _ => ?_
  rw [pay2_apply, pay3_apply]
  have h0 : (fun k => View.ld x1 rC0 (ix4 (0 : Fin 1) (0 : Fin 1) r k)) = fun k => x1 (ix4 (0 : Fin 1) (0 : Fin 2) r k) :=
    funext (ldC0 x1 r)
  have h1 : (fun k => View.ld x1 rC1 (ix4 (0 : Fin 1) (0 : Fin 1) r k)) = fun k => x1 (ix4 (0 : Fin 1) (1 : Fin 2) r k) :=
    funext (ldC1 x1 r)
  exact congrArg₂ (fun c0 c1 : Fin 1025 → EReal =>
    Ideal.div (Cert.Spec.troughU (fun k => x0 (ix4 (0 : Fin 1) (0 : Fin 1) r k)) c0 c1 f)
      (Cert.Spec.troughN (fun k => x0 (ix4 (0 : Fin 1) (0 : Fin 1) r k)) c0 c1) * x2 (ix2 f n)) h0 h1

end Cert.KernelIdeal.St

end
-- ==== Proof.KIFinal.lean ====
/-
  The region's result array after the run, as one function of the argument arrays. Point (b, tt) of the 16 × 4 grid
  writes back rows tt·512 … tt·512+511 of batch b; entry (b, t, n) of the [16, 2048, 320] array ends at the sum over the
  1025 bins of the normalised trough of row (b, t) against column n of the matrix the region was entered with. The 64
  blocks tile the array, so this describes all of it.
-/
import proofs.«120933_j27814208209311_1_alg».proof.Proof.KIFrame
import proofs.«120933_j27814208209311_1_alg».proof.Proof.KIStored

set_option maxRecDepth 16384

noncomputable section

namespace Cert.KernelIdeal.Fn

open Cert.KernelIdeal Cert.KernelIdeal.Gen Cert.KernelIdeal.Hs Cert.KernelIdeal.Bd Cert.KernelIdeal.Fr Cert.KernelIdeal.St
open Idealize.ShloMosaic Idealize.ShloMosaic.TcCoe Idealize.ShloMosaic.ValueIdx Idealize.SL.Sem
open Idealize.ShloMosaic.Pipeline (Dat Cfg Window)

/-- One score: row (b, t)'s trough against column `n` of the matrix. -/
def scoreAt (ph : (⟨S16x1x2048x1025, .f32⟩ : BufTy).Contents (Elt Ideal)) (cb : (⟨S16x2x2048x1025, .f32⟩ : BufTy).Contents (Elt Ideal))
    (Bs : (⟨S1025x320, .bf16⟩ : BufTy).Contents (Elt Ideal)) (b : Fin 16) (t : Fin 2048) (n : Fin 320) : EReal :=
  ∑ f : Fin 1025, Cert.Spec.trough (fun k => ph (ix4 b (0 : Fin 1) t k)) (fun k => cb (ix4 b (0 : Fin 2) t k))
      (fun k => cb (ix4 b (1 : Fin 2) t k)) f * Bs (ix2 f n)

/-- The whole score array. -/
def scores (ph : (⟨S16x1x2048x1025, .f32⟩ : BufTy).Contents (Elt Ideal)) (cb : (⟨S16x2x2048x1025, .f32⟩ : BufTy).Contents (Elt Ideal))
    (Bs : (⟨S1025x320, .bf16⟩ : BufTy).Contents (Elt Ideal)) : (⟨S16x2048x320, .f32⟩ : BufTy).Contents (Elt Ideal) :=
  fun i => scoreAt ph cb Bs ⟨(i 0).val, (i 0).isLt⟩ ⟨(i 1).val, (i 1).isLt⟩ ⟨(i 2).val, (i 2).isLt⟩

theorem scores_apply (ph cb Bs) (b : Fin 16) (t : Fin 2048) (n : Fin 320) :
    scores ph cb Bs (ix3 b t n) = scoreAt ph cb Bs b t n := rfl

/-! ## The block indices, decided over the 16 × 4 grid -/

/-- The offsets of the whole output block, all zero. -/
theorem hz3 : (![0, 0, 0] : Fin 3 → Nat) = fun _ => 0 :=
  funext fun a => by match a with | ⟨0, _⟩ => rfl | ⟨1, _⟩ => rfl | ⟨2, _⟩ => rfl

/-- At every point the `phase` block and the `comb` block sit at the batch and the row block of the output block, on
    their channel axis and their bin axis at block 0; the matrix block is the whole matrix; the output block's batch is
    below 16, its row block below 4, and its column block is 0. -/
theorem blocks_at : ∀ t : Fin cfg0.N,
    win0_0.index t (0 : Fin 4) = win0_3.index t (0 : Fin 3) ∧ win0_0.index t (1 : Fin 4) = 0
    ∧ win0_0.index t (2 : Fin 4) = win0_3.index t (1 : Fin 3) ∧ win0_0.index t (3 : Fin 4) = 0
    ∧ win0_1.index t (0 : Fin 4) = win0_3.index t (0 : Fin 3) ∧ win0_1.index t (1 : Fin 4) = 0
    ∧ win0_1.index t (2 : Fin 4) = win0_3.index t (1 : Fin 3) ∧ win0_1.index t (3 : Fin 4) = 0
    ∧ win0_2.index t (0 : Fin 2) = 0 ∧ win0_2.index t (1 : Fin 2) = 0
    ∧ win0_3.index t (0 : Fin 3) < 16 ∧ win0_3.index t (1 : Fin 3) < 4 ∧ win0_3.index t (2 : Fin 3) = 0 :=
  (by decide +kernel : ∀ t : Fin grid0.N, _)

/-- Every (batch, row block) is some point's output block. -/
theorem block_onto : ∀ (q0 : Fin 16) (q1 : Fin 4), ∃ t : Fin cfg0.N, win0_3.index t = ![q0.val, q1.val, 0] :=
  (by decide +kernel : ∀ (q0 : Fin 16) (q1 : Fin 4), ∃ t : Fin grid0.N, win0_3.index t = ![q0.val, q1.val, 0])

variable (m : (ℓ : Loc nD τ sig) → Buf (Elt Ideal) ℓ)

/-! ## What a point writes back -/

/-- The trough of a row is a function of the row of `phase` and the two rows of `comb`. -/
theorem trough_congr {x x' c0 c0' c1 c1' : Fin 1025 → EReal} (hx : x = x') (h0 : c0 = c0') (h1 : c1 = c1') (f : Fin 1025) :
    Cert.Spec.trough x c0 c1 f = Cert.Spec.trough x' c0' c1' f := by
  subst hx; subst h0; subst h1; rfl

/-- WHAT POINT `t` WRITES BACK is block `t` of the score array of the arrays the region was entered with: entry (0, r, n)
    of the stored value is the score of row `r` of the point's `phase` and `comb` blocks against column `n` of the
    matrix block, and those blocks are the arrays' rows at the output block's batch and row block. -/
theorem flushed_eq (c : Dev nD) (t : Fin cfg0.N) :
    (dats m 0 c).flushed 3 t
      = ((cfg0.win 3).blk t).view.read (Elt Ideal) (scores (V m c main_arg0) (V m c main_arg1) (V m c main_v71)) := by
  show (cfg0.win 3).cut (grid0.coords t) ((dats m 0 c).after 3 t) = _
  rw [after0_3]
  unfold outBlk
  rw [View.canon_unit_zero hz3]
  obtain ⟨p0, p1, p2, p3, c0, c1, c2, c3, b0, b1, o0, o1, o2⟩ := blocks_at t
  funext j
  have hj0 : (j 0).val < 1 := (j 0).isLt
  have hj1 : (j 1).val < 512 := (j 1).isLt
  have hj2 : (j 2).val < 320 := (j 2).isLt
  -- the entry of the block, by its row and column
  have eL : (cfg0.win 3).xinj (grid0.coords t) j = ix3 (0 : Fin 1) (⟨(j 1).val, hj1⟩ : Fin 512) (⟨(j 2).val, hj2⟩ : Fin 320) := by
    funext a; apply Fin.ext
    match a with
    | ⟨0, _⟩ => show (j 0).val = 0; omega
    | ⟨1, _⟩ => rfl
    | ⟨2, _⟩ => rfl
  show stored (F := Ideal) (iblk m c 0 t) (iblk m c 1 t) (iblk m c 2 t) ((cfg0.win 3).xinj (grid0.coords t) j)
    = scores (V m c main_arg0) (V m c main_arg1) (V m c main_v71) (((cfg0.win 3).blk t).view.emb j)
  refine (congrArg (stored (F := Ideal) (iblk m c 0 t) (iblk m c 1 t) (iblk m c 2 t)) eL).trans ?_
  refine (stored_apply (iblk m c 0 t) (iblk m c 1 t) (iblk m c 2 t) ⟨(j 1).val, hj1⟩ ⟨(j 2).val, hj2⟩).trans ?_
  unfold scores scoreAt
  refine Finset.sum_congr rfl fun f _ => ?_
  refine congrArg₂ (· * ·) (trough_congr (funext fun k => ?_) (funext fun k => ?_) (funext fun k => ?_) f) ?_
  · -- the `phase` block's row is the array's row at the output block's batch and row block
    show V m c main_arg0 (((cfg0.win 0).blk t).view.emb (ix4 (0 : Fin 1) (0 : Fin 1) (⟨(j 1).val, hj1⟩ : Fin 512) k)) = _
    refine congrArg (V m c main_arg0) (funext fun a => Fin.ext ?_)
    match a with
    | ⟨0, _⟩ => show win0_0.index t (0 : Fin 4) * 1 + 1 * 0 = win0_3.index t (0 : Fin 3) * 1 + 1 * (j 0).val; omega
    | ⟨1, _⟩ => show win0_0.index t (1 : Fin 4) * 1 + 1 * 0 = 0; omega
    | ⟨2, _⟩ => show win0_0.index t (2 : Fin 4) * 512 + 1 * (j 1).val = win0_3.index t (1 : Fin 3) * 512 + 1 * (j 1).val; omega
    | ⟨3, _⟩ => show win0_0.index t (3 : Fin 4) * 1025 + 1 * k.val = k.val; omega
  · -- the `comb` block's first channel
    show V m c main_arg1 (((cfg0.win 1).blk t).view.emb (ix4 (0 : Fin 1) (0 : Fin 2) (⟨(j 1).val, hj1⟩ : Fin 512) k)) = _
    refine congrArg (V m c main_arg1) (funext fun a => Fin.ext ?_)
    match a with
    | ⟨0, _⟩ => show win0_1.index t (0 : Fin 4) * 1 + 1 * 0 = win0_3.index t (0 : Fin 3) * 1 + 1 * (j 0).val; omega
    | ⟨1, _⟩ => show win0_1.index t (1 : Fin 4) * 2 + 1 * 0 = 0; omega
    | ⟨2, _⟩ => show win0_1.index t (2 : Fin 4) * 512 + 1 * (j 1).val = win0_3.index t (1 : Fin 3) * 512 + 1 * (j 1).val; omega
    | ⟨3, _⟩ => show win0_1.index t (3 : Fin 4) * 1025 + 1 * k.val = k.val; omega
  · -- and its second
    show V m c main_arg1 (((cfg0.win 1).blk t).view.emb (ix4 (0 : Fin 1) (1 : Fin 2) (⟨(j 1).val, hj1⟩ : Fin 512) k)) = _
    refine congrArg (V m c main_arg1) (funext fun a => Fin.ext ?_)
    match a with
    | ⟨0, _⟩ => show win0_1.index t (0 : Fin 4) * 1 + 1 * 0 = win0_3.index t (0 : Fin 3) * 1 + 1 * (j 0).val; omega
    | ⟨1, _⟩ => show win0_1.index t (1 : Fin 4) * 2 + 1 * 1 = 1; omega
    | ⟨2, _⟩ => show win0_1.index t (2 : Fin 4) * 512 + 1 * (j 1).val = win0_3.index t (1 : Fin 3) * 512 + 1 * (j 1).val; omega
    | ⟨3, _⟩ => show win0_1.index t (3 : Fin 4) * 1025 + 1 * k.val = k.val; omega
  · -- the matrix block is the matrix
    show V m c main_v71 (((cfg0.win 2).blk t).view.emb (ix2 f (⟨(j 2).val, hj2⟩ : Fin 320))) = _
    refine congrArg (V m c main_v71) (funext fun a => Fin.ext ?_)
    match a with
    | ⟨0, _⟩ => show win0_2.index t (0 : Fin 2) * 1025 + 1 * f.val = f.val; omega
    | ⟨1, _⟩ => show win0_2.index t (1 : Fin 2) * 320 + 1 * (j 2).val = win0_3.index t (2 : Fin 3) * 320 + 1 * (j 2).val; omega

/-! ## The 64 output blocks tile the array -/

/-- An index of the [16, 2048, 320] array is in point `t`'s output block iff each coordinate is in the block's range. -/
theorem mem_blk (t : Fin cfg0.N) (i : S16x2048x320.Idx) :
    i ∈ ((cfg0.win 3).blk t).view.set ↔ ∀ a : Fin 3, win0_3.index t a * S1x512x320.size a ≤ (i a).val
      ∧ (i a).val < win0_3.index t a * S1x512x320.size a + S1x512x320.size a := by
  show i ∈ ((View.whole main_v72).slice (win0_3.rect t)).set ↔ _
  rw [View.set_slice_whole, Rect.mem_set_unit]
  exact Iff.rfl

/-- Entry (b, t, n) lies in the block of the point whose output block is (b, t / 512, 0). -/
theorem blocks_cover (i : S16x2048x320.Idx) :
    ∃ t : Fin cfg0.N, (cfg0.win 3).flush t = true ∧ i ∈ ((cfg0.win 3).blk t).view.set := by
  have hi0 : (i 0).val < 16 := (i 0).isLt
  have hi1 : (i 1).val < 2048 := (i 1).isLt
  have hi2 : (i 2).val < 320 := (i 2).isLt
  obtain ⟨t, ht⟩ := block_onto ⟨(i 0).val, hi0⟩ ⟨(i 1).val / 512, by omega⟩
  have q0 : win0_3.index t (0 : Fin 3) = (i 0).val := congrFun ht 0
  have q1 : win0_3.index t (1 : Fin 3) = (i 1).val / 512 := congrFun ht 1
  have q2 : win0_3.index t (2 : Fin 3) = 0 := congrFun ht 2
  refine ⟨t, flush0_3 t, ?_⟩
  rw [mem_blk]
  intro a
  match a with
  | ⟨0, _⟩ =>
    show win0_3.index t (0 : Fin 3) * 1 ≤ (i 0).val ∧ (i 0).val < win0_3.index t (0 : Fin 3) * 1 + 1
    omega
  | ⟨1, _⟩ =>
    show win0_3.index t (1 : Fin 3) * 512 ≤ (i 1).val ∧ (i 1).val < win0_3.index t (1 : Fin 3) * 512 + 512
    omega
  | ⟨2, _⟩ =>
    show win0_3.index t (2 : Fin 3) * 320 ≤ (i 2).val ∧ (i 2).val < win0_3.index t (2 : Fin 3) * 320 + 320
    omega

/-! ## The array after the run -/

/-- THE RESULT ARRAY after the run. -/
theorem final (c : Dev nD) :
    (dats m 0 c).arrAt 3 cfg0.N
      = scores (m ((c : Thread nD τ).loc main_arg0)) (m ((c : Thread nD τ).loc main_arg1)) (V m c main_v71) :=
  ((dats m 0 c).arrAt_eq_of_cover 3 (scores (V m c main_arg0) (V m c main_arg1) (V m c main_v71))
      (fun t _ => flushed_eq m c t) blocks_cover).trans
    (congrArg₂ (fun ph cb => scores ph cb (V m c main_v71)) (V_main_arg0 m c) (V_main_arg1 m c))

end Cert.KernelIdeal.Fn

end
-- ==== Proof.KIMatrix.lean ====
/-
  The matrix the idealized kernel's region multiplies by (its third operand, [1025, 320]), as the host lines before the
  region leave it, read at bin `f` and score column `g·64 + d`: for group 0 the basis entry (d, f) divided by 1025, for
  group s+1 the basis entry times band s's mask at `f`, divided by band s's bin count. The basis, the masks and the
  counts are the same host operations of `frequencies_hz` and `spacing_grid_hz` in both programs, so they are named by
  the reference's stages %52, %87 and %90.

  `matOf` is the last fifteen host operations as a function of the basis, the masks and the counts; `matOf_periodic` and
  `matOf_band` read it at an index through the conversion (the identity at the ideal instance), the transpose, the
  flattening [5, 64, 1025] → [320, 1025] (equal row-major positions), the two-piece stack along axis 0, the broadcasts
  and the pointwise quotient and product. `mat` is `matOf` at the reference's three stages.
-/
import proofs.«120933_j27814208209311_1_alg».proof.Proof.KIHost
import proofs.«120933_j27814208209311_1_alg».proof.Proof.RefReadP
import Idealize.ShloMosaic.Lib.StableHlo.Run
import Idealize.ShloMosaic.Lib.ValueIdx
import Idealize.ShloMosaic.Lib.ValueLayout
import Idealize.ShloMosaic.Lib.Pipeline.Value
import Idealize.ShloMosaic.Lib.IdealHost
import Idealize.ShloMosaic.PureOps.Ideal.Laws

set_option maxRecDepth 16384

noncomputable section

namespace Cert.KernelIdeal.Mx

open Cert.KernelIdeal Cert.KernelIdeal.Gen Cert.KernelIdeal.Hs
open Idealize.ShloMosaic Idealize.ShloMosaic.TcCoe Idealize.ShloMosaic.ValueIdx Idealize.SL.Sem

/-- The last host operations before the region, as a function of the basis [64, 1025], the four band masks [4, 1025]
    and the four bin counts [4]: group 0 is the basis over 1025, group s+1 the basis times mask s over count s; the five
    groups are stacked as [5, 64, 1025], flattened to [320, 1025] and transposed. -/
def matOf (Bas : (⟨S64x1025, .f32⟩ : BufTy).Contents (Elt Ideal)) (Msk : (⟨S4x1025, .f32⟩ : BufTy).Contents (Elt Ideal))
    (Den : (⟨S4, .f32⟩ : BufTy).Contents (Elt Ideal)) : (⟨S1025x320, .bf16⟩ : BufTy).Contents (Elt Ideal) :=
  truncf .bf16
    (transpose S1025x320 [1, 0]
      (shapeCast S320x1025
        (concatenate S5x64x1025 0
          [⟨S1x64x1025, broadcastInDim S1x64x1025 ![1, 2] bcast_S64x1025_S1x64x1025_1_2
              (Host.divf (F := Ideal) Bas
                (broadcastInDim S64x1025 ![] bcast_S_S64x1025 (constant (F := Ideal) S_ .f32 0x44802000#32)))⟩,
           ⟨S4x64x1025, Host.divf (F := Ideal)
              (mulf
                (broadcastInDim S4x64x1025 ![0, 1, 2] bcast_S1x64x1025_S4x64x1025_0_1_2
                  (broadcastInDim S1x64x1025 ![1, 2] bcast_S64x1025_S1x64x1025_1_2 Bas))
                (broadcastInDim S4x64x1025 ![0, 1, 2] bcast_S4x1x1025_S4x64x1025_0_1_2
                  (broadcastInDim S4x1x1025 ![0, 2] bcast_S4x1025_S4x1x1025_0_2 Msk)))
              (broadcastInDim S4x64x1025 ![0, 1, 2] bcast_S4x1x1_S4x64x1025_0_1_2
                (broadcastInDim S4x1x1 ![0] bcast_S4_S4x1x1_0 Den))⟩]
          concatenates_S1x64x1025_S4x64x1025_S5x64x1025_d0)
        shapeCasts_S5x64x1025_S320x1025)
      transposes_S320x1025_S1025x320_1_0)
    bitsLt_bf16_f32

variable (Bas : (⟨S64x1025, .f32⟩ : BufTy).Contents (Elt Ideal)) (Msk : (⟨S4x1025, .f32⟩ : BufTy).Contents (Elt Ideal))
    (Den : (⟨S4, .f32⟩ : BufTy).Contents (Elt Ideal))

/-- Column d of group 0 at bin f: the basis entry (d, f) over 1025. Row-major position of (0, d, f) in [5, 64, 1025]
    is that of (d, f) in [320, 1025]. -/
theorem matOf_periodic (f : Fin 1025) (d : Fin 64) :
    matOf Bas Msk Den (ix2 f (⟨d.val, by have := d.isLt; omega⟩ : Fin 320))
      = Ideal.div (Bas (ix2 d f)) (Ideal.ofBits .f32 0x44802000#32) := by
  unfold matOf
  rw [truncf_apply]
  refine (transpose_ix2_apply _ transposes_S320x1025_S1025x320_1_0 f (⟨d.val, by have := d.isLt; omega⟩ : Fin 320)).trans ?_
  refine (shapeCast_apply _ shapeCasts_S5x64x1025_S320x1025 _ (ix3 (0 : Fin 5) d f) ?_).trans ?_
  · rw [Shape.rowMajor_val_three, Shape.rowMajor_val_two]
    show ((0 * 64 + d.val) * 1025 + f.val) = d.val * 1025 + f.val
    omega
  refine (concatenate_pair_apply_left (t := S5x64x1025) (s₁ := S1x64x1025) (s₂ := S4x64x1025) (0 : Fin 3) _ _ concatenates_S1x64x1025_S4x64x1025_S5x64x1025_d0
    (ix3 (0 : Fin 5) d f) rfl (ix3 (0 : Fin 1) d f) (fun b => match b with | ⟨0, _⟩ => rfl | ⟨1, _⟩ => rfl | ⟨2, _⟩ => rfl)).trans ?_
  refine (broadcastInDim_apply _ bcast_S64x1025_S1x64x1025_1_2 _ _ (ix2 d f)
    (fun a => match a with | ⟨0, _⟩ => rfl | ⟨1, _⟩ => rfl)).trans ?_
  rw [hostDivf_apply]
  refine congrArg (Ideal.div (Bas (ix2 d f))) ?_
  refine (broadcastInDim_apply _ bcast_S_S64x1025 _ _ ix0 (fun a => a.elim0)).trans ?_
  exact constant_apply _ _

/-- Column d of group s+1 at bin f: the basis entry (d, f) times mask s at f, over count s. Row-major position of
    (s+1, d, f) in [5, 64, 1025] is that of ((s+1)·64 + d, f) in [320, 1025]; the stack's coordinate s+1 falls in its
    second piece, at s. -/
theorem matOf_band (f : Fin 1025) (s : Fin 4) (d : Fin 64) :
    matOf Bas Msk Den (ix2 f (⟨(s.val + 1) * 64 + d.val, by have := d.isLt; have := s.isLt; omega⟩ : Fin 320))
      = Ideal.div (Bas (ix2 d f) * Msk (ix2 s f)) (Den (ix1 s)) := by
  unfold matOf
  rw [truncf_apply]
  refine (transpose_ix2_apply _ transposes_S320x1025_S1025x320_1_0 f
    (⟨(s.val + 1) * 64 + d.val, by have := d.isLt; have := s.isLt; omega⟩ : Fin 320)).trans ?_
  refine (shapeCast_apply _ shapeCasts_S5x64x1025_S320x1025 _
    (ix3 (⟨s.val + 1, by have := s.isLt; omega⟩ : Fin 5) d f) ?_).trans ?_
  · rw [Shape.rowMajor_val_three, Shape.rowMajor_val_two]
    show (((s.val + 1) * 64 + d.val) * 1025 + f.val) = ((s.val + 1) * 64 + d.val) * 1025 + f.val
    rfl
  refine (concatenate_pair_apply_right (t := S5x64x1025) (s₁ := S1x64x1025) (s₂ := S4x64x1025) (0 : Fin 3) _ _
    concatenates_S1x64x1025_S4x64x1025_S5x64x1025_d0
    (ix3 (⟨s.val + 1, by have := s.isLt; omega⟩ : Fin 5) d f) rfl rfl (ix3 s d f)
    (fun b => match b with | ⟨0, _⟩ => fun h => absurd rfl h | ⟨1, _⟩ => fun _ => rfl | ⟨2, _⟩ => fun _ => rfl) rfl).trans ?_
  rw [hostDivf_apply, mulf_apply]
  congr 1
  · congr 1
    · refine (broadcastInDim_apply _ bcast_S1x64x1025_S4x64x1025_0_1_2 _ _ (ix3 (0 : Fin 1) d f)
        (fun a => match a with | ⟨0, _⟩ => rfl | ⟨1, _⟩ => rfl | ⟨2, _⟩ => rfl)).trans ?_
      exact broadcastInDim_apply _ bcast_S64x1025_S1x64x1025_1_2 _ _ (ix2 d f)
        (fun a => match a with | ⟨0, _⟩ => rfl | ⟨1, _⟩ => rfl)
    · refine (broadcastInDim_apply _ bcast_S4x1x1025_S4x64x1025_0_1_2 _ _ (ix3 s (0 : Fin 1) f)
        (fun a => match a with | ⟨0, _⟩ => rfl | ⟨1, _⟩ => rfl | ⟨2, _⟩ => rfl)).trans ?_
      exact broadcastInDim_apply _ bcast_S4x1025_S4x1x1025_0_2 _ _ (ix2 s f)
        (fun a => match a with | ⟨0, _⟩ => rfl | ⟨1, _⟩ => rfl)
  · refine (broadcastInDim_apply _ bcast_S4x1x1_S4x64x1025_0_1_2 _ _ (ix3 s (0 : Fin 1) (0 : Fin 1))
      (fun a => match a with | ⟨0, _⟩ => rfl | ⟨1, _⟩ => rfl | ⟨2, _⟩ => rfl)).trans ?_
    exact broadcastInDim_apply _ bcast_S4_S4x1x1_0 _ _ (ix1 s)
      (fun a => match a with | ⟨0, _⟩ => rfl)

/-- The folded matrix as a function of the two grids: the periodic basis over 1025 joined with the four band-masked
    bases over their counts, laid out as [5·64, 1025] and transposed. -/
def mat (x6 : (⟨S1025, .f32⟩ : BufTy).Contents (Elt Ideal)) (x7 : (⟨S64, .f32⟩ : BufTy).Contents (Elt Ideal)) :
    (⟨S1025x320, .bf16⟩ : BufTy).Contents (Elt Ideal) :=
  matOf (Cert.ReferenceIdeal.ReadP.val_main_v52 (F := Ideal) x6 x7) (Cert.ReferenceIdeal.ReadP.val_main_v87 (F := Ideal) x6)
    (Cert.ReferenceIdeal.ReadP.val_main_v90 (F := Ideal) x6)

variable (m : (ℓ : Loc nD τ sig) → Buf (Elt Ideal) ℓ)

open Idealize.ShloMosaic.StableHlo in
set_option maxHeartbeats 4000000 in
/-- The basis the host lines before the region leave (their %21) is the reference's stage %52 of the two grids: the
    same operations in the same order. -/
theorem V_v21 (c : Dev nD) :
    V m c main_v21 = Cert.ReferenceIdeal.ReadP.val_main_v52 (F := Ideal) (m ((c : Thread nD τ).loc main_arg6)) (m ((c : Thread nD τ).loc main_arg7)) := by
  dsimp only [V, V0]
  simp only [hostOps0, List.flatten_cons, List.flatten_nil, List.append_nil]
  after_results_simp
  rfl

open Idealize.ShloMosaic.StableHlo in
set_option maxHeartbeats 4000000 in
/-- The four band masks (the host lines' %53) are the reference's stage %87 of the frequency grid. -/
theorem V_v53 (c : Dev nD) :
    V m c main_v53 = Cert.ReferenceIdeal.ReadP.val_main_v87 (F := Ideal) (m ((c : Thread nD τ).loc main_arg6)) := by
  dsimp only [V, V0]
  simp only [hostOps0, List.flatten_cons, List.flatten_nil, List.append_nil]
  after_results_simp
  rfl

open Idealize.ShloMosaic.StableHlo in
set_option maxHeartbeats 4000000 in
/-- The four bin counts, at least one each (the host lines' %56), are the reference's stage %90 of the frequency grid. -/
theorem V_v56 (c : Dev nD) :
    V m c main_v56 = Cert.ReferenceIdeal.ReadP.val_main_v90 (F := Ideal) (m ((c : Thread nD τ).loc main_arg6)) := by
  dsimp only [V, V0]
  simp only [hostOps0, List.flatten_cons, List.flatten_nil, List.append_nil]
  after_results_simp
  rfl

open Idealize.ShloMosaic.StableHlo in
set_option maxHeartbeats 4000000 in
/-- The region's third operand is `matOf` of the basis, the masks and the counts the earlier host lines left: the last
    fifteen operations, each result rewritten to its operation's value. -/
theorem V_v71_stages (c : Dev nD) :
    V m c main_v71 = matOf (V m c main_v21) (V m c main_v53) (V m c main_v56) := by
  dsimp only [V, V0]
  simp only [hostOps0, List.flatten_cons, List.flatten_nil, List.append_nil]
  after_results_simp
  rfl

/-- The region finds its third operand at `mat` of the two grid arguments. -/
theorem V_v71 (c : Dev nD) :
    V m c main_v71 = mat (m ((c : Thread nD τ).loc main_arg6)) (m ((c : Thread nD τ).loc main_arg7)) := by
  rw [V_v71_stages, V_v21, V_v53, V_v56]
  rfl

variable (x6 : (⟨S1025, .f32⟩ : BufTy).Contents (Elt Ideal)) (x7 : (⟨S64, .f32⟩ : BufTy).Contents (Elt Ideal))

/-- Group 0 (the periodic score's columns). -/
theorem mat_periodic (f : Fin 1025) (d : Fin 64) :
    mat x6 x7 (ix2 f (⟨d.val, by have := d.isLt; omega⟩ : Fin 320))
      = Ideal.div (Cert.ReferenceIdeal.ReadP.val_main_v52 (F := Ideal) x6 x7 (ix2 d f)) (Ideal.ofBits .f32 0x44802000#32) :=
  matOf_periodic _ _ _ f d

/-- Group s+1 (band s's columns). -/
theorem mat_band (f : Fin 1025) (s : Fin 4) (d : Fin 64) :
    mat x6 x7 (ix2 f (⟨(s.val + 1) * 64 + d.val, by have := d.isLt; have := s.isLt; omega⟩ : Fin 320))
      = Ideal.div (Cert.ReferenceIdeal.ReadP.val_main_v52 (F := Ideal) x6 x7 (ix2 d f) * Cert.ReferenceIdeal.ReadP.val_main_v87 (F := Ideal) x6 (ix2 s f))
          (Cert.ReferenceIdeal.ReadP.val_main_v90 (F := Ideal) x6 (ix1 s)) :=
  matOf_band _ _ _ f s d

end Cert.KernelIdeal.Mx

end
-- ==== Proof.KITail.lean ====
/-
  What the idealized kernel's program returns, read off the 93 host lines after its region. The region's result
  [16, 2048, 320] is regrouped as [16, 2048, 5, 64] and its five groups sliced out; these five score arrays and five
  arrays computed from the other arguments (the relu-normalised projection of `stpacc`, the two mask means, the two
  clipped scalars) are stacked along a new last axis; the second result is the stack's mean over that axis times
  (0.5 + 0.5 · is_sound); the last result is the distance grid, a function of `spacing_grid_hz` alone. The five arrays
  computed from the other arguments, the mean and the grid are the same host operations in the reference program, so
  they are named by the reference's stages and never opened.
-/
import proofs.«120933_j27814208209311_1_alg».proof.Proof.KIFrame
import proofs.«120933_j27814208209311_1_alg».proof.Proof.RefReadP

set_option maxRecDepth 16384

noncomputable section

namespace Cert.KernelIdeal.Tl

open Cert.KernelIdeal Cert.KernelIdeal.Gen Cert.KernelIdeal.Hs Cert.KernelIdeal.Fr
open Cert.ReferenceIdeal.ReadP
open Idealize.ShloMosaic Idealize.ShloMosaic.TcCoe Idealize.SL.Sem Idealize.ShloMosaic.StableHlo

variable {F : FTy → Type} [FloatOps F]

/-- Score group `g` of the region's result: regroup the 320 columns as 5 × 64, take group `g`, drop the unit axis. -/
def grp0 (O : (⟨S16x2048x320, .f32⟩ : BufTy).Contents (Elt F)) : (⟨S16x2048x64, .f32⟩ : BufTy).Contents (Elt F) :=
  shapeCast _ (extractStridedSlice S16x2048x1x64 ![0, 0, 0, 0] (shapeCast S16x2048x5x64 O shapeCasts_S16x2048x320_S16x2048x5x64) slices_S16x2048x5x64_S16x2048x1x64_0_0_0_0) shapeCasts_S16x2048x1x64_S16x2048x64
def grp1 (O : (⟨S16x2048x320, .f32⟩ : BufTy).Contents (Elt F)) : (⟨S16x2048x64, .f32⟩ : BufTy).Contents (Elt F) :=
  shapeCast _ (extractStridedSlice S16x2048x1x64 ![0, 0, 1, 0] (shapeCast S16x2048x5x64 O shapeCasts_S16x2048x320_S16x2048x5x64) slices_S16x2048x5x64_S16x2048x1x64_0_0_1_0) shapeCasts_S16x2048x1x64_S16x2048x64
def grp2 (O : (⟨S16x2048x320, .f32⟩ : BufTy).Contents (Elt F)) : (⟨S16x2048x64, .f32⟩ : BufTy).Contents (Elt F) :=
  shapeCast _ (extractStridedSlice S16x2048x1x64 ![0, 0, 2, 0] (shapeCast S16x2048x5x64 O shapeCasts_S16x2048x320_S16x2048x5x64) slices_S16x2048x5x64_S16x2048x1x64_0_0_2_0) shapeCasts_S16x2048x1x64_S16x2048x64
def grp3 (O : (⟨S16x2048x320, .f32⟩ : BufTy).Contents (Elt F)) : (⟨S16x2048x64, .f32⟩ : BufTy).Contents (Elt F) :=
  shapeCast _ (extractStridedSlice S16x2048x1x64 ![0, 0, 3, 0] (shapeCast S16x2048x5x64 O shapeCasts_S16x2048x320_S16x2048x5x64) slices_S16x2048x5x64_S16x2048x1x64_0_0_3_0) shapeCasts_S16x2048x1x64_S16x2048x64
def grp4 (O : (⟨S16x2048x320, .f32⟩ : BufTy).Contents (Elt F)) : (⟨S16x2048x64, .f32⟩ : BufTy).Contents (Elt F) :=
  shapeCast _ (extractStridedSlice S16x2048x1x64 ![0, 0, 4, 0] (shapeCast S16x2048x5x64 O shapeCasts_S16x2048x320_S16x2048x5x64) slices_S16x2048x5x64_S16x2048x1x64_0_0_4_0) shapeCasts_S16x2048x1x64_S16x2048x64

/-- The stack of the ten channels: five score arrays, then the five arrays of the other arguments. -/
def stack (P0 P1 P2 P3 P4 : (⟨S16x2048x64, .f32⟩ : BufTy).Contents (Elt F))
    (x2 x3 x4 : (⟨S16x2048x4, .f32⟩ : BufTy).Contents (Elt F)) (x5 : (⟨S16x1x2048x64, .f32⟩ : BufTy).Contents (Elt F)) :
    (⟨S16x2048x64x10, .f32⟩ : BufTy).Contents (Elt F) :=
  concatenate S16x2048x64x10 3
    [⟨S16x2048x64x1, broadcastInDim S16x2048x64x1 ![0, 1, 2] bcast_S16x2048x64_S16x2048x64x1_0_1_2 P0⟩,
     ⟨S16x2048x64x1, broadcastInDim S16x2048x64x1 ![0, 1, 2] bcast_S16x2048x64_S16x2048x64x1_0_1_2 P1⟩,
     ⟨S16x2048x64x1, broadcastInDim S16x2048x64x1 ![0, 1, 2] bcast_S16x2048x64_S16x2048x64x1_0_1_2 P2⟩,
     ⟨S16x2048x64x1, broadcastInDim S16x2048x64x1 ![0, 1, 2] bcast_S16x2048x64_S16x2048x64x1_0_1_2 P3⟩,
     ⟨S16x2048x64x1, broadcastInDim S16x2048x64x1 ![0, 1, 2] bcast_S16x2048x64_S16x2048x64x1_0_1_2 P4⟩,
     ⟨S16x2048x64x1, val_main_v141 (F := F) x5⟩, ⟨S16x2048x64x1, val_main_v142 (F := F) x3⟩,
     ⟨S16x2048x64x1, val_main_v143 (F := F) x4⟩, ⟨S16x2048x64x1, val_main_v144 (F := F) x2⟩,
     ⟨S16x2048x64x1, val_main_v145 (F := F) x2⟩]
    concatenates_S16x2048x64x1_S16x2048x64x1_S16x2048x64x1_S16x2048x64x1_S16x2048x64x1_S16x2048x64x1_S16x2048x64x1_S16x2048x64x1_S16x2048x64x1_S16x2048x64x1_S16x2048x64x10_d3

/-- The second result: the stack's mean over its last axis, times (0.5 + 0.5 · is_sound). -/
def logits (S : (⟨S16x2048x64x10, .f32⟩ : BufTy).Contents (Elt F)) (x2 : (⟨S16x2048x4, .f32⟩ : BufTy).Contents (Elt F)) :
    (⟨S16x2048x64, .f32⟩ : BufTy).Contents (Elt F) :=
  mulf (Host.divf (Host.reduceAdd S (val_main_cst_36 (F := F)) reducesTo_S16x2048x64x10_S16x2048x64_d3 h_S_) (val_main_v148 (F := F)))
    (val_main_v153 (F := F) x2)

/-- The reference's stack is `stack` of its own five score arrays. -/
theorem ref_stack (x0 : (⟨S16x1x2048x1025, .f32⟩ : BufTy).Contents (Elt F)) (x1 : (⟨S16x2x2048x1025, .f32⟩ : BufTy).Contents (Elt F))
    (x2 x3 x4 : (⟨S16x2048x4, .f32⟩ : BufTy).Contents (Elt F)) (x5 : (⟨S16x1x2048x64, .f32⟩ : BufTy).Contents (Elt F))
    (x6 : (⟨S1025, .f32⟩ : BufTy).Contents (Elt F)) (x7 : (⟨S64, .f32⟩ : BufTy).Contents (Elt F)) :
    val_main_v146 (F := F) x0 x1 x2 x3 x4 x5 x6 x7
      = stack (val_main_v55 (F := F) x0 x1 x6 x7) (val_main_v102 (F := F) x0 x1 x6 x7) (val_main_v104 (F := F) x0 x1 x6 x7)
          (val_main_v106 (F := F) x0 x1 x6 x7) (val_main_v108 (F := F) x0 x1 x6 x7) x2 x3 x4 x5 := by
  unfold val_main_v146 val_main_v136 val_main_v137 val_main_v138 val_main_v139 val_main_v140 stack
  rfl

/-- The reference's second result is `logits` of its stack. -/
theorem ref_logits (x0 : (⟨S16x1x2048x1025, .f32⟩ : BufTy).Contents (Elt F)) (x1 : (⟨S16x2x2048x1025, .f32⟩ : BufTy).Contents (Elt F))
    (x2 x3 x4 : (⟨S16x2048x4, .f32⟩ : BufTy).Contents (Elt F)) (x5 : (⟨S16x1x2048x64, .f32⟩ : BufTy).Contents (Elt F))
    (x6 : (⟨S1025, .f32⟩ : BufTy).Contents (Elt F)) (x7 : (⟨S64, .f32⟩ : BufTy).Contents (Elt F)) :
    val_main_v154 (F := F) x0 x1 x2 x3 x4 x5 x6 x7 = logits (val_main_v146 (F := F) x0 x1 x2 x3 x4 x5 x6 x7) x2 := by
  unfold val_main_v154 val_main_v149 val_main_v147 logits
  rfl

variable (m : (ℓ : Loc nD τ sig) → Buf (Elt F) ℓ)

/-- The buffers as the later lines find them: the region's arrays at their final contents, the rest as the region
    was entered. -/
abbrev exitVal (c : Dev nD) : Valuation τ sig (Elt F) :=
  Pipeline.withArrays (cfgs (0 : Fin 1)).spec c (V0 m c) fun w => (dats m 0 c).arrAt w (cfgs (0 : Fin 1)).N

theorem exit_out (c : Dev nD) : exitVal m c (Proc.devRef .tc main_v72) = (dats m 0 c).arrAt 3 cfg0.N :=
  Pipeline.withArrays_arr spec0 launch0.win.arr_inj c _ _ 3

theorem exit_arg2 (c : Dev nD) : exitVal m c (Proc.devRef .tc main_arg2) = m ((c : Thread nD τ).loc main_arg2) :=
  (Pipeline.withArrays_of_ne _ c (V0 m c) _ main_arg2 (by decide)).trans (V_main_arg2 m c)
theorem exit_arg3 (c : Dev nD) : exitVal m c (Proc.devRef .tc main_arg3) = m ((c : Thread nD τ).loc main_arg3) :=
  (Pipeline.withArrays_of_ne _ c (V0 m c) _ main_arg3 (by decide)).trans (V_main_arg3 m c)
theorem exit_arg4 (c : Dev nD) : exitVal m c (Proc.devRef .tc main_arg4) = m ((c : Thread nD τ).loc main_arg4) :=
  (Pipeline.withArrays_of_ne _ c (V0 m c) _ main_arg4 (by decide)).trans (V_main_arg4 m c)
theorem exit_arg5 (c : Dev nD) : exitVal m c (Proc.devRef .tc main_arg5) = m ((c : Thread nD τ).loc main_arg5) :=
  (Pipeline.withArrays_of_ne _ c (V0 m c) _ main_arg5 (by decide)).trans (V_main_arg5 m c)
theorem exit_arg7 (c : Dev nD) : exitVal m c (Proc.devRef .tc main_arg7) = m ((c : Thread nD τ).loc main_arg7) :=
  (Pipeline.withArrays_of_ne _ c (V0 m c) _ main_arg7 (by decide)).trans (V_main_arg7 m c)

set_option maxHeartbeats 8000000 in
/-- The first result: the stack of the region's five score groups and the five arrays of the other arguments. -/
theorem res_stack (c : Dev nD) :
    Pipeline.afterTail₀ cfgs (dats m) 0 (V0 m) tailOps c main_v121
      = stack (grp0 ((dats m 0 c).arrAt 3 cfg0.N)) (grp1 ((dats m 0 c).arrAt 3 cfg0.N)) (grp2 ((dats m 0 c).arrAt 3 cfg0.N))
          (grp3 ((dats m 0 c).arrAt 3 cfg0.N)) (grp4 ((dats m 0 c).arrAt 3 cfg0.N))
          (m ((c : Thread nD τ).loc main_arg2)) (m ((c : Thread nD τ).loc main_arg3)) (m ((c : Thread nD τ).loc main_arg4))
          (m ((c : Thread nD τ).loc main_arg5)) := by
  unfold Pipeline.afterTail₀
  show StableHlo.after (tailOps (F := F)).flatten (exitVal m c) (Proc.devRef .tc main_v121) = _
  rw [← exit_out m c, ← exit_arg2 m c, ← exit_arg3 m c, ← exit_arg4 m c, ← exit_arg5 m c]
  generalize exitVal m c = W
  simp only [tailOps, hostOps1, hostOps1_1, hostOps1_2, hostOps1_3, hostOps1_4, hostOps1_5, hostOps1_6,
    List.flatten_cons, List.flatten_nil, List.append_nil, List.cons_append, List.nil_append]
  after_results_simp
  rfl

set_option maxHeartbeats 8000000 in
/-- The second result: the mean of that stack, scaled. -/
theorem res_logits (c : Dev nD) :
    Pipeline.afterTail₀ cfgs (dats m) 0 (V0 m) tailOps c main_v129
      = logits (Pipeline.afterTail₀ cfgs (dats m) 0 (V0 m) tailOps c main_v121) (m ((c : Thread nD τ).loc main_arg2)) := by
  unfold Pipeline.afterTail₀
  show StableHlo.after (tailOps (F := F)).flatten (exitVal m c) (Proc.devRef .tc main_v129)
    = logits (StableHlo.after (tailOps (F := F)).flatten (exitVal m c) (Proc.devRef .tc main_v121)) _
  rw [← exit_arg2 m c]
  generalize exitVal m c = W
  simp only [tailOps, hostOps1, hostOps1_1, hostOps1_2, hostOps1_3, hostOps1_4, hostOps1_5, hostOps1_6,
    List.flatten_cons, List.flatten_nil, List.append_nil, List.cons_append, List.nil_append]
  after_results_simp
  rfl

set_option maxHeartbeats 8000000 in
/-- The last result: the distance grid of `spacing_grid_hz`. -/
theorem res_grid (c : Dev nD) :
    Pipeline.afterTail₀ cfgs (dats m) 0 (V0 m) tailOps c main_v135 = val_main_v160 (F := F) (m ((c : Thread nD τ).loc main_arg7)) := by
  unfold Pipeline.afterTail₀
  show StableHlo.after (tailOps (F := F)).flatten (exitVal m c) (Proc.devRef .tc main_v135) = _
  rw [← exit_arg7 m c]
  generalize exitVal m c = W
  simp only [tailOps, hostOps1, hostOps1_1, hostOps1_2, hostOps1_3, hostOps1_4, hostOps1_5, hostOps1_6,
    List.flatten_cons, List.flatten_nil, List.append_nil, List.cons_append, List.nil_append]
  after_results_simp
  rfl

end Cert.KernelIdeal.Tl

end
-- ==== Proof.RefTrough.lean ====
/-
  The reference's normalised trough (its value %30, a [16, 2048, 1025] array) read at batch `b`, frame `t`, bin `f`:
  the row function of the specification applied to row (b, t) of `phase` and of the two channels of `comb`.
-/
import proofs.«120933_j27814208209311_1_alg».proof.Proof.RefReadP
import proofs.«120933_j27814208209311_1_alg».proof.Proof.Spec
import Idealize.ShloMosaic.Lib.ValueIdx
import Idealize.ShloMosaic.Lib.Pipeline.Value
import Idealize.ShloMosaic.PureOps.Ideal.Laws

noncomputable section

namespace Cert.ReferenceIdeal.Rd

open Cert.ReferenceIdeal Cert.ReferenceIdeal.Gen Cert.ReferenceIdeal.ReadP
open Idealize.ShloMosaic Idealize.ShloMosaic.ValueIdx

variable (x0 : (⟨S16x1x2048x1025, .f32⟩ : BufTy).Contents (Elt Ideal)) (x1 : (⟨S16x2x2048x1025, .f32⟩ : BufTy).Contents (Elt Ideal))

/-- The reshape of `phase` drops the unit axis: its element (b, t, f) is `phase` at (b, 0, t, f). -/
theorem phase_apply (b : Fin 16) (t : Fin 2048) (f : Fin 1025) :
    val_main_v0 (F := Ideal) x0 (ix3 b t f) = x0 (ix4 b (0 : Fin 1) t f) := by
  rw [val_main_v0_apply]
  refine congrArg x0 (funext fun a => Fin.ext ?_)
  have hb := b.isLt; have ht := t.isLt; have hf := f.isLt
  match a with
  | ⟨0, _⟩ => show ((b.val * 2048 + t.val) * 1025 + f.val) / 2099200 = b.val; omega
  | ⟨1, _⟩ => rfl
  | ⟨2, _⟩ => show ((b.val * 2048 + t.val) * 1025 + f.val) / 1025 % 2048 = t.val; omega
  | ⟨3, _⟩ => show ((b.val * 2048 + t.val) * 1025 + f.val) % 1025 = f.val; omega

/-- Channel 0 of `comb`, sliced and reshaped: element (b, t, f) is `comb` at (b, 0, t, f). -/
theorem comb0_apply (b : Fin 16) (t : Fin 2048) (f : Fin 1025) :
    val_main_v2 (F := Ideal) x1 (ix3 b t f) = x1 (ix4 b (0 : Fin 2) t f) := by
  rw [val_main_v2_apply, val_main_v1_apply]
  refine congrArg x1 (funext fun a => Fin.ext ?_)
  have hb := b.isLt; have ht := t.isLt; have hf := f.isLt
  match a with
  | ⟨0, _⟩ => show ((b.val * 2048 + t.val) * 1025 + f.val) / 2099200 = b.val; omega
  | ⟨1, _⟩ => rfl
  | ⟨2, _⟩ => show ((b.val * 2048 + t.val) * 1025 + f.val) / 1025 % 2048 = t.val; omega
  | ⟨3, _⟩ => show ((b.val * 2048 + t.val) * 1025 + f.val) % 1025 = f.val; omega

/-- Channel 1 of `comb`, sliced and reshaped: element (b, t, f) is `comb` at (b, 1, t, f). -/
theorem comb1_apply (b : Fin 16) (t : Fin 2048) (f : Fin 1025) :
    val_main_v4 (F := Ideal) x1 (ix3 b t f) = x1 (ix4 b (1 : Fin 2) t f) := by
  rw [val_main_v4_apply, val_main_v3_apply]
  refine congrArg x1 (funext fun a => Fin.ext ?_)
  have hb := b.isLt; have ht := t.isLt; have hf := f.isLt
  match a with
  | ⟨0, _⟩ => show ((b.val * 2048 + t.val) * 1025 + f.val) / 2099200 = b.val; omega
  | ⟨1, _⟩ => rfl
  | ⟨2, _⟩ => show ((b.val * 2048 + t.val) * 1025 + f.val) / 1025 % 2048 = t.val; omega
  | ⟨3, _⟩ => show ((b.val * 2048 + t.val) * 1025 + f.val) % 1025 = f.val; omega

/-- The mean of row (b, t) of `phase` over its 1025 bins, broadcast back over the bins: the sum starts from the zero
    word, so it is the plain sum, divided by the word of 1025. -/
theorem mean_apply (b : Fin 16) (t : Fin 2048) (f : Fin 1025) :
    val_main_v10 (F := Ideal) x0 (ix3 b t f)
      = Ideal.div (∑ k : Fin 1025, x0 (ix4 b (0 : Fin 1) t k)) (Ideal.ofBits .f32 0x44802000#32) := by
  rw [val_main_v10_apply, val_main_v9_apply, val_main_v7_apply, val_main_v6_apply, val_main_v8_apply,
    val_main_cst_0_apply, val_main_cst_apply]
  simp only [Ideal.hostDivf_def, Ideal.ofBits_def, Ideal.ofBits_zero_f32, zero_add]
  refine congrArg (fun s => Ideal.div s _) (Finset.sum_congr rfl fun k _ => ?_)
  exact (congrArg (val_main_v0 (F := Ideal) x0) (funext fun a => Fin.ext (by
    match a with | ⟨0, _⟩ => rfl | ⟨1, _⟩ => rfl | ⟨2, _⟩ => rfl))).trans (phase_apply x0 b t k)

/-- The un-normalised trough (%22) at (b, t, f): the part of the row below its mean, times one plus the comb strength. -/
theorem troughU_apply (b : Fin 16) (t : Fin 2048) (f : Fin 1025) :
    val_main_v22 (F := Ideal) x0 x1 (ix3 b t f)
      = Cert.Spec.troughU (fun k => x0 (ix4 b (0 : Fin 1) t k)) (fun k => x1 (ix4 b (0 : Fin 2) t k))
          (fun k => x1 (ix4 b (1 : Fin 2) t k)) f := by
  rw [val_main_v22_apply, val_main_v13_apply, val_main_v12_apply, val_main_v11_apply, mean_apply x0 b t f,
    phase_apply x0 b t f, val_main_call0_v0_apply, val_main_call0_cst_apply,
    val_main_v21_apply, val_main_v20_apply, val_main_cst_2_apply, val_main_v19_apply,
    val_main_v14_apply, val_main_v5_apply, comb1_apply x1 b t f, val_main_call1_v0_apply, val_main_call1_cst_apply,
    val_main_v18_apply, val_main_v17_apply, val_main_cst_1_apply,
    val_main_v16_apply, val_main_v15_apply, comb0_apply x1 b t f, val_main_call2_v0_apply, val_main_call2_cst_apply]
  simp only [Ideal.ofBits_def, Ideal.ofBits_zero_f32]
  rfl

/-- The row's normaliser (%28) at (b, t, 0): the mean of the un-normalised trough over the bins, floored at the word of 1e-6. -/
theorem troughN_apply (b : Fin 16) (t : Fin 2048) :
    val_main_v28 (F := Ideal) x0 x1 (ix3 b t (0 : Fin 1))
      = Cert.Spec.troughN (fun k => x0 (ix4 b (0 : Fin 1) t k)) (fun k => x1 (ix4 b (0 : Fin 2) t k))
          (fun k => x1 (ix4 b (1 : Fin 2) t k)) := by
  rw [val_main_v28_apply, val_main_v26_apply, val_main_v24_apply, val_main_v23_apply, val_main_v25_apply,
    val_main_cst_4_apply, val_main_v27_apply, val_main_cst_5_apply, val_main_cst_3_apply]
  simp only [Ideal.hostDivf_def, Ideal.maximumf_def, Ideal.ofBits_def, Ideal.ofBits_zero_f32, zero_add]
  unfold Cert.Spec.troughN
  refine congrArg (fun s => max (Ideal.div s _) _) (Finset.sum_congr rfl fun k _ => ?_)
  exact (congrArg (val_main_v22 (F := Ideal) x0 x1) (funext fun a => Fin.ext (by
    match a with | ⟨0, _⟩ => rfl | ⟨1, _⟩ => rfl | ⟨2, _⟩ => rfl))).trans (troughU_apply x0 x1 b t k)

/-- The reference's trough at (b, t, f). -/
theorem trough_apply (x0 : (⟨S16x1x2048x1025, .f32⟩ : BufTy).Contents (Elt Ideal)) (x1 : (⟨S16x2x2048x1025, .f32⟩ : BufTy).Contents (Elt Ideal))
    (b : Fin 16) (t : Fin 2048) (f : Fin 1025) :
    val_main_v30 (F := Ideal) x0 x1 (ix3 b t f)
      = Cert.Spec.trough (fun k => x0 (ix4 b (0 : Fin 1) t k)) (fun k => x1 (ix4 b (0 : Fin 2) t k)) (fun k => x1 (ix4 b (1 : Fin 2) t k)) f := by
  have h29 : idx_main_v29 (ix3 b t f) = ix3 b t (0 : Fin 1) := funext fun a => Fin.ext (by
    match a with | ⟨0, _⟩ => rfl | ⟨1, _⟩ => rfl | ⟨2, _⟩ => rfl)
  rw [val_main_v30_apply, val_main_v29_apply, h29, troughU_apply x0 x1 b t f, troughN_apply x0 x1 b t]
  rfl

end Cert.ReferenceIdeal.Rd

end
-- ==== Proof.RefScores.lean ====
/-
  The reference's five score arrays, each [16, 2048, 64], read at batch `b`, frame `t`, candidate `d`: the periodic
  score is the sum over the bins of trough times basis, divided by 1025; band `s`'s score is the sum of (basis times
  band mask) times trough, divided by the band's bin count. The trough, the basis (%52), the masks (%87) and the counts
  (%90) are left as the reference's own stages.
-/
import proofs.«120933_j27814208209311_1_alg».proof.Proof.RefReadP
import proofs.«120933_j27814208209311_1_alg».proof.Proof.Consts
import Idealize.ShloMosaic.Lib.ValueIdx
import Idealize.ShloMosaic.Lib.Pipeline.Value
import Idealize.ShloMosaic.PureOps.Ideal.Laws

noncomputable section

namespace Cert.ReferenceIdeal.Sc

open Cert.ReferenceIdeal Cert.ReferenceIdeal.Gen Cert.ReferenceIdeal.ReadP
open Idealize.ShloMosaic Idealize.ShloMosaic.ValueIdx

variable (x0 : (⟨S16x1x2048x1025, .f32⟩ : BufTy).Contents (Elt Ideal)) (x1 : (⟨S16x2x2048x1025, .f32⟩ : BufTy).Contents (Elt Ideal))
  (x6 : (⟨S1025, .f32⟩ : BufTy).Contents (Elt Ideal)) (x7 : (⟨S64, .f32⟩ : BufTy).Contents (Elt Ideal))

/-- The periodic score (%55): the contraction of the trough with the basis over the bins, divided by the word of 1025. -/
theorem periodic_apply (b : Fin 16) (t : Fin 2048) (d : Fin 64) :
    val_main_v55 (F := Ideal) x0 x1 x6 x7 (ix3 b t d)
      = Ideal.div (∑ f : Fin 1025, val_main_v30 (F := Ideal) x0 x1 (ix3 b t f) * val_main_v52 (F := Ideal) x6 x7 (ix2 d f))
          (Ideal.ofBits .f32 0x44802000#32) := by
  rw [val_main_v55_apply, val_main_v53_apply, val_main_v54_apply, val_main_cst_13_apply]
  simp only [Ideal.hostDivf_def, Ideal.ofBits_def]
  refine congrArg (fun z => Ideal.div z _) (Finset.sum_congr rfl fun f _ => ?_)
  have hl : lidx_main_v53 (ix3 b t d) f = ix3 b t f := funext fun a => Fin.ext (by
    match a with | ⟨0, _⟩ => rfl | ⟨1, _⟩ => rfl | ⟨2, _⟩ => rfl)
  have hr : ridx_main_v53 (ix3 b t d) f = ix2 d f := funext fun a => Fin.ext (by
    match a with | ⟨0, _⟩ => rfl | ⟨1, _⟩ => rfl)
  rw [hl, hr]

/-- The quotient of the band product (%100, [16, 4, 2048, 64]) at (b, s, t, d): the transpose moves (s, d, b, t) to
    (b, s, t, d); the left factor of the contraction is basis times mask, both broadcast; the divisor is the band's count. -/
theorem bands_apply (b : Fin 16) (s : Fin 4) (t : Fin 2048) (d : Fin 64) :
    val_main_v100 (F := Ideal) x0 x1 x6 x7 (ix4 b s t d)
      = Ideal.div (∑ f : Fin 1025, (val_main_v52 (F := Ideal) x6 x7 (ix2 d f) * val_main_v87 (F := Ideal) x6 (ix2 s f))
            * val_main_v30 (F := Ideal) x0 x1 (ix3 b t f))
          (val_main_v90 (F := Ideal) x6 (ix1 s)) := by
  have h90 : idx_main_v98 (idx_main_v99 (ix4 b s t d)) = ix1 s := funext fun a => Fin.ext (by
    match a with | ⟨0, _⟩ => rfl)
  rw [val_main_v100_apply, val_main_v97_apply, val_main_v96_apply, val_main_v99_apply, val_main_v98_apply, h90]
  simp only [Ideal.hostDivf_def]
  refine congrArg (fun z => Ideal.div z _) (Finset.sum_congr rfl fun f _ => ?_)
  have hl : lidx_main_v96 (idx_main_v97 (ix4 b s t d)) f = ix3 s d f := funext fun a => Fin.ext (by
    match a with | ⟨0, _⟩ => rfl | ⟨1, _⟩ => rfl | ⟨2, _⟩ => rfl)
  have hr : ridx_main_v96 (idx_main_v97 (ix4 b s t d)) f = ix3 b t f := funext fun a => Fin.ext (by
    match a with | ⟨0, _⟩ => rfl | ⟨1, _⟩ => rfl | ⟨2, _⟩ => rfl)
  have h52 : idx_main_v91 (idx_main_v93 (ix3 s d f)) = ix2 d f := funext fun a => Fin.ext (by
    match a with | ⟨0, _⟩ => rfl | ⟨1, _⟩ => rfl)
  have h87 : idx_main_v92 (idx_main_v94 (ix3 s d f)) = ix2 s f := funext fun a => Fin.ext (by
    match a with | ⟨0, _⟩ => rfl | ⟨1, _⟩ => rfl)
  rw [hl, hr, val_main_v95_apply, val_main_v93_apply, val_main_v91_apply, h52, val_main_v94_apply, val_main_v92_apply, h87]
  rfl

/-- Band 0's score (%102) is slice 0 of %100. -/
theorem band0_apply (b : Fin 16) (t : Fin 2048) (d : Fin 64) :
    val_main_v102 (F := Ideal) x0 x1 x6 x7 (ix3 b t d) = val_main_v100 (F := Ideal) x0 x1 x6 x7 (ix4 b (0 : Fin 4) t d) := by
  rw [val_main_v102_apply, val_main_v101_apply]
  refine congrArg (val_main_v100 (F := Ideal) x0 x1 x6 x7) (funext fun a => Fin.ext ?_)
  have hb := b.isLt; have ht := t.isLt; have hd := d.isLt
  match a with
  | ⟨0, _⟩ => show ((b.val * 2048 + t.val) * 64 + d.val) / 131072 = b.val; omega
  | ⟨1, _⟩ => rfl
  | ⟨2, _⟩ => show ((b.val * 2048 + t.val) * 64 + d.val) / 64 % 2048 = t.val; omega
  | ⟨3, _⟩ => show ((b.val * 2048 + t.val) * 64 + d.val) % 64 = d.val; omega
theorem band1_apply (b : Fin 16) (t : Fin 2048) (d : Fin 64) :
    val_main_v104 (F := Ideal) x0 x1 x6 x7 (ix3 b t d) = val_main_v100 (F := Ideal) x0 x1 x6 x7 (ix4 b (1 : Fin 4) t d) := by
  rw [val_main_v104_apply, val_main_v103_apply]
  refine congrArg (val_main_v100 (F := Ideal) x0 x1 x6 x7) (funext fun a => Fin.ext ?_)
  have hb := b.isLt; have ht := t.isLt; have hd := d.isLt
  match a with
  | ⟨0, _⟩ => show ((b.val * 2048 + t.val) * 64 + d.val) / 131072 = b.val; omega
  | ⟨1, _⟩ => rfl
  | ⟨2, _⟩ => show ((b.val * 2048 + t.val) * 64 + d.val) / 64 % 2048 = t.val; omega
  | ⟨3, _⟩ => show ((b.val * 2048 + t.val) * 64 + d.val) % 64 = d.val; omega
theorem band2_apply (b : Fin 16) (t : Fin 2048) (d : Fin 64) :
    val_main_v106 (F := Ideal) x0 x1 x6 x7 (ix3 b t d) = val_main_v100 (F := Ideal) x0 x1 x6 x7 (ix4 b (2 : Fin 4) t d) := by
  rw [val_main_v106_apply, val_main_v105_apply]
  refine congrArg (val_main_v100 (F := Ideal) x0 x1 x6 x7) (funext fun a => Fin.ext ?_)
  have hb := b.isLt; have ht := t.isLt; have hd := d.isLt
  match a with
  | ⟨0, _⟩ => show ((b.val * 2048 + t.val) * 64 + d.val) / 131072 = b.val; omega
  | ⟨1, _⟩ => rfl
  | ⟨2, _⟩ => show ((b.val * 2048 + t.val) * 64 + d.val) / 64 % 2048 = t.val; omega
  | ⟨3, _⟩ => show ((b.val * 2048 + t.val) * 64 + d.val) % 64 = d.val; omega
theorem band3_apply (b : Fin 16) (t : Fin 2048) (d : Fin 64) :
    val_main_v108 (F := Ideal) x0 x1 x6 x7 (ix3 b t d) = val_main_v100 (F := Ideal) x0 x1 x6 x7 (ix4 b (3 : Fin 4) t d) := by
  rw [val_main_v108_apply, val_main_v107_apply]
  refine congrArg (val_main_v100 (F := Ideal) x0 x1 x6 x7) (funext fun a => Fin.ext ?_)
  have hb := b.isLt; have ht := t.isLt; have hd := d.isLt
  match a with
  | ⟨0, _⟩ => show ((b.val * 2048 + t.val) * 64 + d.val) / 131072 = b.val; omega
  | ⟨1, _⟩ => rfl
  | ⟨2, _⟩ => show ((b.val * 2048 + t.val) * 64 + d.val) / 64 % 2048 = t.val; omega
  | ⟨3, _⟩ => show ((b.val * 2048 + t.val) * 64 + d.val) % 64 = d.val; omega

/-- A band's bin count, floored at 1, is positive. -/
theorem count_pos (s : Fin 4) : 0 < val_main_v90 (F := Ideal) x6 (ix1 s) := by
  rw [val_main_v90_apply, val_main_v89_apply, val_main_cst_24_apply]
  simp only [Ideal.maximumf_def, Ideal.ofBits_def]
  exact lt_max_of_lt_right Cert.Consts.pos_one

end Cert.ReferenceIdeal.Sc

end
-- ==== Proof.Bridge.lean ====
/-
  The one place the two programs differ. The kernel multiplies each row's trough into a matrix whose columns were
  divided beforehand — the periodic basis by 1025, each band-masked basis by the band's bin count — while the reference
  divides the finished sums. Both divisors are positive (1025; a count floored at 1), and on the extended reals a
  positive divisor comes out of a finite sum whatever the summands are, so each of the five score groups the kernel's
  result array holds is, entry by entry, the reference's score array.
-/
import proofs.«120933_j27814208209311_1_alg».proof.Proof.KIFinal
import proofs.«120933_j27814208209311_1_alg».proof.Proof.KIMatrix
import proofs.«120933_j27814208209311_1_alg».proof.Proof.KITail
import proofs.«120933_j27814208209311_1_alg».proof.Proof.RefTrough
import proofs.«120933_j27814208209311_1_alg».proof.Proof.RefScores
import proofs.«120933_j27814208209311_1_alg».proof.Proof.Spec

set_option maxRecDepth 16384

noncomputable section

namespace Cert.Bridge

open Cert.KernelIdeal Cert.KernelIdeal.Gen Cert.KernelIdeal.Fn Cert.KernelIdeal.Mx Cert.KernelIdeal.Tl
open Cert.ReferenceIdeal.ReadP
open Idealize.ShloMosaic Idealize.ShloMosaic.ValueIdx

/-- Regrouping the 320 columns of a [16, 2048, 320] array as 5 × 64, slicing out group `g` and dropping the unit axis,
    read at (b, t, d), is the array's entry (b, t, g·64 + d): the regrouping keeps row-major order and the slice moves
    the group coordinate. -/
theorem grp_read (g : Fin 5) (hs : S16x2048x5x64.Slices ![0, 0, g.val, 0] S16x2048x1x64)
    (O : (⟨S16x2048x320, .f32⟩ : BufTy).Contents (Elt Ideal)) (b : Fin 16) (t : Fin 2048) (d : Fin 64) :
    (shapeCast S16x2048x64 (extractStridedSlice S16x2048x1x64 ![0, 0, g.val, 0] (shapeCast S16x2048x5x64 O shapeCasts_S16x2048x320_S16x2048x5x64) hs)
        shapeCasts_S16x2048x1x64_S16x2048x64 : (⟨S16x2048x64, .f32⟩ : BufTy).Contents (Elt Ideal)) (ix3 b t d)
      = O (ix3 b t (⟨g.val * 64 + d.val, by have := d.isLt; have := g.isLt; omega⟩ : Fin 320)) := by
  have hb := b.isLt; have ht := t.isLt; have hd := d.isLt; have hg := g.isLt
  refine (shapeCast_apply _ shapeCasts_S16x2048x1x64_S16x2048x64 (ix3 b t d) (ix4 b t (0 : Fin 1) d) (by
    rw [Shape.rowMajor_val_four, Shape.rowMajor_val_three]
    show ((b.val * 2048 + t.val) * 1 + 0) * 64 + d.val = (b.val * 2048 + t.val) * 64 + d.val; omega)).trans ?_
  refine (extractStridedSlice_apply ![0, 0, g.val, 0] _ hs (ix4 b t (0 : Fin 1) d) (ix4 b t g d) (fun a => by
    match a with
    | ⟨0, _⟩ => show b.val = 0 + b.val; omega
    | ⟨1, _⟩ => show t.val = 0 + t.val; omega
    | ⟨2, _⟩ => show g.val = g.val + 0; omega
    | ⟨3, _⟩ => show d.val = 0 + d.val; omega)).trans ?_
  exact shapeCast_apply O shapeCasts_S16x2048x320_S16x2048x5x64 (ix4 b t g d) (ix3 b t ⟨g.val * 64 + d.val, by omega⟩) (by
    rw [Shape.rowMajor_val_three, Shape.rowMajor_val_four]
    show (b.val * 2048 + t.val) * 320 + (g.val * 64 + d.val) = ((b.val * 2048 + t.val) * 5 + g.val) * 64 + d.val; omega)

/-- A row's trough against a periodic column of the folded matrix: the column was divided by 1025 beforehand, and the
    positive divisor comes out of the sum. -/
theorem periodic_core (T : Fin 1025 → EReal) (x6 : (⟨S1025, .f32⟩ : BufTy).Contents (Elt Ideal)) (x7 : (⟨S64, .f32⟩ : BufTy).Contents (Elt Ideal))
    (d : Fin 64) (n : Fin 320) (hn : n.val = d.val) :
    ∑ f : Fin 1025, T f * mat x6 x7 (ix2 f n)
      = Ideal.div (∑ f : Fin 1025, T f * val_main_v52 (F := Ideal) x6 x7 (ix2 d f)) (Ideal.ofBits .f32 0x44802000#32) := by
  have hlt : d.val < 320 := by have := d.isLt; omega
  have e : n = ⟨d.val, hlt⟩ := Fin.ext hn
  rw [e]
  simp only [mat_periodic]
  exact Cert.Spec.score_div T (fun f => val_main_v52 (F := Ideal) x6 x7 (ix2 d f)) Cert.Consts.pos_1025

/-- The same against band `s`'s column: divided beforehand by the band's bin count, which is at least 1. -/
theorem band_core (T : Fin 1025 → EReal) (x6 : (⟨S1025, .f32⟩ : BufTy).Contents (Elt Ideal)) (x7 : (⟨S64, .f32⟩ : BufTy).Contents (Elt Ideal))
    (s : Fin 4) (d : Fin 64) (n : Fin 320) (hn : n.val = (s.val + 1) * 64 + d.val) :
    ∑ f : Fin 1025, T f * mat x6 x7 (ix2 f n)
      = Ideal.div (∑ f : Fin 1025, (val_main_v52 (F := Ideal) x6 x7 (ix2 d f) * val_main_v87 (F := Ideal) x6 (ix2 s f)) * T f)
          (val_main_v90 (F := Ideal) x6 (ix1 s)) := by
  have hlt : (s.val + 1) * 64 + d.val < 320 := by have := d.isLt; have := s.isLt; omega
  have e : n = ⟨(s.val + 1) * 64 + d.val, hlt⟩ := Fin.ext hn
  rw [e]
  simp only [mat_band]
  exact Cert.Spec.score_div_comm T (fun f => val_main_v52 (F := Ideal) x6 x7 (ix2 d f) * val_main_v87 (F := Ideal) x6 (ix2 s f))
    (Cert.ReferenceIdeal.Sc.count_pos x6 s)

/-- Score group 0 of the kernel's result array is the reference's periodic score. -/
theorem grp0_eq (x0 : (⟨S16x1x2048x1025, .f32⟩ : BufTy).Contents (Elt Ideal)) (x1 : (⟨S16x2x2048x1025, .f32⟩ : BufTy).Contents (Elt Ideal))
    (x6 : (⟨S1025, .f32⟩ : BufTy).Contents (Elt Ideal)) (x7 : (⟨S64, .f32⟩ : BufTy).Contents (Elt Ideal)) :
    grp0 (scores x0 x1 (mat x6 x7)) = val_main_v55 (F := Ideal) x0 x1 x6 x7 := by
  funext i
  obtain ⟨b, t, d, rfl⟩ : ∃ (b : Fin 16) (t : Fin 2048) (d : Fin 64), i = ix3 b t d := ⟨i 0, i 1, i 2, eq_ix3 i⟩
  refine (grp_read (⟨0, by decide⟩ : Fin 5) slices_S16x2048x5x64_S16x2048x1x64_0_0_0_0 _ b t d).trans ?_
  rw [scores_apply]
  unfold scoreAt
  refine (periodic_core _ x6 x7 d _ (by show (0 : Nat) * 64 + d.val = d.val; omega)).trans ?_
  rw [Cert.ReferenceIdeal.Sc.periodic_apply]
  simp only [Cert.ReferenceIdeal.Rd.trough_apply]

/-- Score group 1 of the kernel's result array is the reference's band 0 score. -/
theorem grp1_eq (x0 : (⟨S16x1x2048x1025, .f32⟩ : BufTy).Contents (Elt Ideal)) (x1 : (⟨S16x2x2048x1025, .f32⟩ : BufTy).Contents (Elt Ideal))
    (x6 : (⟨S1025, .f32⟩ : BufTy).Contents (Elt Ideal)) (x7 : (⟨S64, .f32⟩ : BufTy).Contents (Elt Ideal)) :
    grp1 (scores x0 x1 (mat x6 x7)) = val_main_v102 (F := Ideal) x0 x1 x6 x7 := by
  funext i
  obtain ⟨b, t, d, rfl⟩ : ∃ (b : Fin 16) (t : Fin 2048) (d : Fin 64), i = ix3 b t d := ⟨i 0, i 1, i 2, eq_ix3 i⟩
  refine (grp_read (⟨1, by decide⟩ : Fin 5) slices_S16x2048x5x64_S16x2048x1x64_0_0_1_0 _ b t d).trans ?_
  rw [scores_apply]
  unfold scoreAt
  refine (band_core _ x6 x7 (0 : Fin 4) d _ rfl).trans ?_
  rw [Cert.ReferenceIdeal.Sc.band0_apply, Cert.ReferenceIdeal.Sc.bands_apply]
  simp only [Cert.ReferenceIdeal.Rd.trough_apply]

/-- Score group 2 of the kernel's result array is the reference's band 1 score. -/
theorem grp2_eq (x0 : (⟨S16x1x2048x1025, .f32⟩ : BufTy).Contents (Elt Ideal)) (x1 : (⟨S16x2x2048x1025, .f32⟩ : BufTy).Contents (Elt Ideal))
    (x6 : (⟨S1025, .f32⟩ : BufTy).Contents (Elt Ideal)) (x7 : (⟨S64, .f32⟩ : BufTy).Contents (Elt Ideal)) :
    grp2 (scores x0 x1 (mat x6 x7)) = val_main_v104 (F := Ideal) x0 x1 x6 x7 := by
  funext i
  obtain ⟨b, t, d, rfl⟩ : ∃ (b : Fin 16) (t : Fin 2048) (d : Fin 64), i = ix3 b t d := ⟨i 0, i 1, i 2, eq_ix3 i⟩
  refine (grp_read (⟨2, by decide⟩ : Fin 5) slices_S16x2048x5x64_S16x2048x1x64_0_0_2_0 _ b t d).trans ?_
  rw [scores_apply]
  unfold scoreAt
  refine (band_core _ x6 x7 (1 : Fin 4) d _ rfl).trans ?_
  rw [Cert.ReferenceIdeal.Sc.band1_apply, Cert.ReferenceIdeal.Sc.bands_apply]
  simp only [Cert.ReferenceIdeal.Rd.trough_apply]

/-- Score group 3 of the kernel's result array is the reference's band 2 score. -/
theorem grp3_eq (x0 : (⟨S16x1x2048x1025, .f32⟩ : BufTy).Contents (Elt Ideal)) (x1 : (⟨S16x2x2048x1025, .f32⟩ : BufTy).Contents (Elt Ideal))
    (x6 : (⟨S1025, .f32⟩ : BufTy).Contents (Elt Ideal)) (x7 : (⟨S64, .f32⟩ : BufTy).Contents (Elt Ideal)) :
    grp3 (scores x0 x1 (mat x6 x7)) = val_main_v106 (F := Ideal) x0 x1 x6 x7 := by
  funext i
  obtain ⟨b, t, d, rfl⟩ : ∃ (b : Fin 16) (t : Fin 2048) (d : Fin 64), i = ix3 b t d := ⟨i 0, i 1, i 2, eq_ix3 i⟩
  refine (grp_read (⟨3, by decide⟩ : Fin 5) slices_S16x2048x5x64_S16x2048x1x64_0_0_3_0 _ b t d).trans ?_
  rw [scores_apply]
  unfold scoreAt
  refine (band_core _ x6 x7 (2 : Fin 4) d _ rfl).trans ?_
  rw [Cert.ReferenceIdeal.Sc.band2_apply, Cert.ReferenceIdeal.Sc.bands_apply]
  simp only [Cert.ReferenceIdeal.Rd.trough_apply]

/-- Score group 4 of the kernel's result array is the reference's band 3 score. -/
theorem grp4_eq (x0 : (⟨S16x1x2048x1025, .f32⟩ : BufTy).Contents (Elt Ideal)) (x1 : (⟨S16x2x2048x1025, .f32⟩ : BufTy).Contents (Elt Ideal))
    (x6 : (⟨S1025, .f32⟩ : BufTy).Contents (Elt Ideal)) (x7 : (⟨S64, .f32⟩ : BufTy).Contents (Elt Ideal)) :
    grp4 (scores x0 x1 (mat x6 x7)) = val_main_v108 (F := Ideal) x0 x1 x6 x7 := by
  funext i
  obtain ⟨b, t, d, rfl⟩ : ∃ (b : Fin 16) (t : Fin 2048) (d : Fin 64), i = ix3 b t d := ⟨i 0, i 1, i 2, eq_ix3 i⟩
  refine (grp_read (⟨4, by decide⟩ : Fin 5) slices_S16x2048x5x64_S16x2048x1x64_0_0_4_0 _ b t d).trans ?_
  rw [scores_apply]
  unfold scoreAt
  refine (band_core _ x6 x7 (3 : Fin 4) d _ rfl).trans ?_
  rw [Cert.ReferenceIdeal.Sc.band3_apply, Cert.ReferenceIdeal.Sc.bands_apply]
  simp only [Cert.ReferenceIdeal.Rd.trough_apply]

end Cert.Bridge

end
-- ==== Proof.Value.lean ====
/-
  The idealized kernel's four results as the reference's stages of the kernel's own arguments: the stack of ten channels,
  its scaled mean, and the distance grid. The stack is the reference's because each of its five score channels is
  (the bridge) and the other five are the same host operations; the mean and the grid are the same operations of equal
  operands.
-/
import proofs.«120933_j27814208209311_1_alg».proof.Proof.Bridge

set_option maxRecDepth 16384

noncomputable section

namespace Cert.Value

open Cert.KernelIdeal Cert.KernelIdeal.Gen Cert.KernelIdeal.Hs Cert.KernelIdeal.Fr Cert.KernelIdeal.Fn Cert.KernelIdeal.Mx Cert.KernelIdeal.Tl
open Cert.ReferenceIdeal.ReadP
open Idealize.ShloMosaic Idealize.ShloMosaic.TcCoe Idealize.SL.Sem

variable (m : (ℓ : Loc nD τ sig) → Buf (Elt Ideal) ℓ)

/-- The first result is the reference's stack of the same arguments. -/
theorem kernel_stack (c : Dev nD) :
    Pipeline.afterTail₀ cfgs (dats m) 0 (V0 m) tailOps c main_v121
      = val_main_v146 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [res_stack, final, V_v71, Cert.Bridge.grp0_eq, Cert.Bridge.grp1_eq, Cert.Bridge.grp2_eq, Cert.Bridge.grp3_eq,
    Cert.Bridge.grp4_eq, ← ref_stack]

/-- The second result is the reference's scaled mean. -/
theorem kernel_logits (c : Dev nD) :
    Pipeline.afterTail₀ cfgs (dats m) 0 (V0 m) tailOps c main_v129
      = val_main_v154 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  rw [res_logits, kernel_stack, ← ref_logits]

/-- The last result is the reference's distance grid. -/
theorem kernel_grid (c : Dev nD) :
    Pipeline.afterTail₀ cfgs (dats m) 0 (V0 m) tailOps c main_v135
      = val_main_v160 (F := Ideal) (m ((c : Thread nD τ).loc main_arg7)) :=
  res_grid m c

end Cert.Value

end
-- ==== Proof.RefRunC.lean ====
/-
  The reference program's run, read stretch by stretch. @main is a straight line of 223 host operations; every weakly
  fair execution ends with each buffer at the fold of the operations' results over the launch contents. The fold is
  taken here in eleven stretches cut where the program's mathematics cuts: the normalised trough of every row, the
  periodic basis, the periodic score, the four band masks, their stack, the bands' bin counts, the four band scores, the
  five side channels, the ten channels given a last axis, their stack, and the channel mean with the gated mean and the
  periods. A stretch takes what the stretches before it left — the argument arrays at their contents, a few earlier
  buffers at their stages of the arguments — and leaves its own results at THEIR stages of the arguments; a buffer it
  does not write passes through. Chained, the eleven give the three results as the stages of the arguments and every
  argument array as launched. A stack (a concatenate) opens a stretch of its own, so that its operands are read from
  what the stretch before left.
-/
import proofs.«120933_j27814208209311_1_alg».proof.Proof.Gen.ReferenceIdeal
import Idealize.ShloMosaic.Lib.StableHlo.Run
import proofs.«120933_j27814208209311_1_alg».proof.Proof.RefReadP

noncomputable section

namespace Cert.ReferenceIdeal.ValueC

open Cert.ReferenceIdeal Cert.ReferenceIdeal.Gen Idealize.ShloMosaic Idealize.ShloMosaic.TcCoe Idealize.SL.Sem Idealize.ShloMosaic.StableHlo

variable {F : FTy → Type} [FloatOps F]

/-! ## Lines of operations, one after the other -/

/-- The contents after two lines run one after the other. -/
theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- An operation whose one result buffer is in the list `W` writes inside `W`. -/
theorem writes_in {W : List (Ref sig .tc)} {op : HloOp τ sig (Elt F)} (y : Ref sig .tc)
    (hw : op.writes = {Proc.devRef .tc y}) (hy : y ∈ W) :
    op.writes ⊆ (W.map (Proc.devRef (τ := τ) .tc)).toFinset := by
  rw [hw]
  exact Finset.singleton_subset_iff.mpr (List.mem_toFinset.mpr (List.mem_map_of_mem hy))

/-- An operation whose buffers are a set of TensorCore references touches TensorCore references only. -/
theorem bufs_sub_of {op : HloOp τ sig (Elt F)} {S : Finset (DevRef τ sig)} (h : op.bufs = S) (hS : S ⊆ tcRefs τ sig) :
    op.bufs ⊆ tcRefs τ sig := h ▸ hS

/-! ## The operations, cut in eleven stretches -/

/-- Operations 0–43 of @main: the normalised trough of every row. -/
abbrev opsA : List (HloOp τ sig (Elt F)) :=
  [ reshape main_arg0 main_v0 rfl shapeCasts_S16x1x2048x1025_S16x2048x1025,
    unary main_arg1 main_v1 ((extractStridedSlice S16x1x2048x1025 ![0, 0, 0, 0] · slices_S16x2x2048x1025_S16x1x2048x1025_0_0_0_0) : (⟨S16x2x2048x1025, .f32⟩ : BufTy).Contents (Elt F) → (⟨S16x1x2048x1025, .f32⟩ : BufTy).Contents (Elt F)),
    reshape main_v1 main_v2 rfl shapeCasts_S16x1x2048x1025_S16x2048x1025,
    unary main_arg1 main_v3 ((extractStridedSlice S16x1x2048x1025 ![0, 1, 0, 0] · slices_S16x2x2048x1025_S16x1x2048x1025_0_1_0_0) : (⟨S16x2x2048x1025, .f32⟩ : BufTy).Contents (Elt F) → (⟨S16x1x2048x1025, .f32⟩ : BufTy).Contents (Elt F)),
    reshape main_v3 main_v4 rfl shapeCasts_S16x1x2048x1025_S16x2048x1025,
    unary main_v4 main_v5 (Host.absf : (⟨S16x2048x1025, .f32⟩ : BufTy).Contents (Elt F) → (⟨S16x2048x1025, .f32⟩ : BufTy).Contents (Elt F)),
    nullary main_cst (constant S_ .f32 0x00000000#32),
    binary main_v0 main_cst main_v6 ((fun x v => Host.reduceAdd x v reducesTo_S16x2048x1025_S16x2048_d2 h_S_) : (⟨S16x2048x1025, .f32⟩ : BufTy).Contents (Elt F) → (⟨S_, .f32⟩ : BufTy).Contents (Elt F) → (⟨S16x2048, .f32⟩ : BufTy).Contents (Elt F)),
    unary main_v6 main_v7 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_0 (constant S_ .f32 0x44802000#32),
    unary main_cst_0 main_v8 (broadcastInDim S16x2048x1 ![] bcast_S_S16x2048x1 : (⟨S_, .f32⟩ : BufTy).Contents (Elt F) → (⟨S16x2048x1, .f32⟩ : BufTy).Contents (Elt F)),
    binary main_v7 main_v8 main_v9 (Host.divf : (⟨S16x2048x1, .f32⟩ : BufTy).Contents (Elt F) → (⟨S16x2048x1, .f32⟩ : BufTy).Contents (Elt F) → (⟨S16x2048x1, .f32⟩ : BufTy).Contents (Elt F)),
    unary main_v9 main_v10 (broadcastInDim S16x2048x1025 ![0, 1, 2] bcast_S16x2048x1_S16x2048x1025_0_1_2 : (⟨S16x2048x1, .f32⟩ : BufTy).Contents (Elt F) → (⟨S16x2048x1025, .f32⟩ : BufTy).Contents (Elt F)),
    binary main_v0 main_v10 main_v11 (subf : (⟨S16x2048x1025, .f32⟩ : BufTy).Contents (Elt F) → (⟨S16x2048x1025, .f32⟩ : BufTy).Contents (Elt F) → (⟨S16x2048x1025, .f32⟩ : BufTy).Contents (Elt F)),
    unary main_v11 main_v12 (Host.negf : (⟨S16x2048x1025, .f32⟩ : BufTy).Contents (Elt F) → (⟨S16x2048x1025, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S16x2048x1025, .f32⟩) main_call0_v0) (broadcastInDim S16x2048x1025 ![] bcast_S_S16x2048x1025),
    TRef.binary (TRef.of (T := ⟨S16x2048x1025, .f32⟩) main_v12) (TRef.of (T := ⟨S16x2048x1025, .f32⟩) main_call0_v0) (TRef.of (T := ⟨S16x2048x1025, .f32⟩) main_v13) maximumf,
    TRef.nullary (TRef.of (T := ⟨S_, .f32⟩) main_call1_cst) (constant S_ .f32 0x00000000#32),
    TRef.unary (TRef.of (T := ⟨S_, .f32⟩) main_call1_cst) (TRef.of (T := ⟨S16x2048x1025, .f32⟩) main_call1_v0) (broadcastInDim S16x2048x1025 ![] bcast_S_S16x2048x1025),
    TRef.binary (TRef.of (T := ⟨S16x2048x1025, .f32⟩) main_v5) (TRef.of (T := ⟨S16x2048x1025, .f32⟩) main_call1_v0) (TRef.of (T := ⟨S16x2048x1025, .f32⟩) main_v14) maximumf,
    unary main_v2 main_v15 (Host.absf : (⟨S16x2048x1025, .f32⟩ : BufTy).Contents (Elt F) → (⟨S16x2048x1025, .f32⟩ : BufTy).Contents (Elt F)),
    TRef.nullary (TRef.of (T := ⟨S_, .f32⟩) main_call2_cst) (constant S_ .f32 0x00000000#32),
    TRef.unary (TRef.of (T := ⟨S_, .f32⟩) main_call2_cst) (TRef.of (T := ⟨S16x2048x1025, .f32⟩) main_call2_v0) (broadcastInDim S16x2048x1025 ![] bcast_S_S16x2048x1025),
    TRef.binary (TRef.of (T := ⟨S16x2048x1025, .f32⟩) main_v15) (TRef.of (T := ⟨S16x2048x1025, .f32⟩) main_call2_v0) (TRef.of (T := ⟨S16x2048x1025, .f32⟩) main_v16) maximumf,
    nullary main_cst_1 (constant S_ .f32 0x3E800000#32),
    unary main_cst_1 main_v17 (broadcastInDim S16x2048x1025 ![] bcast_S_S16x2048x1025 : (⟨S_, .f32⟩ : BufTy).Contents (Elt F) → (⟨S16x2048x1025, .f32⟩ : BufTy).Contents (Elt F)),
    binary main_v17 main_v16 main_v18 (mulf : (⟨S16x2048x1025, .f32⟩ : BufTy).Contents (Elt F) → (⟨S16x2048x1025, .f32⟩ : BufTy).Contents (Elt F) → (⟨S16x2048x1025, .f32⟩ : BufTy).Contents (Elt F)),
    binary main_v14 main_v18 main_v19 (addf : (⟨S16x2048x1025, .f32⟩ : BufTy).Contents (Elt F) → (⟨S16x2048x1025, .f32⟩ : BufTy).Contents (Elt F) → (⟨S16x2048x1025, .f32⟩ : BufTy).Contents (Elt F)),
    nullary main_cst_2 (constant S_ .f32 0x3F800000#32),
    unary main_cst_2 main_v20 (broadcastInDim S16x2048x1025 ![] bcast_S_S16x2048x1025 : (⟨S_, .f32⟩ : BufTy).Contents (Elt F) → (⟨S16x2048x1025, .f32⟩ : BufTy).Contents (Elt F)),
    binary main_v20 main_v19 main_v21 (addf : (⟨S16x2048x1025, .f32⟩ : BufTy).Contents (Elt F) → (⟨S16x2048x1025, .f32⟩ : BufTy).Contents (Elt F) → (⟨S16x2048x1025, .f32⟩ : BufTy).Contents (Elt F)),
    binary main_v13 main_v21 main_v22 (mulf : (⟨S16x2048x1025, .f32⟩ : BufTy).Contents (Elt F) → (⟨S16x2048x1025, .f32⟩ : BufTy).Contents (Elt F) → (⟨S16x2048x1025, .f32⟩ : BufTy).Contents (Elt F)),
    nullary main_cst_3 (constant S_ .f32 0x00000000#32),
    binary main_v22 main_cst_3 main_v23 ((fun x v => Host.reduceAdd x v reducesTo_S16x2048x1025_S16x2048_d2 h_S_) : (⟨S16x2048x1025, .f32⟩ : BufTy).Contents (Elt F) → (⟨S_, .f32⟩ : BufTy).Contents (Elt F) → (⟨S16x2048, .f32⟩ : BufTy).Contents (Elt F)),
    unary main_v23 main_v24 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_4 (constant S_ .f32 0x44802000#32),
    unary main_cst_4 main_v25 (broadcastInDim S16x2048x1 ![] bcast_S_S16x2048x1 : (⟨S_, .f32⟩ : BufTy).Contents (Elt F) → (⟨S16x2048x1, .f32⟩ : BufTy).Contents (Elt F)),
    binary main_v24 main_v25 main_v26 (Host.divf : (⟨S16x2048x1, .f32⟩ : BufTy).Contents (Elt F) → (⟨S16x2048x1, .f32⟩ : BufTy).Contents (Elt F) → (⟨S16x2048x1, .f32⟩ : BufTy).Contents (Elt F)),
    nullary main_cst_5 (constant S_ .f32 0x358637BD#32),
    unary main_cst_5 main_v27 (broadcastInDim S16x2048x1 ![] bcast_S_S16x2048x1 : (⟨S_, .f32⟩ : BufTy).Contents (Elt F) → (⟨S16x2048x1, .f32⟩ : BufTy).Contents (Elt F)),
    binary main_v26 main_v27 main_v28 (maximumf : (⟨S16x2048x1, .f32⟩ : BufTy).Contents (Elt F) → (⟨S16x2048x1, .f32⟩ : BufTy).Contents (Elt F) → (⟨S16x2048x1, .f32⟩ : BufTy).Contents (Elt F)),
    unary main_v28 main_v29 (broadcastInDim S16x2048x1025 ![0, 1, 2] bcast_S16x2048x1_S16x2048x1025_0_1_2 : (⟨S16x2048x1, .f32⟩ : BufTy).Contents (Elt F) → (⟨S16x2048x1025, .f32⟩ : BufTy).Contents (Elt F)),
    binary main_v22 main_v29 main_v30 (Host.divf : (⟨S16x2048x1025, .f32⟩ : BufTy).Contents (Elt F) → (⟨S16x2048x1025, .f32⟩ : BufTy).Contents (Elt F) → (⟨S16x2048x1025, .f32⟩ : BufTy).Contents (Elt F)) ]

/-- Operations 44–72 of @main: the periodic basis. -/
abbrev opsB : List (HloOp τ sig (Elt F)) :=
  [ unary main_arg6 main_v31 (broadcastInDim S1x1025 ![1] bcast_S1025_S1x1025_1 : (⟨S1025, .f32⟩ : BufTy).Contents (Elt F) → (⟨S1x1025, .f32⟩ : BufTy).Contents (Elt F)),
    unary main_arg7 main_v32 (broadcastInDim S64x1 ![0] bcast_S64_S64x1_0 : (⟨S64, .f32⟩ : BufTy).Contents (Elt F) → (⟨S64x1, .f32⟩ : BufTy).Contents (Elt F)),
    nullary main_cst_6 (constant S_ .f32 0x358637BD#32),
    unary main_cst_6 main_v33 (broadcastInDim S64x1 ![] bcast_S_S64x1 : (⟨S_, .f32⟩ : BufTy).Contents (Elt F) → (⟨S64x1, .f32⟩ : BufTy).Contents (Elt F)),
    binary main_v32 main_v33 main_v34 (maximumf : (⟨S64x1, .f32⟩ : BufTy).Contents (Elt F) → (⟨S64x1, .f32⟩ : BufTy).Contents (Elt F) → (⟨S64x1, .f32⟩ : BufTy).Contents (Elt F)),
    unary main_v31 main_v35 (broadcastInDim S64x1025 ![0, 1] bcast_S1x1025_S64x1025_0_1 : (⟨S1x1025, .f32⟩ : BufTy).Contents (Elt F) → (⟨S64x1025, .f32⟩ : BufTy).Contents (Elt F)),
    unary main_v34 main_v36 (broadcastInDim S64x1025 ![0, 1] bcast_S64x1_S64x1025_0_1 : (⟨S64x1, .f32⟩ : BufTy).Contents (Elt F) → (⟨S64x1025, .f32⟩ : BufTy).Contents (Elt F)),
    binary main_v35 main_v36 main_v37 (Host.divf : (⟨S64x1025, .f32⟩ : BufTy).Contents (Elt F) → (⟨S64x1025, .f32⟩ : BufTy).Contents (Elt F) → (⟨S64x1025, .f32⟩ : BufTy).Contents (Elt F)),
    nullary main_cst_7 (constant S_ .f32 0x40C90FDB#32),
    unary main_cst_7 main_v38 (broadcastInDim S64x1025 ![] bcast_S_S64x1025 : (⟨S_, .f32⟩ : BufTy).Contents (Elt F) → (⟨S64x1025, .f32⟩ : BufTy).Contents (Elt F)),
    binary main_v38 main_v37 main_v39 (mulf : (⟨S64x1025, .f32⟩ : BufTy).Contents (Elt F) → (⟨S64x1025, .f32⟩ : BufTy).Contents (Elt F) → (⟨S64x1025, .f32⟩ : BufTy).Contents (Elt F)),
    unary main_v39 main_v40 (Host.cos : (⟨S64x1025, .f32⟩ : BufTy).Contents (Elt F) → (⟨S64x1025, .f32⟩ : BufTy).Contents (Elt F)),
    nullary main_cst_8 (constant S_ .f32 0x3F800000#32),
    unary main_cst_8 main_v41 (broadcastInDim S64x1025 ![] bcast_S_S64x1025 : (⟨S_, .f32⟩ : BufTy).Contents (Elt F) → (⟨S64x1025, .f32⟩ : BufTy).Contents (Elt F)),
    binary main_v41 main_v40 main_v42 (addf : (⟨S64x1025, .f32⟩ : BufTy).Contents (Elt F) → (⟨S64x1025, .f32⟩ : BufTy).Contents (Elt F) → (⟨S64x1025, .f32⟩ : BufTy).Contents (Elt F)),
    nullary main_cst_9 (constant S_ .f32 0x3F000000#32),
    unary main_cst_9 main_v43 (broadcastInDim S64x1025 ![] bcast_S_S64x1025 : (⟨S_, .f32⟩ : BufTy).Contents (Elt F) → (⟨S64x1025, .f32⟩ : BufTy).Contents (Elt F)),
    binary main_v43 main_v42 main_v44 (mulf : (⟨S64x1025, .f32⟩ : BufTy).Contents (Elt F) → (⟨S64x1025, .f32⟩ : BufTy).Contents (Elt F) → (⟨S64x1025, .f32⟩ : BufTy).Contents (Elt F)),
    nullary main_cst_10 (constant S_ .f32 0x00000000#32),
    binary main_v44 main_cst_10 main_v45 ((fun x v => Host.reduceAdd x v reducesTo_S64x1025_S64_d1 h_S_) : (⟨S64x1025, .f32⟩ : BufTy).Contents (Elt F) → (⟨S_, .f32⟩ : BufTy).Contents (Elt F) → (⟨S64, .f32⟩ : BufTy).Contents (Elt F)),
    unary main_v45 main_v46 (broadcastInDim S64x1 ![0] bcast_S64_S64x1_0 : (⟨S64, .f32⟩ : BufTy).Contents (Elt F) → (⟨S64x1, .f32⟩ : BufTy).Contents (Elt F)),
    nullary main_cst_11 (constant S_ .f32 0x44802000#32),
    unary main_cst_11 main_v47 (broadcastInDim S64x1 ![] bcast_S_S64x1 : (⟨S_, .f32⟩ : BufTy).Contents (Elt F) → (⟨S64x1, .f32⟩ : BufTy).Contents (Elt F)),
    binary main_v46 main_v47 main_v48 (Host.divf : (⟨S64x1, .f32⟩ : BufTy).Contents (Elt F) → (⟨S64x1, .f32⟩ : BufTy).Contents (Elt F) → (⟨S64x1, .f32⟩ : BufTy).Contents (Elt F)),
    nullary main_cst_12 (constant S_ .f32 0x358637BD#32),
    unary main_cst_12 main_v49 (broadcastInDim S64x1 ![] bcast_S_S64x1 : (⟨S_, .f32⟩ : BufTy).Contents (Elt F) → (⟨S64x1, .f32⟩ : BufTy).Contents (Elt F)),
    binary main_v48 main_v49 main_v50 (maximumf : (⟨S64x1, .f32⟩ : BufTy).Contents (Elt F) → (⟨S64x1, .f32⟩ : BufTy).Contents (Elt F) → (⟨S64x1, .f32⟩ : BufTy).Contents (Elt F)),
    unary main_v50 main_v51 (broadcastInDim S64x1025 ![0, 1] bcast_S64x1_S64x1025_0_1 : (⟨S64x1, .f32⟩ : BufTy).Contents (Elt F) → (⟨S64x1025, .f32⟩ : BufTy).Contents (Elt F)),
    binary main_v44 main_v51 main_v52 (Host.divf : (⟨S64x1025, .f32⟩ : BufTy).Contents (Elt F) → (⟨S64x1025, .f32⟩ : BufTy).Contents (Elt F) → (⟨S64x1025, .f32⟩ : BufTy).Contents (Elt F)) ]

/-- Operations 73–76 of @main: the periodic score. -/
abbrev opsC : List (HloOp τ sig (Elt F)) :=
  [ binary main_v30 main_v52 main_v53 ((fun l r => Host.dotGeneral dot_S16x2048x1025_S64x1025_S16x2048x64_2_1_01_0_n_n none l r) : (⟨S16x2048x1025, .f32⟩ : BufTy).Contents (Elt F) → (⟨S64x1025, .f32⟩ : BufTy).Contents (Elt F) → (⟨S16x2048x64, .f32⟩ : BufTy).Contents (Elt F)),
    nullary main_cst_13 (constant S_ .f32 0x44802000#32),
    unary main_cst_13 main_v54 (broadcastInDim S16x2048x64 ![] bcast_S_S16x2048x64 : (⟨S_, .f32⟩ : BufTy).Contents (Elt F) → (⟨S16x2048x64, .f32⟩ : BufTy).Contents (Elt F)),
    binary main_v53 main_v54 main_v55 (Host.divf : (⟨S16x2048x64, .f32⟩ : BufTy).Contents (Elt F) → (⟨S16x2048x64, .f32⟩ : BufTy).Contents (Elt F) → (⟨S16x2048x64, .f32⟩ : BufTy).Contents (Elt F)) ]

/-- Operations 77–116 of @main: the four band masks. -/
abbrev opsD : List (HloOp τ sig (Elt F)) :=
  [ nullary main_cst_14 (constant S_ .f32 0x7F800000#32),
    binary main_arg6 main_cst_14 main_v56 ((fun x v => Host.reduce FloatOps.minimumf x v reducesTo_S1025_S_d0 h_S_) : (⟨S1025, .f32⟩ : BufTy).Contents (Elt F) → (⟨S_, .f32⟩ : BufTy).Contents (Elt F) → (⟨S_, .f32⟩ : BufTy).Contents (Elt F)),
    nullary main_cst_15 (constant S_ .f32 0xFF800000#32),
    binary main_arg6 main_cst_15 main_v57 ((fun x v => Host.reduce FloatOps.maximumf x v reducesTo_S1025_S_d0 h_S_) : (⟨S1025, .f32⟩ : BufTy).Contents (Elt F) → (⟨S_, .f32⟩ : BufTy).Contents (Elt F) → (⟨S_, .f32⟩ : BufTy).Contents (Elt F)),
    nullary main_cst_16 (constant S_ .f32 0x3F800000#32),
    binary main_v57 main_cst_16 main_v58 (addf : (⟨S_, .f32⟩ : BufTy).Contents (Elt F) → (⟨S_, .f32⟩ : BufTy).Contents (Elt F) → (⟨S_, .f32⟩ : BufTy).Contents (Elt F)),
    unary main_v56 main_v59 (broadcastInDim S1025 ![] bcast_S_S1025 : (⟨S_, .f32⟩ : BufTy).Contents (Elt F) → (⟨S1025, .f32⟩ : BufTy).Contents (Elt F)),
    binary main_arg6 main_v59 main_v60 (cmpf .oge : (⟨S1025, .f32⟩ : BufTy).Contents (Elt F) → (⟨S1025, .f32⟩ : BufTy).Contents (Elt F) → (⟨S1025, .i1⟩ : BufTy).Contents (Elt F)),
    nullary main_cst_17 (constant S_ .f32 0x43FA0000#32),
    unary main_cst_17 main_v61 (broadcastInDim S1025 ![] bcast_S_S1025 : (⟨S_, .f32⟩ : BufTy).Contents (Elt F) → (⟨S1025, .f32⟩ : BufTy).Contents (Elt F)),
    binary main_arg6 main_v61 main_v62 (cmpf .olt : (⟨S1025, .f32⟩ : BufTy).Contents (Elt F) → (⟨S1025, .f32⟩ : BufTy).Contents (Elt F) → (⟨S1025, .i1⟩ : BufTy).Contents (Elt F)),
    binary main_v60 main_v62 main_v63 (andi : (⟨S1025, .i1⟩ : BufTy).Contents (Elt F) → (⟨S1025, .i1⟩ : BufTy).Contents (Elt F) → (⟨S1025, .i1⟩ : BufTy).Contents (Elt F)),
    unary main_v63 main_v64 (uitofp .f32 : (⟨S1025, .i1⟩ : BufTy).Contents (Elt F) → (⟨S1025, .f32⟩ : BufTy).Contents (Elt F)),
    nullary main_cst_18 (constant S_ .f32 0x43FA0000#32),
    unary main_cst_18 main_v65 (broadcastInDim S1025 ![] bcast_S_S1025 : (⟨S_, .f32⟩ : BufTy).Contents (Elt F) → (⟨S1025, .f32⟩ : BufTy).Contents (Elt F)),
    binary main_arg6 main_v65 main_v66 (cmpf .oge : (⟨S1025, .f32⟩ : BufTy).Contents (Elt F) → (⟨S1025, .f32⟩ : BufTy).Contents (Elt F) → (⟨S1025, .i1⟩ : BufTy).Contents (Elt F)),
    nullary main_cst_19 (constant S_ .f32 0x44FA0000#32),
    unary main_cst_19 main_v67 (broadcastInDim S1025 ![] bcast_S_S1025 : (⟨S_, .f32⟩ : BufTy).Contents (Elt F) → (⟨S1025, .f32⟩ : BufTy).Contents (Elt F)),
    binary main_arg6 main_v67 main_v68 (cmpf .olt : (⟨S1025, .f32⟩ : BufTy).Contents (Elt F) → (⟨S1025, .f32⟩ : BufTy).Contents (Elt F) → (⟨S1025, .i1⟩ : BufTy).Contents (Elt F)),
    binary main_v66 main_v68 main_v69 (andi : (⟨S1025, .i1⟩ : BufTy).Contents (Elt F) → (⟨S1025, .i1⟩ : BufTy).Contents (Elt F) → (⟨S1025, .i1⟩ : BufTy).Contents (Elt F)),
    unary main_v69 main_v70 (uitofp .f32 : (⟨S1025, .i1⟩ : BufTy).Contents (Elt F) → (⟨S1025, .f32⟩ : BufTy).Contents (Elt F)),
    nullary main_cst_20 (constant S_ .f32 0x44FA0000#32),
    unary main_cst_20 main_v71 (broadcastInDim S1025 ![] bcast_S_S1025 : (⟨S_, .f32⟩ : BufTy).Contents (Elt F) → (⟨S1025, .f32⟩ : BufTy).Contents (Elt F)),
    binary main_arg6 main_v71 main_v72 (cmpf .oge : (⟨S1025, .f32⟩ : BufTy).Contents (Elt F) → (⟨S1025, .f32⟩ : BufTy).Contents (Elt F) → (⟨S1025, .i1⟩ : BufTy).Contents (Elt F)),
    nullary main_cst_21 (constant S_ .f32 0x45FA0000#32),
    unary main_cst_21 main_v73 (broadcastInDim S1025 ![] bcast_S_S1025 : (⟨S_, .f32⟩ : BufTy).Contents (Elt F) → (⟨S1025, .f32⟩ : BufTy).Contents (Elt F)),
    binary main_arg6 main_v73 main_v74 (cmpf .olt : (⟨S1025, .f32⟩ : BufTy).Contents (Elt F) → (⟨S1025, .f32⟩ : BufTy).Contents (Elt F) → (⟨S1025, .i1⟩ : BufTy).Contents (Elt F)),
    binary main_v72 main_v74 main_v75 (andi : (⟨S1025, .i1⟩ : BufTy).Contents (Elt F) → (⟨S1025, .i1⟩ : BufTy).Contents (Elt F) → (⟨S1025, .i1⟩ : BufTy).Contents (Elt F)),
    unary main_v75 main_v76 (uitofp .f32 : (⟨S1025, .i1⟩ : BufTy).Contents (Elt F) → (⟨S1025, .f32⟩ : BufTy).Contents (Elt F)),
    nullary main_cst_22 (constant S_ .f32 0x45FA0000#32),
    unary main_cst_22 main_v77 (broadcastInDim S1025 ![] bcast_S_S1025 : (⟨S_, .f32⟩ : BufTy).Contents (Elt F) → (⟨S1025, .f32⟩ : BufTy).Contents (Elt F)),
    binary main_arg6 main_v77 main_v78 (cmpf .oge : (⟨S1025, .f32⟩ : BufTy).Contents (Elt F) → (⟨S1025, .f32⟩ : BufTy).Contents (Elt F) → (⟨S1025, .i1⟩ : BufTy).Contents (Elt F)),
    unary main_v58 main_v79 (broadcastInDim S1025 ![] bcast_S_S1025 : (⟨S_, .f32⟩ : BufTy).Contents (Elt F) → (⟨S1025, .f32⟩ : BufTy).Contents (Elt F)),
    binary main_arg6 main_v79 main_v80 (cmpf .olt : (⟨S1025, .f32⟩ : BufTy).Contents (Elt F) → (⟨S1025, .f32⟩ : BufTy).Contents (Elt F) → (⟨S1025, .i1⟩ : BufTy).Contents (Elt F)),
    binary main_v78 main_v80 main_v81 (andi : (⟨S1025, .i1⟩ : BufTy).Contents (Elt F) → (⟨S1025, .i1⟩ : BufTy).Contents (Elt F) → (⟨S1025, .i1⟩ : BufTy).Contents (Elt F)),
    unary main_v81 main_v82 (uitofp .f32 : (⟨S1025, .i1⟩ : BufTy).Contents (Elt F) → (⟨S1025, .f32⟩ : BufTy).Contents (Elt F)),
    unary main_v64 main_v83 (broadcastInDim S1x1025 ![1] bcast_S1025_S1x1025_1 : (⟨S1025, .f32⟩ : BufTy).Contents (Elt F) → (⟨S1x1025, .f32⟩ : BufTy).Contents (Elt F)),
    unary main_v70 main_v84 (broadcastInDim S1x1025 ![1] bcast_S1025_S1x1025_1 : (⟨S1025, .f32⟩ : BufTy).Contents (Elt F) → (⟨S1x1025, .f32⟩ : BufTy).Contents (Elt F)),
    unary main_v76 main_v85 (broadcastInDim S1x1025 ![1] bcast_S1025_S1x1025_1 : (⟨S1025, .f32⟩ : BufTy).Contents (Elt F) → (⟨S1x1025, .f32⟩ : BufTy).Contents (Elt F)),
    unary main_v82 main_v86 (broadcastInDim S1x1025 ![1] bcast_S1025_S1x1025_1 : (⟨S1025, .f32⟩ : BufTy).Contents (Elt F) → (⟨S1x1025, .f32⟩ : BufTy).Contents (Elt F)) ]

/-- Operation 117 of @main: the four band masks stacked. -/
def opBands : HloOp τ sig (Elt F) :=
  nary ![main_v83, main_v84, main_v85, main_v86] main_v87 (fun u => concatenate S4x1025 0 [⟨S1x1025, u 0⟩, ⟨S1x1025, u 1⟩, ⟨S1x1025, u 2⟩, ⟨S1x1025, u 3⟩] concatenates_S1x1025_S1x1025_S1x1025_S1x1025_S4x1025_d0)

/-- Operation 117 of @main, as a stretch of its own. -/
abbrev opsE : List (HloOp τ sig (Elt F)) := [opBands]

/-- Operations 118–122 of @main: the bands' bin counts. -/
abbrev opsF : List (HloOp τ sig (Elt F)) :=
  [ nullary main_cst_23 (constant S_ .f32 0x00000000#32),
    binary main_v87 main_cst_23 main_v88 ((fun x v => Host.reduceAdd x v reducesTo_S4x1025_S4_d1 h_S_) : (⟨S4x1025, .f32⟩ : BufTy).Contents (Elt F) → (⟨S_, .f32⟩ : BufTy).Contents (Elt F) → (⟨S4, .f32⟩ : BufTy).Contents (Elt F)),
    nullary main_cst_24 (constant S_ .f32 0x3F800000#32),
    unary main_cst_24 main_v89 (broadcastInDim S4 ![] bcast_S_S4 : (⟨S_, .f32⟩ : BufTy).Contents (Elt F) → (⟨S4, .f32⟩ : BufTy).Contents (Elt F)),
    binary main_v88 main_v89 main_v90 (maximumf : (⟨S4, .f32⟩ : BufTy).Contents (Elt F) → (⟨S4, .f32⟩ : BufTy).Contents (Elt F) → (⟨S4, .f32⟩ : BufTy).Contents (Elt F)) ]

/-- Operations 123–140 of @main: the four band scores. -/
abbrev opsG : List (HloOp τ sig (Elt F)) :=
  [ unary main_v52 main_v91 (broadcastInDim S1x64x1025 ![1, 2] bcast_S64x1025_S1x64x1025_1_2 : (⟨S64x1025, .f32⟩ : BufTy).Contents (Elt F) → (⟨S1x64x1025, .f32⟩ : BufTy).Contents (Elt F)),
    unary main_v87 main_v92 (broadcastInDim S4x1x1025 ![0, 2] bcast_S4x1025_S4x1x1025_0_2 : (⟨S4x1025, .f32⟩ : BufTy).Contents (Elt F) → (⟨S4x1x1025, .f32⟩ : BufTy).Contents (Elt F)),
    unary main_v91 main_v93 (broadcastInDim S4x64x1025 ![0, 1, 2] bcast_S1x64x1025_S4x64x1025_0_1_2 : (⟨S1x64x1025, .f32⟩ : BufTy).Contents (Elt F) → (⟨S4x64x1025, .f32⟩ : BufTy).Contents (Elt F)),
    unary main_v92 main_v94 (broadcastInDim S4x64x1025 ![0, 1, 2] bcast_S4x1x1025_S4x64x1025_0_1_2 : (⟨S4x1x1025, .f32⟩ : BufTy).Contents (Elt F) → (⟨S4x64x1025, .f32⟩ : BufTy).Contents (Elt F)),
    binary main_v93 main_v94 main_v95 (mulf : (⟨S4x64x1025, .f32⟩ : BufTy).Contents (Elt F) → (⟨S4x64x1025, .f32⟩ : BufTy).Contents (Elt F) → (⟨S4x64x1025, .f32⟩ : BufTy).Contents (Elt F)),
    binary main_v95 main_v30 main_v96 ((fun l r => Host.dotGeneral dot_S4x64x1025_S16x2048x1025_S4x64x16x2048_2_2_01_01_n_n none l r) : (⟨S4x64x1025, .f32⟩ : BufTy).Contents (Elt F) → (⟨S16x2048x1025, .f32⟩ : BufTy).Contents (Elt F) → (⟨S4x64x16x2048, .f32⟩ : BufTy).Contents (Elt F)),
    unary main_v96 main_v97 ((transpose S16x4x2048x64 [2, 0, 3, 1] · transposes_S4x64x16x2048_S16x4x2048x64_2_0_3_1) : (⟨S4x64x16x2048, .f32⟩ : BufTy).Contents (Elt F) → (⟨S16x4x2048x64, .f32⟩ : BufTy).Contents (Elt F)),
    unary main_v90 main_v98 (broadcastInDim S1x4x1x1 ![1] bcast_S4_S1x4x1x1_1 : (⟨S4, .f32⟩ : BufTy).Contents (Elt F) → (⟨S1x4x1x1, .f32⟩ : BufTy).Contents (Elt F)),
    unary main_v98 main_v99 (broadcastInDim S16x4x2048x64 ![0, 1, 2, 3] bcast_S1x4x1x1_S16x4x2048x64_0_1_2_3 : (⟨S1x4x1x1, .f32⟩ : BufTy).Contents (Elt F) → (⟨S16x4x2048x64, .f32⟩ : BufTy).Contents (Elt F)),
    binary main_v97 main_v99 main_v100 (Host.divf : (⟨S16x4x2048x64, .f32⟩ : BufTy).Contents (Elt F) → (⟨S16x4x2048x64, .f32⟩ : BufTy).Contents (Elt F) → (⟨S16x4x2048x64, .f32⟩ : BufTy).Contents (Elt F)),
    unary main_v100 main_v101 ((extractStridedSlice S16x1x2048x64 ![0, 0, 0, 0] · slices_S16x4x2048x64_S16x1x2048x64_0_0_0_0) : (⟨S16x4x2048x64, .f32⟩ : BufTy).Contents (Elt F) → (⟨S16x1x2048x64, .f32⟩ : BufTy).Contents (Elt F)),
    reshape main_v101 main_v102 rfl shapeCasts_S16x1x2048x64_S16x2048x64,
    unary main_v100 main_v103 ((extractStridedSlice S16x1x2048x64 ![0, 1, 0, 0] · slices_S16x4x2048x64_S16x1x2048x64_0_1_0_0) : (⟨S16x4x2048x64, .f32⟩ : BufTy).Contents (Elt F) → (⟨S16x1x2048x64, .f32⟩ : BufTy).Contents (Elt F)),
    reshape main_v103 main_v104 rfl shapeCasts_S16x1x2048x64_S16x2048x64,
    unary main_v100 main_v105 ((extractStridedSlice S16x1x2048x64 ![0, 2, 0, 0] · slices_S16x4x2048x64_S16x1x2048x64_0_2_0_0) : (⟨S16x4x2048x64, .f32⟩ : BufTy).Contents (Elt F) → (⟨S16x1x2048x64, .f32⟩ : BufTy).Contents (Elt F)),
    reshape main_v105 main_v106 rfl shapeCasts_S16x1x2048x64_S16x2048x64,
    unary main_v100 main_v107 ((extractStridedSlice S16x1x2048x64 ![0, 3, 0, 0] · slices_S16x4x2048x64_S16x1x2048x64_0_3_0_0) : (⟨S16x4x2048x64, .f32⟩ : BufTy).Contents (Elt F) → (⟨S16x1x2048x64, .f32⟩ : BufTy).Contents (Elt F)),
    reshape main_v107 main_v108 rfl shapeCasts_S16x1x2048x64_S16x2048x64 ]

/-- Operations 141–190 of @main: the five side channels. -/
abbrev opsH : List (HloOp τ sig (Elt F)) :=
  [ reshape main_arg5 main_v109 rfl shapeCasts_S16x1x2048x64_S16x2048x64,
    TRef.nullary (TRef.of (T := ⟨S_, .f32⟩) main_call3_cst) (constant S_ .f32 0x00000000#32),
    TRef.unary (TRef.of (T := ⟨S_, .f32⟩) main_call3_cst) (TRef.of (T := ⟨S16x2048x64, .f32⟩) main_call3_v0) (broadcastInDim S16x2048x64 ![] bcast_S_S16x2048x64),
    TRef.binary (TRef.of (T := ⟨S16x2048x64, .f32⟩) main_v109) (TRef.of (T := ⟨S16x2048x64, .f32⟩) main_call3_v0) (TRef.of (T := ⟨S16x2048x64, .f32⟩) main_v110) maximumf,
    nullary main_cst_25 (constant S_ .f32 0x00000000#32),
    binary main_v110 main_cst_25 main_v111 ((fun x v => Host.reduceAdd x v reducesTo_S16x2048x64_S16x2048_d2 h_S_) : (⟨S16x2048x64, .f32⟩ : BufTy).Contents (Elt F) → (⟨S_, .f32⟩ : BufTy).Contents (Elt F) → (⟨S16x2048, .f32⟩ : BufTy).Contents (Elt F)),
    unary main_v111 main_v112 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_26 (constant S_ .f32 0x42800000#32),
    unary main_cst_26 main_v113 (broadcastInDim S16x2048x1 ![] bcast_S_S16x2048x1 : (⟨S_, .f32⟩ : BufTy).Contents (Elt F) → (⟨S16x2048x1, .f32⟩ : BufTy).Contents (Elt F)),
    binary main_v112 main_v113 main_v114 (Host.divf : (⟨S16x2048x1, .f32⟩ : BufTy).Contents (Elt F) → (⟨S16x2048x1, .f32⟩ : BufTy).Contents (Elt F) → (⟨S16x2048x1, .f32⟩ : BufTy).Contents (Elt F)),
    nullary main_cst_27 (constant S_ .f32 0x358637BD#32),
    unary main_cst_27 main_v115 (broadcastInDim S16x2048x1 ![] bcast_S_S16x2048x1 : (⟨S_, .f32⟩ : BufTy).Contents (Elt F) → (⟨S16x2048x1, .f32⟩ : BufTy).Contents (Elt F)),
    binary main_v114 main_v115 main_v116 (maximumf : (⟨S16x2048x1, .f32⟩ : BufTy).Contents (Elt F) → (⟨S16x2048x1, .f32⟩ : BufTy).Contents (Elt F) → (⟨S16x2048x1, .f32⟩ : BufTy).Contents (Elt F)),
    unary main_v116 main_v117 (broadcastInDim S16x2048x64 ![0, 1, 2] bcast_S16x2048x1_S16x2048x64_0_1_2 : (⟨S16x2048x1, .f32⟩ : BufTy).Contents (Elt F) → (⟨S16x2048x64, .f32⟩ : BufTy).Contents (Elt F)),
    binary main_v110 main_v117 main_v118 (Host.divf : (⟨S16x2048x64, .f32⟩ : BufTy).Contents (Elt F) → (⟨S16x2048x64, .f32⟩ : BufTy).Contents (Elt F) → (⟨S16x2048x64, .f32⟩ : BufTy).Contents (Elt F)),
    nullary main_cst_28 (constant S_ .f32 0x00000000#32),
    binary main_arg3 main_cst_28 main_v119 ((fun x v => Host.reduceAdd x v reducesTo_S16x2048x4_S16x2048_d2 h_S_) : (⟨S16x2048x4, .f32⟩ : BufTy).Contents (Elt F) → (⟨S_, .f32⟩ : BufTy).Contents (Elt F) → (⟨S16x2048, .f32⟩ : BufTy).Contents (Elt F)),
    unary main_v119 main_v120 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_29 (constant S_ .f32 0x40800000#32),
    unary main_cst_29 main_v121 (broadcastInDim S16x2048x1 ![] bcast_S_S16x2048x1 : (⟨S_, .f32⟩ : BufTy).Contents (Elt F) → (⟨S16x2048x1, .f32⟩ : BufTy).Contents (Elt F)),
    binary main_v120 main_v121 main_v122 (Host.divf : (⟨S16x2048x1, .f32⟩ : BufTy).Contents (Elt F) → (⟨S16x2048x1, .f32⟩ : BufTy).Contents (Elt F) → (⟨S16x2048x1, .f32⟩ : BufTy).Contents (Elt F)),
    unary main_v122 main_v123 (broadcastInDim S16x2048x64 ![0, 1, 2] bcast_S16x2048x1_S16x2048x64_0_1_2 : (⟨S16x2048x1, .f32⟩ : BufTy).Contents (Elt F) → (⟨S16x2048x64, .f32⟩ : BufTy).Contents (Elt F)),
    nullary main_cst_30 (constant S_ .f32 0x00000000#32),
    binary main_arg4 main_cst_30 main_v124 ((fun x v => Host.reduceAdd x v reducesTo_S16x2048x4_S16x2048_d2 h_S_) : (⟨S16x2048x4, .f32⟩ : BufTy).Contents (Elt F) → (⟨S_, .f32⟩ : BufTy).Contents (Elt F) → (⟨S16x2048, .f32⟩ : BufTy).Contents (Elt F)),
    unary main_v124 main_v125 (broadcastInDim S16x2048x1 ![0, 1] bcast_S16x2048_S16x2048x1_0_1 : (⟨S16x2048, .f32⟩ : BufTy).Contents (Elt F) → (⟨S16x2048x1, .f32⟩ : BufTy).Contents (Elt F)),
    nullary main_cst_31 (constant S_ .f32 0x40800000#32),
    unary main_cst_31 main_v126 (broadcastInDim S16x2048x1 ![] bcast_S_S16x2048x1 : (⟨S_, .f32⟩ : BufTy).Contents (Elt F) → (⟨S16x2048x1, .f32⟩ : BufTy).Contents (Elt F)),
    binary main_v125 main_v126 main_v127 (Host.divf : (⟨S16x2048x1, .f32⟩ : BufTy).Contents (Elt F) → (⟨S16x2048x1, .f32⟩ : BufTy).Contents (Elt F) → (⟨S16x2048x1, .f32⟩ : BufTy).Contents (Elt F)),
    unary main_v127 main_v128 (broadcastInDim S16x2048x64 ![0, 1, 2] bcast_S16x2048x1_S16x2048x64_0_1_2 : (⟨S16x2048x1, .f32⟩ : BufTy).Contents (Elt F) → (⟨S16x2048x64, .f32⟩ : BufTy).Contents (Elt F)),
    unary main_arg2 main_v129 ((extractStridedSlice S16x2048x1 ![0, 0, 0] · slices_S16x2048x4_S16x2048x1_0_0_0) : (⟨S16x2048x4, .f32⟩ : BufTy).Contents (Elt F) → (⟨S16x2048x1, .f32⟩ : BufTy).Contents (Elt F)),
    nullary main_cst_32 (constant S_ .f32 0x00000000#32),
    nullary main_cst_33 (constant S_ .f32 0x3F800000#32),
    TRef.unary (TRef.of (T := ⟨S_, .f32⟩) main_cst_32) (TRef.of (T := ⟨S_, .f32⟩) main_call4_v0) id,
    TRef.unary (TRef.of (T := ⟨S_, .f32⟩) main_call4_v0) (TRef.of (T := ⟨S16x2048x1, .f32⟩) main_call4_v1) (broadcastInDim S16x2048x1 ![] bcast_S_S16x2048x1),
    TRef.binary (TRef.of (T := ⟨S16x2048x1, .f32⟩) main_call4_v1) (TRef.of (T := ⟨S16x2048x1, .f32⟩) main_v129) (TRef.of (T := ⟨S16x2048x1, .f32⟩) main_call4_v2) maximumf,
    TRef.unary (TRef.of (T := ⟨S_, .f32⟩) main_cst_33) (TRef.of (T := ⟨S_, .f32⟩) main_call4_v3) id,
    TRef.unary (TRef.of (T := ⟨S_, .f32⟩) main_call4_v3) (TRef.of (T := ⟨S16x2048x1, .f32⟩) main_call4_v4) (broadcastInDim S16x2048x1 ![] bcast_S_S16x2048x1),
    TRef.binary (TRef.of (T := ⟨S16x2048x1, .f32⟩) main_call4_v4) (TRef.of (T := ⟨S16x2048x1, .f32⟩) main_call4_v2) (TRef.of (T := ⟨S16x2048x1, .f32⟩) main_v130) minimumf,
    unary main_v130 main_v131 (broadcastInDim S16x2048x64 ![0, 1, 2] bcast_S16x2048x1_S16x2048x64_0_1_2 : (⟨S16x2048x1, .f32⟩ : BufTy).Contents (Elt F) → (⟨S16x2048x64, .f32⟩ : BufTy).Contents (Elt F)),
    unary main_arg2 main_v132 ((extractStridedSlice S16x2048x1 ![0, 0, 1] · slices_S16x2048x4_S16x2048x1_0_0_1) : (⟨S16x2048x4, .f32⟩ : BufTy).Contents (Elt F) → (⟨S16x2048x1, .f32⟩ : BufTy).Contents (Elt F)),
    nullary main_cst_34 (constant S_ .f32 0xBF800000#32),
    nullary main_cst_35 (constant S_ .f32 0x3F800000#32),
    TRef.unary (TRef.of (T := ⟨S_, .f32⟩) main_cst_34) (TRef.of (T := ⟨S_, .f32⟩) main_call5_v0) id,
    TRef.unary (TRef.of (T := ⟨S_, .f32⟩) main_call5_v0) (TRef.of (T := ⟨S16x2048x1, .f32⟩) main_call5_v1) (broadcastInDim S16x2048x1 ![] bcast_S_S16x2048x1),
    TRef.binary (TRef.of (T := ⟨S16x2048x1, .f32⟩) main_call5_v1) (TRef.of (T := ⟨S16x2048x1, .f32⟩) main_v132) (TRef.of (T := ⟨S16x2048x1, .f32⟩) main_call5_v2) maximumf,
    TRef.unary (TRef.of (T := ⟨S_, .f32⟩) main_cst_35) (TRef.of (T := ⟨S_, .f32⟩) main_call5_v3) id,
    TRef.unary (TRef.of (T := ⟨S_, .f32⟩) main_call5_v3) (TRef.of (T := ⟨S16x2048x1, .f32⟩) main_call5_v4) (broadcastInDim S16x2048x1 ![] bcast_S_S16x2048x1),
    TRef.binary (TRef.of (T := ⟨S16x2048x1, .f32⟩) main_call5_v4) (TRef.of (T := ⟨S16x2048x1, .f32⟩) main_call5_v2) (TRef.of (T := ⟨S16x2048x1, .f32⟩) main_v133) minimumf,
    unary main_v133 main_v134 (Host.absf : (⟨S16x2048x1, .f32⟩ : BufTy).Contents (Elt F) → (⟨S16x2048x1, .f32⟩ : BufTy).Contents (Elt F)),
    unary main_v134 main_v135 (broadcastInDim S16x2048x64 ![0, 1, 2] bcast_S16x2048x1_S16x2048x64_0_1_2 : (⟨S16x2048x1, .f32⟩ : BufTy).Contents (Elt F) → (⟨S16x2048x64, .f32⟩ : BufTy).Contents (Elt F)) ]

/-- Operations 191–200 of @main: the ten channels, each given a last axis of size one. -/
abbrev opsI : List (HloOp τ sig (Elt F)) :=
  [ unary main_v55 main_v136 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v102 main_v137 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v104 main_v138 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v106 main_v139 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v108 main_v140 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v118 main_v141 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v123 main_v142 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v128 main_v143 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v131 main_v144 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)),
    unary main_v135 main_v145 (broadcastInDim S16x2048x64x1 ![0, 1, 2] bcast_S16x2048x64_S16x2048x64x1_0_1_2 : (⟨S16x2048x64, .f32⟩ : BufTy).Contents (Elt F) → (⟨S16x2048x64x1, .f32⟩ : BufTy).Contents (Elt F)) ]

/-- Operation 201 of @main: the ten channels stacked. -/
def opStack : HloOp τ sig (Elt F) :=
  nary ![main_v136, main_v137, main_v138, main_v139, main_v140, main_v141, main_v142, main_v143, main_v144, main_v145] main_v146 (fun u => concatenate S16x2048x64x10 3 [⟨S16x2048x64x1, u 0⟩, ⟨S16x2048x64x1, u 1⟩, ⟨S16x2048x64x1, u 2⟩, ⟨S16x2048x64x1, u 3⟩, ⟨S16x2048x64x1, u 4⟩, ⟨S16x2048x64x1, u 5⟩, ⟨S16x2048x64x1, u 6⟩, ⟨S16x2048x64x1, u 7⟩, ⟨S16x2048x64x1, u 8⟩, ⟨S16x2048x64x1, u 9⟩] concatenates_S16x2048x64x1_S16x2048x64x1_S16x2048x64x1_S16x2048x64x1_S16x2048x64x1_S16x2048x64x1_S16x2048x64x1_S16x2048x64x1_S16x2048x64x1_S16x2048x64x1_S16x2048x64x10_d3)

/-- Operation 201 of @main, as a stretch of its own. -/
abbrev opsJ : List (HloOp τ sig (Elt F)) := [opStack]

/-- Operations 202–222 of @main: the channel mean, the gated mean and the periods. -/
abbrev opsK : List (HloOp τ sig (Elt F)) :=
  [ nullary main_cst_36 (constant S_ .f32 0x00000000#32),
    binary main_v146 main_cst_36 main_v147 ((fun x v => Host.reduceAdd x v reducesTo_S16x2048x64x10_S16x2048x64_d3 h_S_) : (⟨S16x2048x64x10, .f32⟩ : BufTy).Contents (Elt F) → (⟨S_, .f32⟩ : BufTy).Contents (Elt F) → (⟨S16x2048x64, .f32⟩ : BufTy).Contents (Elt F)),
    nullary main_cst_37 (constant S_ .f32 0x41200000#32),
    unary main_cst_37 main_v148 (broadcastInDim S16x2048x64 ![] bcast_S_S16x2048x64 : (⟨S_, .f32⟩ : BufTy).Contents (Elt F) → (⟨S16x2048x64, .f32⟩ : BufTy).Contents (Elt F)),
    binary main_v147 main_v148 main_v149 (Host.divf : (⟨S16x2048x64, .f32⟩ : BufTy).Contents (Elt F) → (⟨S16x2048x64, .f32⟩ : BufTy).Contents (Elt F) → (⟨S16x2048x64, .f32⟩ : BufTy).Contents (Elt F)),
    nullary main_cst_38 (constant S_ .f32 0x3F000000#32),
    unary main_cst_38 main_v150 (broadcastInDim S16x2048x64 ![] bcast_S_S16x2048x64 : (⟨S_, .f32⟩ : BufTy).Contents (Elt F) → (⟨S16x2048x64, .f32⟩ : BufTy).Contents (Elt F)),
    binary main_v150 main_v131 main_v151 (mulf : (⟨S16x2048x64, .f32⟩ : BufTy).Contents (Elt F) → (⟨S16x2048x64, .f32⟩ : BufTy).Contents (Elt F) → (⟨S16x2048x64, .f32⟩ : BufTy).Contents (Elt F)),
    nullary main_cst_39 (constant S_ .f32 0x3F000000#32),
    unary main_cst_39 main_v152 (broadcastInDim S16x2048x64 ![] bcast_S_S16x2048x64 : (⟨S_, .f32⟩ : BufTy).Contents (Elt F) → (⟨S16x2048x64, .f32⟩ : BufTy).Contents (Elt F)),
    binary main_v152 main_v151 main_v153 (addf : (⟨S16x2048x64, .f32⟩ : BufTy).Contents (Elt F) → (⟨S16x2048x64, .f32⟩ : BufTy).Contents (Elt F) → (⟨S16x2048x64, .f32⟩ : BufTy).Contents (Elt F)),
    binary main_v149 main_v153 main_v154 (mulf : (⟨S16x2048x64, .f32⟩ : BufTy).Contents (Elt F) → (⟨S16x2048x64, .f32⟩ : BufTy).Contents (Elt F) → (⟨S16x2048x64, .f32⟩ : BufTy).Contents (Elt F)),
    nullary main_cst_40 (constant S_ .f32 0x358637BD#32),
    unary main_cst_40 main_v155 (broadcastInDim S64 ![] bcast_S_S64 : (⟨S_, .f32⟩ : BufTy).Contents (Elt F) → (⟨S64, .f32⟩ : BufTy).Contents (Elt F)),
    binary main_arg7 main_v155 main_v156 (maximumf : (⟨S64, .f32⟩ : BufTy).Contents (Elt F) → (⟨S64, .f32⟩ : BufTy).Contents (Elt F) → (⟨S64, .f32⟩ : BufTy).Contents (Elt F)),
    nullary main_cst_41 (constant S_ .f32 0x40000000#32),
    unary main_cst_41 main_v157 (broadcastInDim S64 ![] bcast_S_S64 : (⟨S_, .f32⟩ : BufTy).Contents (Elt F) → (⟨S64, .f32⟩ : BufTy).Contents (Elt F)),
    binary main_v157 main_v156 main_v158 (mulf : (⟨S64, .f32⟩ : BufTy).Contents (Elt F) → (⟨S64, .f32⟩ : BufTy).Contents (Elt F) → (⟨S64, .f32⟩ : BufTy).Contents (Elt F)),
    nullary main_cst_42 (constant S_ .f32 0x4705FC00#32),
    unary main_cst_42 main_v159 (broadcastInDim S64 ![] bcast_S_S64 : (⟨S_, .f32⟩ : BufTy).Contents (Elt F) → (⟨S64, .f32⟩ : BufTy).Contents (Elt F)),
    binary main_v159 main_v158 main_v160 (Host.divf : (⟨S64, .f32⟩ : BufTy).Contents (Elt F) → (⟨S64, .f32⟩ : BufTy).Contents (Elt F) → (⟨S64, .f32⟩ : BufTy).Contents (Elt F)) ]

/-- @main's 223 operations, in order: the eleven stretches one after the other. -/
abbrev ops : List (HloOp τ sig (Elt F)) :=
  opsA ++ (opsB ++ (opsC ++ (opsD ++ (opsE ++ (opsF ++ (opsG ++ (opsH ++ (opsI ++ (opsJ ++ (opsK))))))))))

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

/-! ## What each stretch touches and writes -/

/-- The buffers stretch A writes. -/
abbrev outsA : List (Ref sig .tc) :=
  [main_v0, main_v1, main_v2, main_v3, main_v4, main_v5, main_cst, main_v6, main_v7, main_cst_0, main_v8, main_v9, main_v10, main_v11, main_v12, main_call0_cst, main_call0_v0, main_v13, main_call1_cst, main_call1_v0, main_v14, main_v15, main_call2_cst, main_call2_v0, main_v16, main_cst_1, main_v17, main_v18, main_v19, main_cst_2, main_v20, main_v21, main_v22, main_cst_3, main_v23, main_v24, main_cst_4, main_v25, main_v26, main_cst_5, main_v27, main_v28, main_v29, main_v30]

theorem opsA_sub : (opsA : List (HloOp τ sig (Elt F))).Forall fun op => op.bufs ⊆ tcRefs τ sig :=
  ⟨reshape_bufs_sub .., unary_bufs_sub .., reshape_bufs_sub .., unary_bufs_sub .., reshape_bufs_sub .., unary_bufs_sub .., nullary_bufs_sub .., binary_bufs_sub .., unary_bufs_sub .., nullary_bufs_sub .., unary_bufs_sub .., binary_bufs_sub .., unary_bufs_sub .., binary_bufs_sub .., unary_bufs_sub .., nullary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub ..⟩
theorem opsA_fresh : (opsA : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsA_writes : (opsA : List (HloOp τ sig (Elt F))).Forall fun op => op.writes ⊆ (outsA.map (Proc.devRef (τ := τ) .tc)).toFinset :=
  ⟨writes_in main_v0 rfl (by decide), writes_in main_v1 rfl (by decide), writes_in main_v2 rfl (by decide), writes_in main_v3 rfl (by decide), writes_in main_v4 rfl (by decide), writes_in main_v5 rfl (by decide), writes_in main_cst rfl (by decide), writes_in main_v6 rfl (by decide), writes_in main_v7 rfl (by decide), writes_in main_cst_0 rfl (by decide), writes_in main_v8 rfl (by decide), writes_in main_v9 rfl (by decide), writes_in main_v10 rfl (by decide), writes_in main_v11 rfl (by decide), writes_in main_v12 rfl (by decide), writes_in main_call0_cst rfl (by decide), writes_in main_call0_v0 rfl (by decide), writes_in main_v13 rfl (by decide), writes_in main_call1_cst rfl (by decide), writes_in main_call1_v0 rfl (by decide), writes_in main_v14 rfl (by decide), writes_in main_v15 rfl (by decide), writes_in main_call2_cst rfl (by decide), writes_in main_call2_v0 rfl (by decide), writes_in main_v16 rfl (by decide), writes_in main_cst_1 rfl (by decide), writes_in main_v17 rfl (by decide), writes_in main_v18 rfl (by decide), writes_in main_v19 rfl (by decide), writes_in main_cst_2 rfl (by decide), writes_in main_v20 rfl (by decide), writes_in main_v21 rfl (by decide), writes_in main_v22 rfl (by decide), writes_in main_cst_3 rfl (by decide), writes_in main_v23 rfl (by decide), writes_in main_v24 rfl (by decide), writes_in main_cst_4 rfl (by decide), writes_in main_v25 rfl (by decide), writes_in main_v26 rfl (by decide), writes_in main_cst_5 rfl (by decide), writes_in main_v27 rfl (by decide), writes_in main_v28 rfl (by decide), writes_in main_v29 rfl (by decide), writes_in main_v30 rfl (by decide)⟩
/-- A buffer stretch A does not write keeps its contents. -/
theorem keepA (V : Valuation τ sig (Elt F)) {r : Ref sig .tc} (hr : r ∉ outsA) :
    after opsA V (Proc.devRef .tc r) = V (Proc.devRef .tc r) :=
  after_of_writes_sub opsA V opsA_writes hr

/-- The buffers stretch B writes. -/
abbrev outsB : List (Ref sig .tc) :=
  [main_v31, main_v32, main_cst_6, main_v33, main_v34, main_v35, main_v36, main_v37, main_cst_7, main_v38, main_v39, main_v40, main_cst_8, main_v41, main_v42, main_cst_9, main_v43, main_v44, main_cst_10, main_v45, main_v46, main_cst_11, main_v47, main_v48, main_cst_12, main_v49, main_v50, main_v51, main_v52]

theorem opsB_sub : (opsB : List (HloOp τ sig (Elt F))).Forall fun op => op.bufs ⊆ tcRefs τ sig :=
  ⟨unary_bufs_sub .., unary_bufs_sub .., nullary_bufs_sub .., unary_bufs_sub .., binary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub ..⟩
theorem opsB_fresh : (opsB : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl⟩
theorem opsB_writes : (opsB : List (HloOp τ sig (Elt F))).Forall fun op => op.writes ⊆ (outsB.map (Proc.devRef (τ := τ) .tc)).toFinset :=
  ⟨writes_in main_v31 rfl (by decide), writes_in main_v32 rfl (by decide), writes_in main_cst_6 rfl (by decide), writes_in main_v33 rfl (by decide), writes_in main_v34 rfl (by decide), writes_in main_v35 rfl (by decide), writes_in main_v36 rfl (by decide), writes_in main_v37 rfl (by decide), writes_in main_cst_7 rfl (by decide), writes_in main_v38 rfl (by decide), writes_in main_v39 rfl (by decide), writes_in main_v40 rfl (by decide), writes_in main_cst_8 rfl (by decide), writes_in main_v41 rfl (by decide), writes_in main_v42 rfl (by decide), writes_in main_cst_9 rfl (by decide), writes_in main_v43 rfl (by decide), writes_in main_v44 rfl (by decide), writes_in main_cst_10 rfl (by decide), writes_in main_v45 rfl (by decide), writes_in main_v46 rfl (by decide), writes_in main_cst_11 rfl (by decide), writes_in main_v47 rfl (by decide), writes_in main_v48 rfl (by decide), writes_in main_cst_12 rfl (by decide), writes_in main_v49 rfl (by decide), writes_in main_v50 rfl (by decide), writes_in main_v51 rfl (by decide), writes_in main_v52 rfl (by decide)⟩
/-- A buffer stretch B does not write keeps its contents. -/
theorem keepB (V : Valuation τ sig (Elt F)) {r : Ref sig .tc} (hr : r ∉ outsB) :
    after opsB V (Proc.devRef .tc r) = V (Proc.devRef .tc r) :=
  after_of_writes_sub opsB V opsB_writes hr

/-- The buffers stretch C writes. -/
abbrev outsC : List (Ref sig .tc) :=
  [main_v53, main_cst_13, main_v54, main_v55]

theorem opsC_sub : (opsC : List (HloOp τ sig (Elt F))).Forall fun op => op.bufs ⊆ tcRefs τ sig :=
  ⟨binary_bufs_sub .., nullary_bufs_sub .., unary_bufs_sub .., binary_bufs_sub ..⟩
theorem opsC_fresh : (opsC : List (HloOp τ sig (Elt F))).Forall fun op => op.fresh = ∅ :=
  ⟨rfl, rfl, rfl, rfl⟩
theorem opsC_writes : (opsC : List (HloOp τ sig (Elt F))).Forall fun op => op.writes ⊆ (outsC.map (Proc.devRef (τ := τ) .tc)).toFinset :=
  ⟨writes_in main_v53 rfl (by decide), writes_in main_cst_13 rfl (by decide), writes_in main_v54 rfl (by decide), writes_in main_v55 rfl (by decide)⟩
/-- A buffer stretch C does not write keeps its contents. -/
theorem keepC (V : Valuation τ sig (Elt F)) {r : Ref sig .tc} (hr : r ∉ outsC) :
    after opsC V (Proc.devRef .tc r) = V (Proc.devRef .tc r) :=
  after_of_writes_sub opsC V opsC_writes hr

/-- The buffers stretch D writes. -/
abbrev outsD : List (Ref sig .tc) :=
  [main_cst_14, main_v56, main_cst_15, main_v57, main_cst_16, main_v58, main_v59, main_v60, main_cst_17, main_v61, main_v62, main_v63, main_v64, main_cst_18, main_v65, main_v66, main_cst_19, main_v67, main_v68, main_v69, main_v70, main_cst_20, main_v71, main_v72, main_cst_21, main_v73, main_v74, main_v75, main_v76, main_cst_22, main_v77, main_v78, main_v79, main_v80, main_v81, main_v82, main_v83, main_v84, main_v85, main_v86]

theorem opsD_sub : (opsD : List (HloOp τ sig (Elt F))).Forall fun op => op.bufs ⊆ tcRefs τ sig :=
  ⟨nullary_bufs_sub .., binary_bufs_sub .., nullary_bufs_sub .., binary_bufs_sub .., nullary_bufs_sub .., binary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., nullary_bufs_sub .., unary_bufs_sub .., binary_bufs_sub .., binary_bufs_sub .., unary_bufs_sub .., nullary_bufs_sub .., unary_bufs_sub .., binary_bufs_sub .., unary_bufs_sub .., binary_bufs_sub .., binary_bufs_sub .., unary_bufs_sub .., unary_bufs_sub .., unary_bufs_sub .., unary_bufs_sub .., unary_bufs_sub ..⟩
theorem opsD_fresh : (opsD : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsD_writes : (opsD : List (HloOp τ sig (Elt F))).Forall fun op => op.writes ⊆ (outsD.map (Proc.devRef (τ := τ) .tc)).toFinset :=
  ⟨writes_in main_cst_14 rfl (by decide), writes_in main_v56 rfl (by decide), writes_in main_cst_15 rfl (by decide), writes_in main_v57 rfl (by decide), writes_in main_cst_16 rfl (by decide), writes_in main_v58 rfl (by decide), writes_in main_v59 rfl (by decide), writes_in main_v60 rfl (by decide), writes_in main_cst_17 rfl (by decide), writes_in main_v61 rfl (by decide), writes_in main_v62 rfl (by decide), writes_in main_v63 rfl (by decide), writes_in main_v64 rfl (by decide), writes_in main_cst_18 rfl (by decide), writes_in main_v65 rfl (by decide), writes_in main_v66 rfl (by decide), writes_in main_cst_19 rfl (by decide), writes_in main_v67 rfl (by decide), writes_in main_v68 rfl (by decide), writes_in main_v69 rfl (by decide), writes_in main_v70 rfl (by decide), writes_in main_cst_20 rfl (by decide), writes_in main_v71 rfl (by decide), writes_in main_v72 rfl (by decide), writes_in main_cst_21 rfl (by decide), writes_in main_v73 rfl (by decide), writes_in main_v74 rfl (by decide), writes_in main_v75 rfl (by decide), writes_in main_v76 rfl (by decide), writes_in main_cst_22 rfl (by decide), writes_in main_v77 rfl (by decide), writes_in main_v78 rfl (by decide), writes_in main_v79 rfl (by decide), writes_in main_v80 rfl (by decide), writes_in main_v81 rfl (by decide), writes_in main_v82 rfl (by decide), writes_in main_v83 rfl (by decide), writes_in main_v84 rfl (by decide), writes_in main_v85 rfl (by decide), writes_in main_v86 rfl (by decide)⟩
/-- A buffer stretch D does not write keeps its contents. -/
theorem keepD (V : Valuation τ sig (Elt F)) {r : Ref sig .tc} (hr : r ∉ outsD) :
    after opsD V (Proc.devRef .tc r) = V (Proc.devRef .tc r) :=
  after_of_writes_sub opsD V opsD_writes hr

/-- The buffers stretch E writes. -/
abbrev outsE : List (Ref sig .tc) :=
  [main_v87]

theorem opsE_sub : (opsE : List (HloOp τ sig (Elt F))).Forall fun op => op.bufs ⊆ tcRefs τ sig :=
  bufs_sub_of (S := insert (Proc.devRef .tc main_v87) (Finset.univ.image fun k => Proc.devRef .tc ((![main_v83, main_v84, main_v85, main_v86] : Fin 4 → Ref sig .tc) k))) rfl
    (Finset.insert_subset (devRef_mem_tcRefs _) (Finset.image_subset_iff.mpr fun k _ => devRef_mem_tcRefs _))
theorem opsE_fresh : (opsE : List (HloOp τ sig (Elt F))).Forall fun op => op.fresh = ∅ :=
  rfl
theorem opsE_writes : (opsE : List (HloOp τ sig (Elt F))).Forall fun op => op.writes ⊆ (outsE.map (Proc.devRef (τ := τ) .tc)).toFinset :=
  writes_in main_v87 rfl (by decide)
/-- A buffer stretch E does not write keeps its contents. -/
theorem keepE (V : Valuation τ sig (Elt F)) {r : Ref sig .tc} (hr : r ∉ outsE) :
    after opsE V (Proc.devRef .tc r) = V (Proc.devRef .tc r) :=
  after_of_writes_sub opsE V opsE_writes hr

/-- The buffers stretch F writes. -/
abbrev outsF : List (Ref sig .tc) :=
  [main_cst_23, main_v88, main_cst_24, main_v89, main_v90]

theorem opsF_sub : (opsF : List (HloOp τ sig (Elt F))).Forall fun op => op.bufs ⊆ tcRefs τ sig :=
  ⟨nullary_bufs_sub .., binary_bufs_sub .., nullary_bufs_sub .., unary_bufs_sub .., binary_bufs_sub ..⟩
theorem opsF_fresh : (opsF : List (HloOp τ sig (Elt F))).Forall fun op => op.fresh = ∅ :=
  ⟨rfl, rfl, rfl, rfl, rfl⟩
theorem opsF_writes : (opsF : List (HloOp τ sig (Elt F))).Forall fun op => op.writes ⊆ (outsF.map (Proc.devRef (τ := τ) .tc)).toFinset :=
  ⟨writes_in main_cst_23 rfl (by decide), writes_in main_v88 rfl (by decide), writes_in main_cst_24 rfl (by decide), writes_in main_v89 rfl (by decide), writes_in main_v90 rfl (by decide)⟩
/-- A buffer stretch F does not write keeps its contents. -/
theorem keepF (V : Valuation τ sig (Elt F)) {r : Ref sig .tc} (hr : r ∉ outsF) :
    after opsF V (Proc.devRef .tc r) = V (Proc.devRef .tc r) :=
  after_of_writes_sub opsF V opsF_writes hr

/-- The buffers stretch G writes. -/
abbrev outsG : List (Ref sig .tc) :=
  [main_v91, main_v92, main_v93, main_v94, main_v95, main_v96, main_v97, main_v98, main_v99, main_v100, main_v101, main_v102, main_v103, main_v104, main_v105, main_v106, main_v107, main_v108]

theorem opsG_sub : (opsG : List (HloOp τ sig (Elt F))).Forall fun op => op.bufs ⊆ tcRefs τ sig :=
  ⟨unary_bufs_sub .., unary_bufs_sub .., unary_bufs_sub .., unary_bufs_sub .., binary_bufs_sub .., binary_bufs_sub .., unary_bufs_sub .., unary_bufs_sub .., unary_bufs_sub .., binary_bufs_sub .., unary_bufs_sub .., reshape_bufs_sub .., unary_bufs_sub .., reshape_bufs_sub .., unary_bufs_sub .., reshape_bufs_sub .., unary_bufs_sub .., reshape_bufs_sub ..⟩
theorem opsG_fresh : (opsG : List (HloOp τ sig (Elt F))).Forall fun op => op.fresh = ∅ :=
  ⟨rfl, rfl, rfl, rfl, rfl, rfl, rfl, rfl, rfl, rfl, rfl, rfl, rfl, rfl, rfl, rfl, rfl, rfl⟩
theorem opsG_writes : (opsG : List (HloOp τ sig (Elt F))).Forall fun op => op.writes ⊆ (outsG.map (Proc.devRef (τ := τ) .tc)).toFinset :=
  ⟨writes_in main_v91 rfl (by decide), writes_in main_v92 rfl (by decide), writes_in main_v93 rfl (by decide), writes_in main_v94 rfl (by decide), writes_in main_v95 rfl (by decide), writes_in main_v96 rfl (by decide), writes_in main_v97 rfl (by decide), writes_in main_v98 rfl (by decide), writes_in main_v99 rfl (by decide), writes_in main_v100 rfl (by decide), writes_in main_v101 rfl (by decide), writes_in main_v102 rfl (by decide), writes_in main_v103 rfl (by decide), writes_in main_v104 rfl (by decide), writes_in main_v105 rfl (by decide), writes_in main_v106 rfl (by decide), writes_in main_v107 rfl (by decide), writes_in main_v108 rfl (by decide)⟩
/-- A buffer stretch G does not write keeps its contents. -/
theorem keepG (V : Valuation τ sig (Elt F)) {r : Ref sig .tc} (hr : r ∉ outsG) :
    after opsG V (Proc.devRef .tc r) = V (Proc.devRef .tc r) :=
  after_of_writes_sub opsG V opsG_writes hr

/-- The buffers stretch H writes. -/
abbrev outsH : List (Ref sig .tc) :=
  [main_v109, main_call3_cst, main_call3_v0, main_v110, main_cst_25, main_v111, main_v112, main_cst_26, main_v113, main_v114, main_cst_27, main_v115, main_v116, main_v117, main_v118, main_cst_28, main_v119, main_v120, main_cst_29, main_v121, main_v122, main_v123, main_cst_30, main_v124, main_v125, main_cst_31, main_v126, main_v127, main_v128, main_v129, main_cst_32, main_cst_33, main_call4_v0, main_call4_v1, main_call4_v2, main_call4_v3, main_call4_v4, main_v130, main_v131, main_v132, main_cst_34, main_cst_35, main_call5_v0, main_call5_v1, main_call5_v2, main_call5_v3, main_call5_v4, main_v133, main_v134, main_v135]

theorem opsH_sub : (opsH : List (HloOp τ sig (Elt F))).Forall fun op => op.bufs ⊆ tcRefs τ sig :=
  ⟨reshape_bufs_sub .., nullary_bufs_sub .., unary_bufs_sub .., binary_bufs_sub .., nullary_bufs_sub .., binary_bufs_sub .., unary_bufs_sub .., nullary_bufs_sub .., unary_bufs_sub .., binary_bufs_sub .., nullary_bufs_sub .., unary_bufs_sub .., binary_bufs_sub .., unary_bufs_sub .., binary_bufs_sub .., nullary_bufs_sub .., binary_bufs_sub .., unary_bufs_sub .., nullary_bufs_sub .., unary_bufs_sub .., binary_bufs_sub .., unary_bufs_sub .., nullary_bufs_sub .., binary_bufs_sub .., unary_bufs_sub .., nullary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub .., nullary_bufs_sub .., nullary_bufs_sub .., unary_bufs_sub .., unary_bufs_sub .., binary_bufs_sub .., unary_bufs_sub .., unary_bufs_sub .., binary_bufs_sub .., unary_bufs_sub .., unary_bufs_sub ..⟩
theorem opsH_fresh : (opsH : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩
theorem opsH_writes : (opsH : List (HloOp τ sig (Elt F))).Forall fun op => op.writes ⊆ (outsH.map (Proc.devRef (τ := τ) .tc)).toFinset :=
  ⟨writes_in main_v109 rfl (by decide), writes_in main_call3_cst rfl (by decide), writes_in main_call3_v0 rfl (by decide), writes_in main_v110 rfl (by decide), writes_in main_cst_25 rfl (by decide), writes_in main_v111 rfl (by decide), writes_in main_v112 rfl (by decide), writes_in main_cst_26 rfl (by decide), writes_in main_v113 rfl (by decide), writes_in main_v114 rfl (by decide), writes_in main_cst_27 rfl (by decide), writes_in main_v115 rfl (by decide), writes_in main_v116 rfl (by decide), writes_in main_v117 rfl (by decide), writes_in main_v118 rfl (by decide), writes_in main_cst_28 rfl (by decide), writes_in main_v119 rfl (by decide), writes_in main_v120 rfl (by decide), writes_in main_cst_29 rfl (by decide), writes_in main_v121 rfl (by decide), writes_in main_v122 rfl (by decide), writes_in main_v123 rfl (by decide), writes_in main_cst_30 rfl (by decide), writes_in main_v124 rfl (by decide), writes_in main_v125 rfl (by decide), writes_in main_cst_31 rfl (by decide), writes_in main_v126 rfl (by decide), writes_in main_v127 rfl (by decide), writes_in main_v128 rfl (by decide), writes_in main_v129 rfl (by decide), writes_in main_cst_32 rfl (by decide), writes_in main_cst_33 rfl (by decide), writes_in main_call4_v0 rfl (by decide), writes_in main_call4_v1 rfl (by decide), writes_in main_call4_v2 rfl (by decide), writes_in main_call4_v3 rfl (by decide), writes_in main_call4_v4 rfl (by decide), writes_in main_v130 rfl (by decide), writes_in main_v131 rfl (by decide), writes_in main_v132 rfl (by decide), writes_in main_cst_34 rfl (by decide), writes_in main_cst_35 rfl (by decide), writes_in main_call5_v0 rfl (by decide), writes_in main_call5_v1 rfl (by decide), writes_in main_call5_v2 rfl (by decide), writes_in main_call5_v3 rfl (by decide), writes_in main_call5_v4 rfl (by decide), writes_in main_v133 rfl (by decide), writes_in main_v134 rfl (by decide), writes_in main_v135 rfl (by decide)⟩
/-- A buffer stretch H does not write keeps its contents. -/
theorem keepH (V : Valuation τ sig (Elt F)) {r : Ref sig .tc} (hr : r ∉ outsH) :
    after opsH V (Proc.devRef .tc r) = V (Proc.devRef .tc r) :=
  after_of_writes_sub opsH V opsH_writes hr

/-- The buffers stretch I writes. -/
abbrev outsI : List (Ref sig .tc) :=
  [main_v136, main_v137, main_v138, main_v139, main_v140, main_v141, main_v142, main_v143, main_v144, main_v145]

theorem opsI_sub : (opsI : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., unary_bufs_sub ..⟩
theorem opsI_fresh : (opsI : List (HloOp τ sig (Elt F))).Forall fun op => op.fresh = ∅ :=
  ⟨rfl, rfl, rfl, rfl, rfl, rfl, rfl, rfl, rfl, rfl⟩
theorem opsI_writes : (opsI : List (HloOp τ sig (Elt F))).Forall fun op => op.writes ⊆ (outsI.map (Proc.devRef (τ := τ) .tc)).toFinset :=
  ⟨writes_in main_v136 rfl (by decide), writes_in main_v137 rfl (by decide), writes_in main_v138 rfl (by decide), writes_in main_v139 rfl (by decide), writes_in main_v140 rfl (by decide), writes_in main_v141 rfl (by decide), writes_in main_v142 rfl (by decide), writes_in main_v143 rfl (by decide), writes_in main_v144 rfl (by decide), writes_in main_v145 rfl (by decide)⟩
/-- A buffer stretch I does not write keeps its contents. -/
theorem keepI (V : Valuation τ sig (Elt F)) {r : Ref sig .tc} (hr : r ∉ outsI) :
    after opsI V (Proc.devRef .tc r) = V (Proc.devRef .tc r) :=
  after_of_writes_sub opsI V opsI_writes hr

/-- The buffers stretch J writes. -/
abbrev outsJ : List (Ref sig .tc) :=
  [main_v146]

theorem opsJ_sub : (opsJ : List (HloOp τ sig (Elt F))).Forall fun op => op.bufs ⊆ tcRefs τ sig :=
  bufs_sub_of (S := insert (Proc.devRef .tc main_v146) (Finset.univ.image fun k => Proc.devRef .tc ((![main_v136, main_v137, main_v138, main_v139, main_v140, main_v141, main_v142, main_v143, main_v144, main_v145] : Fin 10 → Ref sig .tc) k))) rfl
    (Finset.insert_subset (devRef_mem_tcRefs _) (Finset.image_subset_iff.mpr fun k _ => devRef_mem_tcRefs _))
theorem opsJ_fresh : (opsJ : List (HloOp τ sig (Elt F))).Forall fun op => op.fresh = ∅ :=
  rfl
theorem opsJ_writes : (opsJ : List (HloOp τ sig (Elt F))).Forall fun op => op.writes ⊆ (outsJ.map (Proc.devRef (τ := τ) .tc)).toFinset :=
  writes_in main_v146 rfl (by decide)
/-- A buffer stretch J does not write keeps its contents. -/
theorem keepJ (V : Valuation τ sig (Elt F)) {r : Ref sig .tc} (hr : r ∉ outsJ) :
    after opsJ V (Proc.devRef .tc r) = V (Proc.devRef .tc r) :=
  after_of_writes_sub opsJ V opsJ_writes hr

/-- The buffers stretch K writes. -/
abbrev outsK : List (Ref sig .tc) :=
  [main_cst_36, main_v147, main_cst_37, main_v148, main_v149, main_cst_38, main_v150, main_v151, main_cst_39, main_v152, main_v153, main_v154, main_cst_40, main_v155, main_v156, main_cst_41, main_v157, main_v158, main_cst_42, main_v159, main_v160]

theorem opsK_sub : (opsK : List (HloOp τ sig (Elt F))).Forall fun op => op.bufs ⊆ tcRefs τ sig :=
  ⟨nullary_bufs_sub .., binary_bufs_sub .., nullary_bufs_sub .., unary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., nullary_bufs_sub .., unary_bufs_sub .., binary_bufs_sub ..⟩
theorem opsK_fresh : (opsK : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl⟩
theorem opsK_writes : (opsK : List (HloOp τ sig (Elt F))).Forall fun op => op.writes ⊆ (outsK.map (Proc.devRef (τ := τ) .tc)).toFinset :=
  ⟨writes_in main_cst_36 rfl (by decide), writes_in main_v147 rfl (by decide), writes_in main_cst_37 rfl (by decide), writes_in main_v148 rfl (by decide), writes_in main_v149 rfl (by decide), writes_in main_cst_38 rfl (by decide), writes_in main_v150 rfl (by decide), writes_in main_v151 rfl (by decide), writes_in main_cst_39 rfl (by decide), writes_in main_v152 rfl (by decide), writes_in main_v153 rfl (by decide), writes_in main_v154 rfl (by decide), writes_in main_cst_40 rfl (by decide), writes_in main_v155 rfl (by decide), writes_in main_v156 rfl (by decide), writes_in main_cst_41 rfl (by decide), writes_in main_v157 rfl (by decide), writes_in main_v158 rfl (by decide), writes_in main_cst_42 rfl (by decide), writes_in main_v159 rfl (by decide), writes_in main_v160 rfl (by decide)⟩
/-- A buffer stretch K does not write keeps its contents. -/
theorem keepK (V : Valuation τ sig (Elt F)) {r : Ref sig .tc} (hr : r ∉ outsK) :
    after opsK V (Proc.devRef .tc r) = V (Proc.devRef .tc r) :=
  after_of_writes_sub opsK V opsK_writes hr

/-- Every operation touches TensorCore references only. -/
theorem ops_sub : (ops : List (HloOp τ sig (Elt F))).Forall fun op => op.bufs ⊆ tcRefs τ sig :=
  List.forall_append.mpr ⟨opsA_sub, List.forall_append.mpr ⟨opsB_sub, List.forall_append.mpr ⟨opsC_sub, List.forall_append.mpr ⟨opsD_sub, List.forall_append.mpr ⟨opsE_sub, List.forall_append.mpr ⟨opsF_sub, List.forall_append.mpr ⟨opsG_sub, List.forall_append.mpr ⟨opsH_sub, List.forall_append.mpr ⟨opsI_sub, List.forall_append.mpr ⟨opsJ_sub, opsK_sub⟩⟩⟩⟩⟩⟩⟩⟩⟩⟩
/-- No operation allocates. -/
theorem ops_fresh : (ops : List (HloOp τ sig (Elt F))).Forall fun op => op.fresh = ∅ :=
  List.forall_append.mpr ⟨opsA_fresh, List.forall_append.mpr ⟨opsB_fresh, List.forall_append.mpr ⟨opsC_fresh, List.forall_append.mpr ⟨opsD_fresh, List.forall_append.mpr ⟨opsE_fresh, List.forall_append.mpr ⟨opsF_fresh, List.forall_append.mpr ⟨opsG_fresh, List.forall_append.mpr ⟨opsH_fresh, List.forall_append.mpr ⟨opsI_fresh, List.forall_append.mpr ⟨opsJ_fresh, opsK_fresh⟩⟩⟩⟩⟩⟩⟩⟩⟩⟩

/-! ## What is known between the stretches -/

/-- The contents of @main's eight argument arrays. -/
structure Args (F : FTy → Type) where
  /-- argument 0: the log-magnitude frames -/
  x0 : (⟨S16x1x2048x1025, .f32⟩ : BufTy).Contents (Elt F)
  /-- argument 1: the two comb channels -/
  x1 : (⟨S16x2x2048x1025, .f32⟩ : BufTy).Contents (Elt F)
  /-- argument 2: the first of the three [16, 2048, 4] side inputs -/
  x2 : (⟨S16x2048x4, .f32⟩ : BufTy).Contents (Elt F)
  /-- argument 3: the second -/
  x3 : (⟨S16x2048x4, .f32⟩ : BufTy).Contents (Elt F)
  /-- argument 4: the third -/
  x4 : (⟨S16x2048x4, .f32⟩ : BufTy).Contents (Elt F)
  /-- argument 5: the [16, 1, 2048, 64] side input -/
  x5 : (⟨S16x1x2048x64, .f32⟩ : BufTy).Contents (Elt F)
  /-- argument 6: the bin frequencies -/
  x6 : (⟨S1025, .f32⟩ : BufTy).Contents (Elt F)
  /-- argument 7: the periods -/
  x7 : (⟨S64, .f32⟩ : BufTy).Contents (Elt F)

/-- As launched: the argument arrays at their contents. -/
structure At0 (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7

/-- After the trough. -/
structure AtA (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1

/-- After the periodic basis. -/
structure AtB (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1
  v52 : W (Proc.devRef .tc main_v52) = ReadP.val_main_v52 (F := F) X.x6 X.x7

/-- After the periodic score. -/
structure AtC (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1
  v52 : W (Proc.devRef .tc main_v52) = ReadP.val_main_v52 (F := F) X.x6 X.x7
  v55 : W (Proc.devRef .tc main_v55) = ReadP.val_main_v55 (F := F) X.x0 X.x1 X.x6 X.x7

/-- After the band masks. -/
structure AtD (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1
  v52 : W (Proc.devRef .tc main_v52) = ReadP.val_main_v52 (F := F) X.x6 X.x7
  v55 : W (Proc.devRef .tc main_v55) = ReadP.val_main_v55 (F := F) X.x0 X.x1 X.x6 X.x7
  v83 : W (Proc.devRef .tc main_v83) = ReadP.val_main_v83 (F := F) X.x6
  v84 : W (Proc.devRef .tc main_v84) = ReadP.val_main_v84 (F := F) X.x6
  v85 : W (Proc.devRef .tc main_v85) = ReadP.val_main_v85 (F := F) X.x6
  v86 : W (Proc.devRef .tc main_v86) = ReadP.val_main_v86 (F := F) X.x6

/-- After the masks are stacked. -/
structure AtE (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1
  v52 : W (Proc.devRef .tc main_v52) = ReadP.val_main_v52 (F := F) X.x6 X.x7
  v55 : W (Proc.devRef .tc main_v55) = ReadP.val_main_v55 (F := F) X.x0 X.x1 X.x6 X.x7
  v87 : W (Proc.devRef .tc main_v87) = ReadP.val_main_v87 (F := F) X.x6

/-- After the bands' bin counts. -/
structure AtF (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v30 : W (Proc.devRef .tc main_v30) = ReadP.val_main_v30 (F := F) X.x0 X.x1
  v52 : W (Proc.devRef .tc main_v52) = ReadP.val_main_v52 (F := F) X.x6 X.x7
  v55 : W (Proc.devRef .tc main_v55) = ReadP.val_main_v55 (F := F) X.x0 X.x1 X.x6 X.x7
  v87 : W (Proc.devRef .tc main_v87) = ReadP.val_main_v87 (F := F) X.x6
  v90 : W (Proc.devRef .tc main_v90) = ReadP.val_main_v90 (F := F) X.x6

/-- After the band scores. -/
structure AtG (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v55 : W (Proc.devRef .tc main_v55) = ReadP.val_main_v55 (F := F) X.x0 X.x1 X.x6 X.x7
  v102 : W (Proc.devRef .tc main_v102) = ReadP.val_main_v102 (F := F) X.x0 X.x1 X.x6 X.x7
  v104 : W (Proc.devRef .tc main_v104) = ReadP.val_main_v104 (F := F) X.x0 X.x1 X.x6 X.x7
  v106 : W (Proc.devRef .tc main_v106) = ReadP.val_main_v106 (F := F) X.x0 X.x1 X.x6 X.x7
  v108 : W (Proc.devRef .tc main_v108) = ReadP.val_main_v108 (F := F) X.x0 X.x1 X.x6 X.x7

/-- After the side channels. -/
structure AtH (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v55 : W (Proc.devRef .tc main_v55) = ReadP.val_main_v55 (F := F) X.x0 X.x1 X.x6 X.x7
  v102 : W (Proc.devRef .tc main_v102) = ReadP.val_main_v102 (F := F) X.x0 X.x1 X.x6 X.x7
  v104 : W (Proc.devRef .tc main_v104) = ReadP.val_main_v104 (F := F) X.x0 X.x1 X.x6 X.x7
  v106 : W (Proc.devRef .tc main_v106) = ReadP.val_main_v106 (F := F) X.x0 X.x1 X.x6 X.x7
  v108 : W (Proc.devRef .tc main_v108) = ReadP.val_main_v108 (F := F) X.x0 X.x1 X.x6 X.x7
  v118 : W (Proc.devRef .tc main_v118) = ReadP.val_main_v118 (F := F) X.x5
  v123 : W (Proc.devRef .tc main_v123) = ReadP.val_main_v123 (F := F) X.x3
  v128 : W (Proc.devRef .tc main_v128) = ReadP.val_main_v128 (F := F) X.x4
  v131 : W (Proc.devRef .tc main_v131) = ReadP.val_main_v131 (F := F) X.x2
  v135 : W (Proc.devRef .tc main_v135) = ReadP.val_main_v135 (F := F) X.x2

/-- After the ten channels are given their last axis. -/
structure AtI (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v136 : W (Proc.devRef .tc main_v136) = ReadP.val_main_v136 (F := F) X.x0 X.x1 X.x6 X.x7
  v137 : W (Proc.devRef .tc main_v137) = ReadP.val_main_v137 (F := F) X.x0 X.x1 X.x6 X.x7
  v138 : W (Proc.devRef .tc main_v138) = ReadP.val_main_v138 (F := F) X.x0 X.x1 X.x6 X.x7
  v139 : W (Proc.devRef .tc main_v139) = ReadP.val_main_v139 (F := F) X.x0 X.x1 X.x6 X.x7
  v140 : W (Proc.devRef .tc main_v140) = ReadP.val_main_v140 (F := F) X.x0 X.x1 X.x6 X.x7
  v141 : W (Proc.devRef .tc main_v141) = ReadP.val_main_v141 (F := F) X.x5
  v142 : W (Proc.devRef .tc main_v142) = ReadP.val_main_v142 (F := F) X.x3
  v143 : W (Proc.devRef .tc main_v143) = ReadP.val_main_v143 (F := F) X.x4
  v144 : W (Proc.devRef .tc main_v144) = ReadP.val_main_v144 (F := F) X.x2
  v145 : W (Proc.devRef .tc main_v145) = ReadP.val_main_v145 (F := F) X.x2
  v131 : W (Proc.devRef .tc main_v131) = ReadP.val_main_v131 (F := F) X.x2

/-- After the stack. -/
structure AtJ (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v146 : W (Proc.devRef .tc main_v146) = ReadP.val_main_v146 (F := F) X.x0 X.x1 X.x2 X.x3 X.x4 X.x5 X.x6 X.x7
  v131 : W (Proc.devRef .tc main_v131) = ReadP.val_main_v131 (F := F) X.x2

/-- At the end. -/
structure AtK (X : Args F) (W : Valuation τ sig (Elt F)) : Prop where
  a0 : W (Proc.devRef .tc main_arg0) = X.x0
  a1 : W (Proc.devRef .tc main_arg1) = X.x1
  a2 : W (Proc.devRef .tc main_arg2) = X.x2
  a3 : W (Proc.devRef .tc main_arg3) = X.x3
  a4 : W (Proc.devRef .tc main_arg4) = X.x4
  a5 : W (Proc.devRef .tc main_arg5) = X.x5
  a6 : W (Proc.devRef .tc main_arg6) = X.x6
  a7 : W (Proc.devRef .tc main_arg7) = X.x7
  v146 : W (Proc.devRef .tc main_v146) = ReadP.val_main_v146 (F := F) X.x0 X.x1 X.x2 X.x3 X.x4 X.x5 X.x6 X.x7
  v154 : W (Proc.devRef .tc main_v154) = ReadP.val_main_v154 (F := F) X.x0 X.x1 X.x2 X.x3 X.x4 X.x5 X.x6 X.x7
  v160 : W (Proc.devRef .tc main_v160) = ReadP.val_main_v160 (F := F) X.x7

/-! ## The stretches -/

/-- Stretch A: the normalised trough of every row. -/
theorem stepA {X : Args F} {W : Valuation τ sig (Elt F)} (h : At0 X W) : AtA X (after opsA W) where
  a0 := (keepA W (by decide)).trans h.a0
  a1 := (keepA W (by decide)).trans h.a1
  a2 := (keepA W (by decide)).trans h.a2
  a3 := (keepA W (by decide)).trans h.a3
  a4 := (keepA W (by decide)).trans h.a4
  a5 := (keepA W (by decide)).trans h.a5
  a6 := (keepA W (by decide)).trans h.a6
  a7 := (keepA W (by decide)).trans h.a7
  v30 := by
    after_results_simp
    rw [h.a0, h.a1]
    rfl

/-- Stretch B: the periodic basis. -/
theorem stepB {X : Args F} {W : Valuation τ sig (Elt F)} (h : AtA X W) : AtB X (after opsB W) where
  a0 := (keepB W (by decide)).trans h.a0
  a1 := (keepB W (by decide)).trans h.a1
  a2 := (keepB W (by decide)).trans h.a2
  a3 := (keepB W (by decide)).trans h.a3
  a4 := (keepB W (by decide)).trans h.a4
  a5 := (keepB W (by decide)).trans h.a5
  a6 := (keepB W (by decide)).trans h.a6
  a7 := (keepB W (by decide)).trans h.a7
  v30 := (keepB W (by decide)).trans h.v30
  v52 := by
    after_results_simp
    rw [h.a6, h.a7]
    rfl

/-- Stretch C: the periodic score. -/
theorem stepC {X : Args F} {W : Valuation τ sig (Elt F)} (h : AtB X W) : AtC X (after opsC W) where
  a0 := (keepC W (by decide)).trans h.a0
  a1 := (keepC W (by decide)).trans h.a1
  a2 := (keepC W (by decide)).trans h.a2
  a3 := (keepC W (by decide)).trans h.a3
  a4 := (keepC W (by decide)).trans h.a4
  a5 := (keepC W (by decide)).trans h.a5
  a6 := (keepC W (by decide)).trans h.a6
  a7 := (keepC W (by decide)).trans h.a7
  v30 := (keepC W (by decide)).trans h.v30
  v52 := (keepC W (by decide)).trans h.v52
  v55 := by
    after_results_simp
    rw [h.v30, h.v52]
    rfl

/-- Stretch D: the four band masks. -/
theorem stepD {X : Args F} {W : Valuation τ sig (Elt F)} (h : AtC X W) : AtD X (after opsD W) where
  a0 := (keepD W (by decide)).trans h.a0
  a1 := (keepD W (by decide)).trans h.a1
  a2 := (keepD W (by decide)).trans h.a2
  a3 := (keepD W (by decide)).trans h.a3
  a4 := (keepD W (by decide)).trans h.a4
  a5 := (keepD W (by decide)).trans h.a5
  a6 := (keepD W (by decide)).trans h.a6
  a7 := (keepD W (by decide)).trans h.a7
  v30 := (keepD W (by decide)).trans h.v30
  v52 := (keepD W (by decide)).trans h.v52
  v55 := (keepD W (by decide)).trans h.v55
  v83 := by
    after_results_simp
    rw [h.a6]
    rfl
  v84 := by
    after_results_simp
    rw [h.a6]
    rfl
  v85 := by
    after_results_simp
    rw [h.a6]
    rfl
  v86 := by
    after_results_simp
    rw [h.a6]
    rfl

/-- Stretch E: the four band masks stacked. -/
theorem stepE {X : Args F} {W : Valuation τ sig (Elt F)} (h : AtD X W) : AtE X (after opsE W) where
  a0 := (keepE W (by decide)).trans h.a0
  a1 := (keepE W (by decide)).trans h.a1
  a2 := (keepE W (by decide)).trans h.a2
  a3 := (keepE W (by decide)).trans h.a3
  a4 := (keepE W (by decide)).trans h.a4
  a5 := (keepE W (by decide)).trans h.a5
  a6 := (keepE W (by decide)).trans h.a6
  a7 := (keepE W (by decide)).trans h.a7
  v30 := (keepE W (by decide)).trans h.v30
  v52 := (keepE W (by decide)).trans h.v52
  v55 := (keepE W (by decide)).trans h.v55
  v87 := by
    show (opBands (F := F)).result W (Proc.devRef .tc main_v87) = _
    unfold opBands
    rw [nary_result']
    show concatenate S4x1025 0 [⟨S1x1025, (W (Proc.devRef .tc main_v83))⟩, ⟨S1x1025, (W (Proc.devRef .tc main_v84))⟩, ⟨S1x1025, (W (Proc.devRef .tc main_v85))⟩, ⟨S1x1025, (W (Proc.devRef .tc main_v86))⟩] concatenates_S1x1025_S1x1025_S1x1025_S1x1025_S4x1025_d0 = _
    rw [h.v83, h.v84, h.v85, h.v86]
    rfl

/-- Stretch F: the bands' bin counts. -/
theorem stepF {X : Args F} {W : Valuation τ sig (Elt F)} (h : AtE X W) : AtF X (after opsF W) where
  a0 := (keepF W (by decide)).trans h.a0
  a1 := (keepF W (by decide)).trans h.a1
  a2 := (keepF W (by decide)).trans h.a2
  a3 := (keepF W (by decide)).trans h.a3
  a4 := (keepF W (by decide)).trans h.a4
  a5 := (keepF W (by decide)).trans h.a5
  a6 := (keepF W (by decide)).trans h.a6
  a7 := (keepF W (by decide)).trans h.a7
  v30 := (keepF W (by decide)).trans h.v30
  v52 := (keepF W (by decide)).trans h.v52
  v55 := (keepF W (by decide)).trans h.v55
  v87 := (keepF W (by decide)).trans h.v87
  v90 := by
    after_results_simp
    rw [h.v87]
    rfl

/-- Stretch G: the four band scores. -/
theorem stepG {X : Args F} {W : Valuation τ sig (Elt F)} (h : AtF X W) : AtG X (after opsG W) where
  a0 := (keepG W (by decide)).trans h.a0
  a1 := (keepG W (by decide)).trans h.a1
  a2 := (keepG W (by decide)).trans h.a2
  a3 := (keepG W (by decide)).trans h.a3
  a4 := (keepG W (by decide)).trans h.a4
  a5 := (keepG W (by decide)).trans h.a5
  a6 := (keepG W (by decide)).trans h.a6
  a7 := (keepG W (by decide)).trans h.a7
  v55 := (keepG W (by decide)).trans h.v55
  v102 := by
    after_results_simp
    rw [h.v52, h.v87, h.v30, h.v90]
    rfl
  v104 := by
    after_results_simp
    rw [h.v52, h.v87, h.v30, h.v90]
    rfl
  v106 := by
    after_results_simp
    rw [h.v52, h.v87, h.v30, h.v90]
    rfl
  v108 := by
    after_results_simp
    rw [h.v52, h.v87, h.v30, h.v90]
    rfl

/-- Stretch H: the five side channels. -/
theorem stepH {X : Args F} {W : Valuation τ sig (Elt F)} (h : AtG X W) : AtH X (after opsH W) where
  a0 := (keepH W (by decide)).trans h.a0
  a1 := (keepH W (by decide)).trans h.a1
  a2 := (keepH W (by decide)).trans h.a2
  a3 := (keepH W (by decide)).trans h.a3
  a4 := (keepH W (by decide)).trans h.a4
  a5 := (keepH W (by decide)).trans h.a5
  a6 := (keepH W (by decide)).trans h.a6
  a7 := (keepH W (by decide)).trans h.a7
  v55 := (keepH W (by decide)).trans h.v55
  v102 := (keepH W (by decide)).trans h.v102
  v104 := (keepH W (by decide)).trans h.v104
  v106 := (keepH W (by decide)).trans h.v106
  v108 := (keepH W (by decide)).trans h.v108
  v118 := by
    after_results_simp
    rw [h.a5]
    rfl
  v123 := by
    after_results_simp
    rw [h.a3]
    rfl
  v128 := by
    after_results_simp
    rw [h.a4]
    rfl
  v131 := by
    after_results_simp
    rw [h.a2]
    rfl
  v135 := by
    after_results_simp
    rw [h.a2]
    rfl

/-- Stretch I: the ten channels, each given a last axis of size one. -/
theorem stepI {X : Args F} {W : Valuation τ sig (Elt F)} (h : AtH X W) : AtI X (after opsI W) where
  a0 := (keepI W (by decide)).trans h.a0
  a1 := (keepI W (by decide)).trans h.a1
  a2 := (keepI W (by decide)).trans h.a2
  a3 := (keepI W (by decide)).trans h.a3
  a4 := (keepI W (by decide)).trans h.a4
  a5 := (keepI W (by decide)).trans h.a5
  a6 := (keepI W (by decide)).trans h.a6
  a7 := (keepI W (by decide)).trans h.a7
  v136 := by
    after_results_simp
    rw [h.v55]
    rfl
  v137 := by
    after_results_simp
    rw [h.v102]
    rfl
  v138 := by
    after_results_simp
    rw [h.v104]
    rfl
  v139 := by
    after_results_simp
    rw [h.v106]
    rfl
  v140 := by
    after_results_simp
    rw [h.v108]
    rfl
  v141 := by
    after_results_simp
    rw [h.v118]
    rfl
  v142 := by
    after_results_simp
    rw [h.v123]
    rfl
  v143 := by
    after_results_simp
    rw [h.v128]
    rfl
  v144 := by
    after_results_simp
    rw [h.v131]
    rfl
  v145 := by
    after_results_simp
    rw [h.v135]
    rfl
  v131 := (keepI W (by decide)).trans h.v131

/-- Stretch J: the ten channels stacked. -/
theorem stepJ {X : Args F} {W : Valuation τ sig (Elt F)} (h : AtI X W) : AtJ X (after opsJ W) where
  a0 := (keepJ W (by decide)).trans h.a0
  a1 := (keepJ W (by decide)).trans h.a1
  a2 := (keepJ W (by decide)).trans h.a2
  a3 := (keepJ W (by decide)).trans h.a3
  a4 := (keepJ W (by decide)).trans h.a4
  a5 := (keepJ W (by decide)).trans h.a5
  a6 := (keepJ W (by decide)).trans h.a6
  a7 := (keepJ W (by decide)).trans h.a7
  v146 := by
    show (opStack (F := F)).result W (Proc.devRef .tc main_v146) = _
    unfold opStack
    rw [nary_result']
    show concatenate S16x2048x64x10 3 [⟨S16x2048x64x1, (W (Proc.devRef .tc main_v136))⟩, ⟨S16x2048x64x1, (W (Proc.devRef .tc main_v137))⟩, ⟨S16x2048x64x1, (W (Proc.devRef .tc main_v138))⟩, ⟨S16x2048x64x1, (W (Proc.devRef .tc main_v139))⟩, ⟨S16x2048x64x1, (W (Proc.devRef .tc main_v140))⟩, ⟨S16x2048x64x1, (W (Proc.devRef .tc main_v141))⟩, ⟨S16x2048x64x1, (W (Proc.devRef .tc main_v142))⟩, ⟨S16x2048x64x1, (W (Proc.devRef .tc main_v143))⟩, ⟨S16x2048x64x1, (W (Proc.devRef .tc main_v144))⟩, ⟨S16x2048x64x1, (W (Proc.devRef .tc main_v145))⟩] concatenates_S16x2048x64x1_S16x2048x64x1_S16x2048x64x1_S16x2048x64x1_S16x2048x64x1_S16x2048x64x1_S16x2048x64x1_S16x2048x64x1_S16x2048x64x1_S16x2048x64x1_S16x2048x64x10_d3 = _
    rw [h.v136, h.v137, h.v138, h.v139, h.v140, h.v141, h.v142, h.v143, h.v144, h.v145]
    rfl
  v131 := (keepJ W (by decide)).trans h.v131

/-- Stretch K: the channel mean, the gated mean and the periods. -/
theorem stepK {X : Args F} {W : Valuation τ sig (Elt F)} (h : AtJ X W) : AtK X (after opsK W) where
  a0 := (keepK W (by decide)).trans h.a0
  a1 := (keepK W (by decide)).trans h.a1
  a2 := (keepK W (by decide)).trans h.a2
  a3 := (keepK W (by decide)).trans h.a3
  a4 := (keepK W (by decide)).trans h.a4
  a5 := (keepK W (by decide)).trans h.a5
  a6 := (keepK W (by decide)).trans h.a6
  a7 := (keepK W (by decide)).trans h.a7
  v146 := (keepK W (by decide)).trans h.v146
  v154 := by
    after_results_simp
    rw [h.v146, h.v131]
    rfl
  v160 := by
    after_results_simp
    rw [h.a7]
    rfl

/-! ## The stretches, one after the other -/

/-- The argument arrays' contents under a valuation. -/
abbrev argsOf (V : Valuation τ sig (Elt F)) : Args F :=
  ⟨V (Proc.devRef .tc main_arg0), V (Proc.devRef .tc main_arg1), V (Proc.devRef .tc main_arg2), V (Proc.devRef .tc main_arg3), V (Proc.devRef .tc main_arg4), V (Proc.devRef .tc main_arg5), V (Proc.devRef .tc main_arg6), V (Proc.devRef .tc main_arg7)⟩

/-- Any valuation has the argument arrays at their own contents. -/
theorem at0 (V : Valuation τ sig (Elt F)) : At0 (argsOf V) V := ⟨rfl, rfl, rfl, rfl, rfl, rfl, rfl, rfl⟩

/-- The contents after all of @main's operations are the contents after the eleven stretches in turn. -/
theorem after_ops (V : Valuation τ sig (Elt F)) :
    after ops V = after opsK (after opsJ (after opsI (after opsH (after opsG (after opsF (after opsE (after opsD (after opsC (after opsB (after opsA (V))))))))))) := by
  show after (opsA ++ (opsB ++ (opsC ++ (opsD ++ (opsE ++ (opsF ++ (opsG ++ (opsH ++ (opsI ++ (opsJ ++ (opsK))))))))))) V = _
  rw [after_app, after_app, after_app, after_app, after_app, after_app, after_app, after_app, after_app, after_app]

/-- After all of @main's operations: the three results at their stages of the arguments, the arguments as they were. -/
theorem at_end (V : Valuation τ sig (Elt F)) : AtK (argsOf V) (after ops V) := by
  rw [after_ops]
  exact stepK (stepJ (stepI (stepH (stepG (stepF (stepE (stepD (stepC (stepB (stepA (at0 V)))))))))))

/-! ## The run -/

/-- On every device, for any float values, from any memory with zero counters: every weakly fair execution of @main
    terminates with the stack, the gated mean and the periods at their stages of the arguments' launch contents and the
    arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v146) = Cert.ReferenceIdeal.ReadP.val_main_v146 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_v154) = Cert.ReferenceIdeal.ReadP.val_main_v154 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg7) = m ((c.tc : Thread nD τ).loc main_arg7)
      ∧ r.2.mem ((c.tc : Thread nD τ).loc main_v160) = Cert.ReferenceIdeal.ReadP.val_main_v160 (F := F) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c =>
      have e := at_end (F := F) (launchContents m c)
      ⟨(h c main_v146).trans e.v146, (h c main_v154).trans e.v154, (h c main_arg7).trans e.a7, (h c main_v160).trans e.v160,
        (h c main_arg0).trans e.a0, (h c main_arg1).trans e.a1, (h c main_arg2).trans e.a2, (h c main_arg3).trans e.a3, (h c main_arg4).trans e.a4, (h c main_arg5).trans e.a5, (h c main_arg6).trans e.a6, (h c main_arg7).trans e.a7⟩)
    (run_seq scopedRefs_eq scopedSems_eq defs main (fun _ => ops) main_eq (fun _ => ops_sub) m ρ
      (fun _ => List.forall_iff_forall_mem.mp ops_fresh))

end Cert.ReferenceIdeal.ValueC

end
-- ==== Proof.lean ====
/-
  The certificate's five claims assembled.

  The kernel's program computes, per time frame, a trough profile of the log-magnitude row (the part below the row's
  mean, weighted by the comb channels' first-difference strength and normalised by its own mean) and multiplies it into
  one [1025, 320] matrix that folds the periodicity basis over 1025 and the four band-masked bases over their bin counts;
  the reference forms the five sums first and divides afterwards. A positive divisor comes out of a finite sum of
  extended reals, so the two agree entry by entry; everything else the two programs do is the same host arithmetic.

  Frames: the kernel's two programs (at the word level and at the ideal values) run their one region around 91 earlier
  and 93 later host lines and leave every argument array as launched; the reference is host lines only.
-/
import proofs.«120933_j27814208209311_1_alg».proof.Defs
import proofs.«120933_j27814208209311_1_alg».proof.Proof.KFrame
import proofs.«120933_j27814208209311_1_alg».proof.Proof.KIFrame
import proofs.«120933_j27814208209311_1_alg».proof.Proof.Value
import proofs.«120933_j27814208209311_1_alg».proof.Proof.RefRunC
import proofs.«120933_j27814208209311_1_alg».proof.Proof.Gen.Pre_finite_inputs
import Idealize.ShloMosaic.Adequacy
import Idealize.ShloMosaic.Init

set_option maxRecDepth 16384

noncomputable section

namespace Cert.Proof

open Idealize.ShloMosaic Idealize.ShloMosaic.TcCoe Idealize.SL.Sem

/-- The word-level kernel program's frame. -/
theorem frame_k : Cert.frame_Kernel := fun m ρ _ => Cert.Kernel.Fr.frame (F := Bits) m ρ

/-- The idealized kernel program's frame. -/
theorem frame_ki : Cert.frame_KernelIdeal := fun m ρ _ => Cert.KernelIdeal.Fr.frame (F := Ideal) m ρ

/-- The reference's frame: its run, the results dropped. -/
theorem frame_ri : Cert.frame_ReferenceIdeal := fun m ρ _ =>
  (θ_run Cert.ReferenceIdeal.defs _ _).mono (fun _ h c => (h c).2.2.2.2) (Cert.ReferenceIdeal.ValueC.run (F := Ideal) m ρ)

/-- The ideal pass rewrote nothing. -/
theorem preserves : Cert.preserves_Kernel_KernelIdeal := trivial

/-- Run from memories that agree on the arguments, the two idealized programs end with equal results: the kernel's are
    read off its frame run (the region's result array, then the later lines), the reference's off its run, and the two
    terms are one by `Cert.Value`. -/
theorem algebraic : Cert.algebraic_KernelIdeal_ReferenceIdeal := by
  intro m ρ m' ρ' _ hagree
  refine ⟨fun c => Pipeline.afterTail₀ Cert.KernelIdeal.cfgs (Cert.KernelIdeal.Fr.dats m) 0 (Cert.KernelIdeal.Hs.V0 m) Cert.KernelIdeal.Hs.tailOps c Cert.KernelIdeal.main_v121,
    fun c => Pipeline.afterTail₀ Cert.KernelIdeal.cfgs (Cert.KernelIdeal.Fr.dats m) 0 (Cert.KernelIdeal.Hs.V0 m) Cert.KernelIdeal.Hs.tailOps c Cert.KernelIdeal.main_v129,
    fun c => m ((c.tc : Thread Cert.KernelIdeal.nD Cert.KernelIdeal.τ).loc Cert.KernelIdeal.main_arg7),
    fun c => Pipeline.afterTail₀ Cert.KernelIdeal.cfgs (Cert.KernelIdeal.Fr.dats m) 0 (Cert.KernelIdeal.Hs.V0 m) Cert.KernelIdeal.Hs.tailOps c Cert.KernelIdeal.main_v135,
    ?_, ?_⟩
  · refine (θ_run Cert.KernelIdeal.defs _ _).mono (fun r h c => ?_) (Cert.KernelIdeal.Fr.run_main (F := Ideal) m ρ)
    have hk := Cert.KernelIdeal.Fr.kept_args m r h c
    exact ⟨(h c).2 _ (Pipeline.mem_restRefs_of Cert.KernelIdeal.main_v121 (by decide) (by decide)),
      (h c).2 _ (Pipeline.mem_restRefs_of Cert.KernelIdeal.main_v129 (by decide) (by decide)),
      hk.2.2.2.2.2.2.2,
      (h c).2 _ (Pipeline.mem_restRefs_of Cert.KernelIdeal.main_v135 (by decide) (by decide)),
      hk⟩
  · refine (θ_run Cert.ReferenceIdeal.defs _ _).mono (fun r h c => ?_) (Cert.ReferenceIdeal.ValueC.run (F := Ideal) m' ρ')
    obtain ⟨h0, h1, h2, h3, hargs⟩ := h c
    obtain ⟨e0, e1, e2, e3, e4, e5, e6, e7⟩ := hagree c
    refine ⟨h0.trans ?_, h1.trans ?_, h2.trans e7, h3.trans ?_, hargs⟩
    · rw [e0, e1, e2, e3, e4, e5, e6, e7]
      exact (Cert.Value.kernel_stack m c).symm
    · rw [e0, e1, e2, e3, e4, e5, e6, e7]
      exact (Cert.Value.kernel_logits m c).symm
    · rw [e7]
      exact (Cert.Value.kernel_grid m c).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
